-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x56x56 : Shape := ⟨4, ![8, 256, 56, 56]⟩
abbrev S8x18x56x56 : Shape := ⟨4, ![8, 18, 56, 56]⟩
abbrev S8x9x56x56 : Shape := ⟨4, ![8, 9, 56, 56]⟩
abbrev S256x256x3x3 : Shape := ⟨4, ![256, 256, 3, 3]⟩
abbrev S256 : Shape := ⟨1, ![256]⟩
abbrev S_ : Shape := ⟨0, ![]⟩

class Facts : Prop where
  bcast_S_S8x256x56x56 : S_.BroadcastsInDim S8x256x56x56 (![] : Fin 0 → Fin S8x256x56x56.rank)
  reducesTo_S8x256x56x56_S_d0_1_2_3 : S8x256x56x56.ReducesTo [0, 1, 2, 3] S_
  h_S_ : 0 < S_.numel
  bcast_S_S8x18x56x56 : S_.BroadcastsInDim S8x18x56x56 (![] : Fin 0 → Fin S8x18x56x56.rank)
  reducesTo_S8x18x56x56_S_d0_1_2_3 : S8x18x56x56.ReducesTo [0, 1, 2, 3] S_
  bcast_S_S8x9x56x56 : S_.BroadcastsInDim S8x9x56x56 (![] : Fin 0 → Fin S8x9x56x56.rank)
  reducesTo_S8x9x56x56_S_d0_1_2_3 : S8x9x56x56.ReducesTo [0, 1, 2, 3] S_
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256x3x3 1) : IVec S_ 1 :=
  let main_c_5 : IVec S_ 1 := constantI S_ 1 1#1
  let main_v17 : IVec S_ 1 := (fun x v => Host.reduce IntOp.andi x v reducesTo_S256x256x3x3_S_d0_1_2_3 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x256x56x56 .f32) (main_arg1 : FVec F S8x18x56x56 .f32) (main_arg2 : FVec F S8x9x56x56 .f32) (main_arg3 : FVec F S256x256x3x3 .f32) (main_arg4 : FVec F S256 .f32) : IVec S_ 1 :=
  let main_v0 : FVec F S8x256x56x56 .f32 := Host.absf main_arg0
  let main_cst : FVec F S_ .f32 := constant S_ .f32 0x7F800000#32
  let main_v1 : FVec F S8x256x56x56 .f32 := broadcastInDim S8x256x56x56 ![] bcast_S_S8x256x56x56 main_cst
  let main_v2 : IVec S8x256x56x56 1 := cmpf .olt main_v0 main_v1
  let main_c : IVec S_ 1 := constantI S_ 1 1#1
  let main_v3 : IVec S_ 1 := (fun x v => Host.reduce IntOp.andi x v reducesTo_S8x256x56x56_S_d0_1_2_3 h_S_) main_v2 main_c
  let main_v4 : FVec F S8x18x56x56 .f32 := Host.absf main_arg1
  let main_cst_0 : FVec F S_ .f32 := constant S_ .f32 0x7F800000#32
  let main_v5 : FVec F S8x18x56x56 .f32 := broadcastInDim S8x18x56x56 ![] bcast_S_S8x18x56x56 main_cst_0
  let main_v6 : IVec S8x18x56x56 1 := cmpf .olt main_v4 main_v5
  let main_c_1 : IVec S_ 1 := constantI S_ 1 1#1
  let main_v7 : IVec S_ 1 := (fun x v => Host.reduce IntOp.andi x v reducesTo_S8x18x56x56_S_d0_1_2_3 h_S_) main_v6 main_c_1
  let main_v8 : IVec S_ 1 := andi main_v3 main_v7
  let main_v9 : FVec F S8x9x56x56 .f32 := Host.absf main_arg2
  let main_cst_2 : FVec F S_ .f32 := constant S_ .f32 0x7F800000#32
  let main_v10 : FVec F S8x9x56x56 .f32 := broadcastInDim S8x9x56x56 ![] bcast_S_S8x9x56x56 main_cst_2
  let main_v11 : IVec S8x9x56x56 1 := cmpf .olt main_v9 main_v10
  let main_c_3 : IVec S_ 1 := constantI S_ 1 1#1
  let main_v12 : IVec S_ 1 := (fun x v => Host.reduce IntOp.andi x v reducesTo_S8x9x56x56_S_d0_1_2_3 h_S_) main_v11 main_c_3
  let main_v13 : IVec S_ 1 := andi main_v8 main_v12
  let main_v14 : FVec F S256x256x3x3 .f32 := Host.absf main_arg3
  let main_cst_4 : FVec F S_ .f32 := constant S_ .f32 0x7F800000#32
  let main_v15 : FVec F S256x256x3x3 .f32 := broadcastInDim S256x256x3x3 ![] bcast_S_S256x256x3x3 main_cst_4
  let main_v16 : IVec S256x256x3x3 1 := cmpf .olt main_v14 main_v15
  fn_part1 (F := F) main_arg4 main_v13 main_v16
-- ==== Kernel.lean ====
abbrev S8x256x56x56 : Shape := ⟨4, ![8, 256, 56, 56]⟩
abbrev S8x18x56x56 : Shape := ⟨4, ![8, 18, 56, 56]⟩
abbrev S8x9x56x56 : Shape := ⟨4, ![8, 9, 56, 56]⟩
abbrev S256x256x3x3 : Shape := ⟨4, ![256, 256, 3, 3]⟩
abbrev S256 : Shape := ⟨1, ![256]⟩
abbrev S56 : Shape := ⟨1, ![56]⟩
abbrev S_ : Shape := ⟨0, ![]⟩
abbrev S56x1 : Shape := ⟨2, ![56, 1]⟩
abbrev S3 : Shape := ⟨1, ![3]⟩
abbrev S1x3 : Shape := ⟨2, ![1, 3]⟩
abbrev S56x3 : Shape := ⟨2, ![56, 3]⟩
abbrev S56x1x3x1 : Shape := ⟨4, ![56, 1, 3, 1]⟩
abbrev S56x56x3x3 : Shape := ⟨4, ![56, 56, 3, 3]⟩
abbrev S56x56x9 : Shape := ⟨3, ![56, 56, 9]⟩
abbrev S1x56x1x3 : Shape := ⟨4, ![1, 56, 1, 3]⟩
abbrev S56x56x9x1 : Shape := ⟨4, ![56, 56, 9, 1]⟩
abbrev S56x56x9x2 : Shape := ⟨4, ![56, 56, 9, 2]⟩
abbrev S8x1x9x2x56x56 : Shape := ⟨6, ![8, 1, 9, 2, 56, 56]⟩
abbrev S8x1x56x56x9x2 : Shape := ⟨6, ![8, 1, 56, 56, 9, 2]⟩
abbrev S1x1x56x56x9x2 : Shape := ⟨6, ![1, 1, 56, 56, 9, 2]⟩
abbrev S8x1x56x56x9x1 : Shape := ⟨6, ![8, 1, 56, 56, 9, 1]⟩
abbrev S8x1x56x56x9 : Shape := ⟨5, ![8, 1, 56, 56, 9]⟩
abbrev S8x1x256x3136 : Shape := ⟨4, ![8, 1, 256, 3136]⟩
abbrev S8x1x1x28224 : Shape := ⟨4, ![8, 1, 1, 28224]⟩
abbrev S8x28224x1 : Shape := ⟨3, ![8, 28224, 1]⟩
abbrev S1 : Shape := ⟨1, ![1]⟩
abbrev S1x1x1 : Shape := ⟨3, ![1, 1, 1]⟩
abbrev S8x28224 : Shape := ⟨2, ![8, 28224]⟩
abbrev S8x1x256x28224 : Shape := ⟨4, ![8, 1, 256, 28224]⟩
abbrev S8x1x256x56x56x9 : Shape := ⟨6, ![8, 1, 256, 56, 56, 9]⟩
abbrev S8x1x1x56x56x9 : Shape := ⟨6, ![8, 1, 1, 56, 56, 9]⟩
abbrev S8x1x9x56x56 : Shape := ⟨5, ![8, 1, 9, 56, 56]⟩
abbrev S1x256x9x8x56x56 : Shape := ⟨6, ![1, 256, 9, 8, 56, 56]⟩
abbrev S1x2304x25088 : Shape := ⟨3, ![1, 2304, 25088]⟩
abbrev S2304x25088 : Shape := ⟨2, ![2304, 25088]⟩
abbrev S1x256x2304 : Shape := ⟨3, ![1, 256, 2304]⟩
abbrev S256x2304 : Shape := ⟨2, ![256, 2304]⟩
abbrev S256x1 : Shape := ⟨2, ![256, 1]⟩
abbrev S256x25088 : Shape := ⟨2, ![256, 25088]⟩
abbrev S2304x1792 : Shape := ⟨2, ![2304, 1792]⟩
abbrev S256x1792 : Shape := ⟨2, ![256, 1792]⟩
abbrev S256x8x56x56 : Shape := ⟨4, ![256, 8, 56, 56]⟩

abbrev nBuf : Space → Nat
  | .hbm => 361
  | .vmem => 6
  | .smem => 0
  | _ => 0

abbrev hbmTy0_0 (i : Nat) : BufTy := match i % 128 with
  | 0 => ⟨S8x256x56x56, .f32⟩
  | 1 => ⟨S8x18x56x56, .f32⟩
  | 2 => ⟨S8x9x56x56, .f32⟩
  | 3 => ⟨S256x256x3x3, .f32⟩
  | 4 => ⟨S256, .f32⟩
  | 5 => ⟨S56, .i32⟩
  | 6 => ⟨S_, .i32⟩
  | 7 => ⟨S56, .i32⟩
  | 8 => ⟨S56, .i32⟩
  | 9 => ⟨S_, .i32⟩
  | 10 => ⟨S56, .i32⟩
  | 11 => ⟨S56, .i32⟩
  | 12 => ⟨S56x1, .i32⟩
  | 13 => ⟨S3, .i32⟩
  | 14 => ⟨S_, .i32⟩
  | 15 => ⟨S3, .i32⟩
  | 16 => ⟨S3, .i32⟩
  | 17 => ⟨S1x3, .i32⟩
  | 18 => ⟨S56x3, .i32⟩
  | 19 => ⟨S56x3, .i32⟩
  | 20 => ⟨S56x3, .i32⟩
  | 21 => ⟨S56, .i32⟩
  | 22 => ⟨S_, .i32⟩
  | 23 => ⟨S56, .i32⟩
  | 24 => ⟨S56, .i32⟩
  | 25 => ⟨S_, .i32⟩
  | 26 => ⟨S56, .i32⟩
  | 27 => ⟨S56, .i32⟩
  | 28 => ⟨S56x1, .i32⟩
  | 29 => ⟨S3, .i32⟩
  | 30 => ⟨S_, .i32⟩
  | 31 => ⟨S3, .i32⟩
  | 32 => ⟨S3, .i32⟩
  | 33 => ⟨S1x3, .i32⟩
  | 34 => ⟨S56x3, .i32⟩
  | 35 => ⟨S56x3, .i32⟩
  | 36 => ⟨S56x3, .i32⟩
  | 37 => ⟨S56x1x3x1, .i32⟩
  | 38 => ⟨S56x56x3x3, .i32⟩
  | 39 => ⟨S56x56x9, .i32⟩
  | 40 => ⟨S1x56x1x3, .i32⟩
  | 41 => ⟨S56x56x3x3, .i32⟩
  | 42 => ⟨S56x56x9, .i32⟩
  | 43 => ⟨S56x56x9x1, .i32⟩
  | 44 => ⟨S56x56x9x1, .i32⟩
  | 45 => ⟨S56x56x9x2, .i32⟩
  | 46 => ⟨S56x56x9x2, .f32⟩
  | 47 => ⟨S8x1x9x2x56x56, .f32⟩
  | 48 => ⟨S8x1x56x56x9x2, .f32⟩
  | 49 => ⟨S1x1x56x56x9x2, .f32⟩
  | 50 => ⟨S8x1x56x56x9x2, .f32⟩
  | 51 => ⟨S8x1x56x56x9x2, .f32⟩
  | 52 => ⟨S8x1x56x56x9x2, .f32⟩
  | 53 => ⟨S8x1x56x56x9x2, .f32⟩
  | 54 => ⟨S8x1x56x56x9x1, .f32⟩
  | 55 => ⟨S8x1x56x56x9, .f32⟩
  | 56 => ⟨S8x1x56x56x9, .i32⟩
  | 57 => ⟨S8x1x56x56x9x1, .f32⟩
  | 58 => ⟨S8x1x56x56x9, .f32⟩
  | 59 => ⟨S8x1x56x56x9, .i32⟩
  | 60 => ⟨S_, .i32⟩
  | 61 => ⟨S8x1x56x56x9, .i32⟩
  | 62 => ⟨S8x1x56x56x9, .i32⟩
  | 63 => ⟨S_, .i32⟩
  | 64 => ⟨S8x1x56x56x9, .i32⟩
  | 65 => ⟨S8x1x56x56x9, .i32⟩
  | 66 => ⟨S8x1x256x3136, .f32⟩
  | 67 => ⟨S_, .i32⟩
  | 68 => ⟨S8x1x56x56x9, .i32⟩
  | 69 => ⟨S8x1x56x56x9, .i1⟩
  | 70 => ⟨S_, .i32⟩
  | 71 => ⟨S8x1x56x56x9, .i32⟩
  | 72 => ⟨S8x1x56x56x9, .i1⟩
  | 73 => ⟨S8x1x56x56x9, .i1⟩
  | 74 => ⟨S_, .i32⟩
  | 75 => ⟨S8x1x56x56x9, .i32⟩
  | 76 => ⟨S8x1x56x56x9, .i1⟩
  | 77 => ⟨S8x1x56x56x9, .i1⟩
  | 78 => ⟨S_, .i32⟩
  | 79 => ⟨S8x1x56x56x9, .i32⟩
  | 80 => ⟨S8x1x56x56x9, .i1⟩
  | 81 => ⟨S8x1x56x56x9, .i1⟩
  | 82 => ⟨S_, .i32⟩
  | 83 => ⟨S_, .i32⟩
  | 84 => ⟨S_, .i32⟩
  | 85 => ⟨S8x1x56x56x9, .i32⟩
  | 86 => ⟨S8x1x56x56x9, .i32⟩
  | 87 => ⟨S_, .i32⟩
  | 88 => ⟨S8x1x56x56x9, .i32⟩
  | 89 => ⟨S8x1x56x56x9, .i32⟩
  | 90 => ⟨S_, .i32⟩
  | 91 => ⟨S8x1x56x56x9, .i32⟩
  | 92 => ⟨S8x1x56x56x9, .i32⟩
  | 93 => ⟨S_, .i32⟩
  | 94 => ⟨S_, .i32⟩
  | 95 => ⟨S_, .i32⟩
  | 96 => ⟨S8x1x56x56x9, .i32⟩
  | 97 => ⟨S8x1x56x56x9, .i32⟩
  | 98 => ⟨S_, .i32⟩
  | 99 => ⟨S8x1x56x56x9, .i32⟩
  | 100 => ⟨S8x1x56x56x9, .i32⟩
  | 101 => ⟨S8x1x56x56x9, .i32⟩
  | 102 => ⟨S8x1x1x28224, .i32⟩
  | 103 => ⟨S_, .i32⟩
  | 104 => ⟨S8x1x1x28224, .i32⟩
  | 105 => ⟨S8x1x1x28224, .i1⟩
  | 106 => ⟨S_, .i32⟩
  | 107 => ⟨S8x1x1x28224, .i32⟩
  | 108 => ⟨S8x1x1x28224, .i32⟩
  | 109 => ⟨S8x1x1x28224, .i32⟩
  | 110 => ⟨S8x28224x1, .i32⟩
  | 111 => ⟨S1, .i32⟩
  | 112 => ⟨S_, .i32⟩
  | 113 => ⟨S8x28224x1, .i32⟩
  | 114 => ⟨S8x28224x1, .i1⟩
  | 115 => ⟨S1x1x1, .i32⟩
  | 116 => ⟨S8x28224x1, .i32⟩
  | 117 => ⟨S8x28224x1, .i1⟩
  | 118 => ⟨S8x28224x1, .i1⟩
  | 119 => ⟨S_, .i1⟩
  | 120 => ⟨S8x28224, .i1⟩
  | 121 => ⟨S8x1x256x28224, .f32⟩
  | 122 => ⟨S8x1x256x28224, .i1⟩
  | 123 => ⟨S_, .f32⟩
  | 124 => ⟨S8x1x256x28224, .f32⟩
  | 125 => ⟨S8x1x256x28224, .f32⟩
  | 126 => ⟨S8x1x256x56x56x9, .f32⟩
  | 127 => ⟨S8x1x1x56x56x9, .i1⟩
  | _ => ⟨S8x256x56x56, .f32⟩

abbrev hbmTy0_1 (i : Nat) : BufTy := match i % 128 with
  | 0 => ⟨S_, .f32⟩
  | 1 => ⟨S8x1x256x56x56x9, .i1⟩
  | 2 => ⟨S8x1x256x56x56x9, .f32⟩
  | 3 => ⟨S8x1x256x56x56x9, .f32⟩
  | 4 => ⟨S_, .i32⟩
  | 5 => ⟨S8x1x56x56x9, .i32⟩
  | 6 => ⟨S8x1x56x56x9, .i1⟩
  | 7 => ⟨S_, .i32⟩
  | 8 => ⟨S8x1x56x56x9, .i32⟩
  | 9 => ⟨S8x1x56x56x9, .i1⟩
  | 10 => ⟨S8x1x56x56x9, .i1⟩
  | 11 => ⟨S_, .i32⟩
  | 12 => ⟨S8x1x56x56x9, .i32⟩
  | 13 => ⟨S8x1x56x56x9, .i1⟩
  | 14 => ⟨S8x1x56x56x9, .i1⟩
  | 15 => ⟨S_, .i32⟩
  | 16 => ⟨S8x1x56x56x9, .i32⟩
  | 17 => ⟨S8x1x56x56x9, .i1⟩
  | 18 => ⟨S8x1x56x56x9, .i1⟩
  | 19 => ⟨S_, .i32⟩
  | 20 => ⟨S_, .i32⟩
  | 21 => ⟨S_, .i32⟩
  | 22 => ⟨S8x1x56x56x9, .i32⟩
  | 23 => ⟨S8x1x56x56x9, .i32⟩
  | 24 => ⟨S_, .i32⟩
  | 25 => ⟨S8x1x56x56x9, .i32⟩
  | 26 => ⟨S8x1x56x56x9, .i32⟩
  | 27 => ⟨S_, .i32⟩
  | 28 => ⟨S8x1x56x56x9, .i32⟩
  | 29 => ⟨S8x1x56x56x9, .i32⟩
  | 30 => ⟨S_, .i32⟩
  | 31 => ⟨S_, .i32⟩
  | 32 => ⟨S_, .i32⟩
  | 33 => ⟨S8x1x56x56x9, .i32⟩
  | 34 => ⟨S8x1x56x56x9, .i32⟩
  | 35 => ⟨S_, .i32⟩
  | 36 => ⟨S8x1x56x56x9, .i32⟩
  | 37 => ⟨S8x1x56x56x9, .i32⟩
  | 38 => ⟨S8x1x56x56x9, .i32⟩
  | 39 => ⟨S8x1x1x28224, .i32⟩
  | 40 => ⟨S_, .i32⟩
  | 41 => ⟨S8x1x1x28224, .i32⟩
  | 42 => ⟨S8x1x1x28224, .i1⟩
  | 43 => ⟨S_, .i32⟩
  | 44 => ⟨S8x1x1x28224, .i32⟩
  | 45 => ⟨S8x1x1x28224, .i32⟩
  | 46 => ⟨S8x1x1x28224, .i32⟩
  | 47 => ⟨S8x28224x1, .i32⟩
  | 48 => ⟨S1, .i32⟩
  | 49 => ⟨S_, .i32⟩
  | 50 => ⟨S8x28224x1, .i32⟩
  | 51 => ⟨S8x28224x1, .i1⟩
  | 52 => ⟨S1x1x1, .i32⟩
  | 53 => ⟨S8x28224x1, .i32⟩
  | 54 => ⟨S8x28224x1, .i1⟩
  | 55 => ⟨S8x28224x1, .i1⟩
  | 56 => ⟨S_, .i1⟩
  | 57 => ⟨S8x28224, .i1⟩
  | 58 => ⟨S8x1x256x28224, .f32⟩
  | 59 => ⟨S8x1x256x28224, .i1⟩
  | 60 => ⟨S_, .f32⟩
  | 61 => ⟨S8x1x256x28224, .f32⟩
  | 62 => ⟨S8x1x256x28224, .f32⟩
  | 63 => ⟨S8x1x256x56x56x9, .f32⟩
  | 64 => ⟨S8x1x1x56x56x9, .i1⟩
  | 65 => ⟨S_, .f32⟩
  | 66 => ⟨S8x1x256x56x56x9, .i1⟩
  | 67 => ⟨S8x1x256x56x56x9, .f32⟩
  | 68 => ⟨S8x1x256x56x56x9, .f32⟩
  | 69 => ⟨S_, .i32⟩
  | 70 => ⟨S8x1x56x56x9, .i32⟩
  | 71 => ⟨S8x1x56x56x9, .i1⟩
  | 72 => ⟨S_, .i32⟩
  | 73 => ⟨S8x1x56x56x9, .i32⟩
  | 74 => ⟨S8x1x56x56x9, .i1⟩
  | 75 => ⟨S8x1x56x56x9, .i1⟩
  | 76 => ⟨S_, .i32⟩
  | 77 => ⟨S8x1x56x56x9, .i32⟩
  | 78 => ⟨S8x1x56x56x9, .i1⟩
  | 79 => ⟨S8x1x56x56x9, .i1⟩
  | 80 => ⟨S_, .i32⟩
  | 81 => ⟨S8x1x56x56x9, .i32⟩
  | 82 => ⟨S8x1x56x56x9, .i1⟩
  | 83 => ⟨S8x1x56x56x9, .i1⟩
  | 84 => ⟨S_, .i32⟩
  | 85 => ⟨S_, .i32⟩
  | 86 => ⟨S_, .i32⟩
  | 87 => ⟨S8x1x56x56x9, .i32⟩
  | 88 => ⟨S8x1x56x56x9, .i32⟩
  | 89 => ⟨S_, .i32⟩
  | 90 => ⟨S8x1x56x56x9, .i32⟩
  | 91 => ⟨S8x1x56x56x9, .i32⟩
  | 92 => ⟨S_, .i32⟩
  | 93 => ⟨S8x1x56x56x9, .i32⟩
  | 94 => ⟨S8x1x56x56x9, .i32⟩
  | 95 => ⟨S_, .i32⟩
  | 96 => ⟨S_, .i32⟩
  | 97 => ⟨S_, .i32⟩
  | 98 => ⟨S8x1x56x56x9, .i32⟩
  | 99 => ⟨S8x1x56x56x9, .i32⟩
  | 100 => ⟨S_, .i32⟩
  | 101 => ⟨S8x1x56x56x9, .i32⟩
  | 102 => ⟨S8x1x56x56x9, .i32⟩
  | 103 => ⟨S8x1x56x56x9, .i32⟩
  | 104 => ⟨S8x1x1x28224, .i32⟩
  | 105 => ⟨S_, .i32⟩
  | 106 => ⟨S8x1x1x28224, .i32⟩
  | 107 => ⟨S8x1x1x28224, .i1⟩
  | 108 => ⟨S_, .i32⟩
  | 109 => ⟨S8x1x1x28224, .i32⟩
  | 110 => ⟨S8x1x1x28224, .i32⟩
  | 111 => ⟨S8x1x1x28224, .i32⟩
  | 112 => ⟨S8x28224x1, .i32⟩
  | 113 => ⟨S1, .i32⟩
  | 114 => ⟨S_, .i32⟩
  | 115 => ⟨S8x28224x1, .i32⟩
  | 116 => ⟨S8x28224x1, .i1⟩
  | 117 => ⟨S1x1x1, .i32⟩
  | 118 => ⟨S8x28224x1, .i32⟩
  | 119 => ⟨S8x28224x1, .i1⟩
  | 120 => ⟨S8x28224x1, .i1⟩
  | 121 => ⟨S_, .i1⟩
  | 122 => ⟨S8x28224, .i1⟩
  | 123 => ⟨S8x1x256x28224, .f32⟩
  | 124 => ⟨S8x1x256x28224, .i1⟩
  | 125 => ⟨S_, .f32⟩
  | 126 => ⟨S8x1x256x28224, .f32⟩
  | 127 => ⟨S8x1x256x28224, .f32⟩
  | _ => ⟨S8x256x56x56, .f32⟩

abbrev hbmTy0_2 (i : Nat) : BufTy := match i % 128 with
  | 0 => ⟨S8x1x256x56x56x9, .f32⟩
  | 1 => ⟨S8x1x1x56x56x9, .i1⟩
  | 2 => ⟨S_, .f32⟩
  | 3 => ⟨S8x1x256x56x56x9, .i1⟩
  | 4 => ⟨S8x1x256x56x56x9, .f32⟩
  | 5 => ⟨S8x1x256x56x56x9, .f32⟩
  | 6 => ⟨S_, .i32⟩
  | 7 => ⟨S8x1x56x56x9, .i32⟩
  | 8 => ⟨S8x1x56x56x9, .i1⟩
  | 9 => ⟨S_, .i32⟩
  | 10 => ⟨S8x1x56x56x9, .i32⟩
  | 11 => ⟨S8x1x56x56x9, .i1⟩
  | 12 => ⟨S8x1x56x56x9, .i1⟩
  | 13 => ⟨S_, .i32⟩
  | 14 => ⟨S8x1x56x56x9, .i32⟩
  | 15 => ⟨S8x1x56x56x9, .i1⟩
  | 16 => ⟨S8x1x56x56x9, .i1⟩
  | 17 => ⟨S_, .i32⟩
  | 18 => ⟨S8x1x56x56x9, .i32⟩
  | 19 => ⟨S8x1x56x56x9, .i1⟩
  | 20 => ⟨S8x1x56x56x9, .i1⟩
  | 21 => ⟨S_, .i32⟩
  | 22 => ⟨S_, .i32⟩
  | 23 => ⟨S_, .i32⟩
  | 24 => ⟨S8x1x56x56x9, .i32⟩
  | 25 => ⟨S8x1x56x56x9, .i32⟩
  | 26 => ⟨S_, .i32⟩
  | 27 => ⟨S8x1x56x56x9, .i32⟩
  | 28 => ⟨S8x1x56x56x9, .i32⟩
  | 29 => ⟨S_, .i32⟩
  | 30 => ⟨S8x1x56x56x9, .i32⟩
  | 31 => ⟨S8x1x56x56x9, .i32⟩
  | 32 => ⟨S_, .i32⟩
  | 33 => ⟨S_, .i32⟩
  | 34 => ⟨S_, .i32⟩
  | 35 => ⟨S8x1x56x56x9, .i32⟩
  | 36 => ⟨S8x1x56x56x9, .i32⟩
  | 37 => ⟨S_, .i32⟩
  | 38 => ⟨S8x1x56x56x9, .i32⟩
  | 39 => ⟨S8x1x56x56x9, .i32⟩
  | 40 => ⟨S8x1x56x56x9, .i32⟩
  | 41 => ⟨S8x1x1x28224, .i32⟩
  | 42 => ⟨S_, .i32⟩
  | 43 => ⟨S8x1x1x28224, .i32⟩
  | 44 => ⟨S8x1x1x28224, .i1⟩
  | 45 => ⟨S_, .i32⟩
  | 46 => ⟨S8x1x1x28224, .i32⟩
  | 47 => ⟨S8x1x1x28224, .i32⟩
  | 48 => ⟨S8x1x1x28224, .i32⟩
  | 49 => ⟨S8x28224x1, .i32⟩
  | 50 => ⟨S1, .i32⟩
  | 51 => ⟨S_, .i32⟩
  | 52 => ⟨S8x28224x1, .i32⟩
  | 53 => ⟨S8x28224x1, .i1⟩
  | 54 => ⟨S1x1x1, .i32⟩
  | 55 => ⟨S8x28224x1, .i32⟩
  | 56 => ⟨S8x28224x1, .i1⟩
  | 57 => ⟨S8x28224x1, .i1⟩
  | 58 => ⟨S_, .i1⟩
  | 59 => ⟨S8x28224, .i1⟩
  | 60 => ⟨S8x1x256x28224, .f32⟩
  | 61 => ⟨S8x1x256x28224, .i1⟩
  | 62 => ⟨S_, .f32⟩
  | 63 => ⟨S8x1x256x28224, .f32⟩
  | 64 => ⟨S8x1x256x28224, .f32⟩
  | 65 => ⟨S8x1x256x56x56x9, .f32⟩
  | 66 => ⟨S8x1x1x56x56x9, .i1⟩
  | 67 => ⟨S_, .f32⟩
  | 68 => ⟨S8x1x256x56x56x9, .i1⟩
  | 69 => ⟨S8x1x256x56x56x9, .f32⟩
  | 70 => ⟨S8x1x256x56x56x9, .f32⟩
  | 71 => ⟨S8x1x56x56x9x1, .f32⟩
  | 72 => ⟨S8x1x56x56x9, .f32⟩
  | 73 => ⟨S8x1x1x56x56x9, .f32⟩
  | 74 => ⟨S8x1x56x56x9x1, .f32⟩
  | 75 => ⟨S8x1x56x56x9, .f32⟩
  | 76 => ⟨S8x1x1x56x56x9, .f32⟩
  | 77 => ⟨S8x1x256x56x56x9, .f32⟩
  | 78 => ⟨S8x1x256x56x56x9, .f32⟩
  | 79 => ⟨S8x1x256x56x56x9, .f32⟩
  | 80 => ⟨S8x1x256x56x56x9, .f32⟩
  | 81 => ⟨S8x1x256x56x56x9, .f32⟩
  | 82 => ⟨S8x1x256x56x56x9, .f32⟩
  | 83 => ⟨S8x1x256x56x56x9, .f32⟩
  | 84 => ⟨S8x1x256x56x56x9, .f32⟩
  | 85 => ⟨S8x1x256x56x56x9, .f32⟩
  | 86 => ⟨S8x1x256x56x56x9, .f32⟩
  | 87 => ⟨S8x1x256x56x56x9, .f32⟩
  | 88 => ⟨S8x1x256x56x56x9, .f32⟩
  | 89 => ⟨S8x1x9x56x56, .f32⟩
  | 90 => ⟨S8x1x56x56x9, .f32⟩
  | 91 => ⟨S8x1x1x56x56x9, .f32⟩
  | 92 => ⟨S8x1x256x56x56x9, .f32⟩
  | 93 => ⟨S8x1x256x56x56x9, .f32⟩
  | 94 => ⟨S1x256x9x8x56x56, .f32⟩
  | 95 => ⟨S1x2304x25088, .f32⟩
  | 96 => ⟨S2304x25088, .f32⟩
  | 97 => ⟨S1x256x2304, .f32⟩
  | 98 => ⟨S256x2304, .f32⟩
  | 99 => ⟨S256x2304, .bf16⟩
  | 100 => ⟨S2304x25088, .bf16⟩
  | 101 => ⟨S256x1, .f32⟩
  | 102 => ⟨S256x25088, .f32⟩
  | 103 => ⟨S256x8x56x56, .f32⟩
  | 104 => ⟨S8x256x56x56, .f32⟩
  | _ => ⟨S8x256x56x56, .f32⟩

abbrev hbmTy (i : Nat) : BufTy := match i / 128 with
  | 0 => hbmTy0_0 i
  | 1 => hbmTy0_1 i
  | 2 => hbmTy0_2 i
  | _ => ⟨S8x256x56x56, .f32⟩

abbrev bufTy : (tb : Table) → Fin (tcTables nBuf tb) → BufTy
  | .hbm, ⟨i, _⟩ => hbmTy i
  | .local _ .vmem, ⟨0, _⟩ => ⟨S256x2304, .bf16⟩
  | .local _ .vmem, ⟨1, _⟩ => ⟨S2304x1792, .bf16⟩
  | .local _ .vmem, ⟨2, _⟩ => ⟨S2304x1792, .bf16⟩
  | .local _ .vmem, ⟨3, _⟩ => ⟨S256x1, .f32⟩
  | .local _ .vmem, ⟨4, _⟩ => ⟨S256x1792, .f32⟩
  | .local _ .vmem, ⟨5, _⟩ => ⟨S256x1792, .f32⟩
  | _, _ => ⟨S8x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_7 : Ref sig .tc := ⟨.hbm, 67, rfl⟩
abbrev main_v54 : Ref sig .tc := ⟨.hbm, 68, rfl⟩
abbrev main_v55 : Ref sig .tc := ⟨.hbm, 69, rfl⟩
abbrev main_c_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_11 : Ref sig .tc := ⟨.hbm, 82, rfl⟩
abbrev main_c_12 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_c_14 : Ref sig .tc := ⟨.hbm, 93, rfl⟩
abbrev main_c_15 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst : Ref sig .tc := ⟨.hbm, 128, rfl⟩
abbrev main_call3_v0 : Ref sig .tc := ⟨.hbm, 129, rfl⟩
abbrev main_call3_v1 : Ref sig .tc := ⟨.hbm, 130, rfl⟩
abbrev main_v74 : Ref sig .tc := ⟨.hbm, 131, rfl⟩
abbrev main_c_16 : Ref sig .tc := ⟨.hbm, 132, rfl⟩
abbrev main_v75 : Ref sig .tc := ⟨.hbm, 133, rfl⟩
abbrev main_v76 : Ref sig .tc := ⟨.hbm, 134, rfl⟩
abbrev main_c_17 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_c_18 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_c_19 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_c_20 : Ref sig .tc := ⟨.hbm, 147, rfl⟩
abbrev main_c_21 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v86 : Ref sig .tc := ⟨.hbm, 154, rfl⟩
abbrev main_c_22 : Ref sig .tc := ⟨.hbm, 155, rfl⟩
abbrev main_v87 : Ref sig .tc := ⟨.hbm, 156, rfl⟩
abbrev main_v88 : Ref sig .tc := ⟨.hbm, 157, rfl⟩
abbrev main_c_23 : Ref sig .tc := ⟨.hbm, 158, rfl⟩
abbrev main_c_24 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_cst_25 : Ref sig .tc := ⟨.hbm, 193, rfl⟩
abbrev main_call7_v0 : Ref sig .tc := ⟨.hbm, 194, rfl⟩
abbrev main_call7_v1 : Ref sig .tc := ⟨.hbm, 195, rfl⟩
abbrev main_v95 : Ref sig .tc := ⟨.hbm, 196, rfl⟩
abbrev main_c_26 : Ref sig .tc := ⟨.hbm, 197, rfl⟩
abbrev main_v96 : Ref sig .tc := ⟨.hbm, 198, rfl⟩
abbrev main_v97 : Ref sig .tc := ⟨.hbm, 199, rfl⟩
abbrev main_c_27 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_c_28 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_c_29 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_c_30 : Ref sig .tc := ⟨.hbm, 212, rfl⟩
abbrev main_c_31 : Ref sig .tc := ⟨.hbm, 213, rfl⟩
abbrev main_call8_v0 : Ref sig .tc := ⟨.hbm, 214, rfl⟩
abbrev main_call8_v1 : Ref sig .tc := ⟨.hbm, 215, rfl⟩
abbrev main_call8_v2 : Ref sig .tc := ⟨.hbm, 216, rfl⟩
abbrev main_call8_v3 : Ref sig .tc := ⟨.hbm, 217, rfl⟩
abbrev main_call8_v4 : Ref sig .tc := ⟨.hbm, 218, rfl⟩
abbrev main_v107 : Ref sig .tc := ⟨.hbm, 219, rfl⟩
abbrev main_c_32 : Ref sig .tc := ⟨.hbm, 220, rfl⟩
abbrev main_v108 : Ref sig .tc := ⟨.hbm, 221, rfl⟩
abbrev main_v109 : Ref sig .tc := ⟨.hbm, 222, rfl⟩
abbrev main_c_33 : Ref sig .tc := ⟨.hbm, 223, rfl⟩
abbrev main_c_34 : Ref sig .tc := ⟨.hbm, 224, rfl⟩
abbrev main_call9_v0 : Ref sig .tc := ⟨.hbm, 225, rfl⟩
abbrev main_call9_v1 : Ref sig .tc := ⟨.hbm, 226, rfl⟩
abbrev main_call9_v2 : Ref sig .tc := ⟨.hbm, 227, rfl⟩
abbrev main_call9_v3 : Ref sig .tc := ⟨.hbm, 228, rfl⟩
abbrev main_call9_v4 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_call10_c : Ref sig .tc := ⟨.hbm, 233, rfl⟩
abbrev main_call10_v0 : Ref sig .tc := ⟨.hbm, 234, rfl⟩
abbrev main_call10_v1 : Ref sig .tc := ⟨.hbm, 235, rfl⟩
abbrev main_call10_c_0 : Ref sig .tc := ⟨.hbm, 236, rfl⟩
abbrev main_call10_v2 : Ref sig .tc := ⟨.hbm, 237, rfl⟩
abbrev main_call10_v3 : Ref sig .tc := ⟨.hbm, 238, rfl⟩
abbrev main_call10_v4 : Ref sig .tc := ⟨.hbm, 239, rfl⟩
abbrev main_call10_v5 : Ref sig .tc := ⟨.hbm, 240, rfl⟩
abbrev main_call10_c_1 : Ref sig .tc := ⟨.hbm, 241, rfl⟩
abbrev main_call10_c_2 : Ref sig .tc := ⟨.hbm, 242, rfl⟩
abbrev main_call10_v6 : Ref sig .tc := ⟨.hbm, 243, rfl⟩
abbrev main_call10_v7 : Ref sig .tc := ⟨.hbm, 244, rfl⟩
abbrev main_call10_v8 : Ref sig .tc := ⟨.hbm, 245, rfl⟩
abbrev main_call10_v9 : Ref sig .tc := ⟨.hbm, 246, rfl⟩
abbrev main_call10_v10 : Ref sig .tc := ⟨.hbm, 247, rfl⟩
abbrev main_call10_v11 : Ref sig .tc := ⟨.hbm, 248, rfl⟩
abbrev main_call10_c_3 : Ref sig .tc := ⟨.hbm, 249, rfl⟩
abbrev main_call10_v12 : Ref sig .tc := ⟨.hbm, 250, rfl⟩
abbrev main_call10_v13 : Ref sig .tc := ⟨.hbm, 251, rfl⟩
abbrev main_call10_v14 : Ref sig .tc := ⟨.hbm, 252, rfl⟩
abbrev main_call10_cst : Ref sig .tc := ⟨.hbm, 253, rfl⟩
abbrev main_call10_v15 : Ref sig .tc := ⟨.hbm, 254, rfl⟩
abbrev main_v113 : Ref sig .tc := ⟨.hbm, 255, rfl⟩
abbrev main_v114 : Ref sig .tc := ⟨.hbm, 256, rfl⟩
abbrev main_v115 : Ref sig .tc := ⟨.hbm, 257, rfl⟩
abbrev main_cst_35 : Ref sig .tc := ⟨.hbm, 258, rfl⟩
abbrev main_call11_v0 : Ref sig .tc := ⟨.hbm, 259, rfl⟩
abbrev main_call11_v1 : Ref sig .tc := ⟨.hbm, 260, rfl⟩
abbrev main_v116 : Ref sig .tc := ⟨.hbm, 261, rfl⟩
abbrev main_c_36 : Ref sig .tc := ⟨.hbm, 262, rfl⟩
abbrev main_v117 : Ref sig .tc := ⟨.hbm, 263, rfl⟩
abbrev main_v118 : Ref sig .tc := ⟨.hbm, 264, rfl⟩
abbrev main_c_37 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_c_38 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_c_39 : Ref sig .tc := ⟨.hbm, 273, rfl⟩
abbrev main_v125 : Ref sig .tc := ⟨.hbm, 274, rfl⟩
abbrev main_v126 : Ref sig .tc := ⟨.hbm, 275, rfl⟩
abbrev main_v127 : Ref sig .tc := ⟨.hbm, 276, rfl⟩
abbrev main_c_40 : Ref sig .tc := ⟨.hbm, 277, rfl⟩
abbrev main_c_41 : Ref sig .tc := ⟨.hbm, 278, rfl⟩
abbrev main_call12_v0 : Ref sig .tc := ⟨.hbm, 279, rfl⟩
abbrev main_call12_v1 : Ref sig .tc := ⟨.hbm, 280, rfl⟩
abbrev main_call12_v2 : Ref sig .tc := ⟨.hbm, 281, rfl⟩
abbrev main_call12_v3 : Ref sig .tc := ⟨.hbm, 282, rfl⟩
abbrev main_call12_v4 : Ref sig .tc := ⟨.hbm, 283, rfl⟩
abbrev main_v128 : Ref sig .tc := ⟨.hbm, 284, rfl⟩
abbrev main_c_42 : Ref sig .tc := ⟨.hbm, 285, rfl⟩
abbrev main_v129 : Ref sig .tc := ⟨.hbm, 286, rfl⟩
abbrev main_v130 : Ref sig .tc := ⟨.hbm, 287, rfl⟩
abbrev main_c_43 : Ref sig .tc := ⟨.hbm, 288, rfl⟩
abbrev main_c_44 : Ref sig .tc := ⟨.hbm, 289, rfl⟩
abbrev main_call13_v0 : Ref sig .tc := ⟨.hbm, 290, rfl⟩
abbrev main_call13_v1 : Ref sig .tc := ⟨.hbm, 291, rfl⟩
abbrev main_call13_v2 : Ref sig .tc := ⟨.hbm, 292, rfl⟩
abbrev main_call13_v3 : Ref sig .tc := ⟨.hbm, 293, rfl⟩
abbrev main_call13_v4 : Ref sig .tc := ⟨.hbm, 294, rfl⟩
abbrev main_v131 : Ref sig .tc := ⟨.hbm, 295, rfl⟩
abbrev main_v132 : Ref sig .tc := ⟨.hbm, 296, rfl⟩
abbrev main_v133 : Ref sig .tc := ⟨.hbm, 297, rfl⟩
abbrev main_call14_c : Ref sig .tc := ⟨.hbm, 298, rfl⟩
abbrev main_call14_v0 : Ref sig .tc := ⟨.hbm, 299, rfl⟩
abbrev main_call14_v1 : Ref sig .tc := ⟨.hbm, 300, rfl⟩
abbrev main_call14_c_0 : Ref sig .tc := ⟨.hbm, 301, rfl⟩
abbrev main_call14_v2 : Ref sig .tc := ⟨.hbm, 302, rfl⟩
abbrev main_call14_v3 : Ref sig .tc := ⟨.hbm, 303, rfl⟩
abbrev main_call14_v4 : Ref sig .tc := ⟨.hbm, 304, rfl⟩
abbrev main_call14_v5 : Ref sig .tc := ⟨.hbm, 305, rfl⟩
abbrev main_call14_c_1 : Ref sig .tc := ⟨.hbm, 306, rfl⟩
abbrev main_call14_c_2 : Ref sig .tc := ⟨.hbm, 307, rfl⟩
abbrev main_call14_v6 : Ref sig .tc := ⟨.hbm, 308, rfl⟩
abbrev main_call14_v7 : Ref sig .tc := ⟨.hbm, 309, rfl⟩
abbrev main_call14_v8 : Ref sig .tc := ⟨.hbm, 310, rfl⟩
abbrev main_call14_v9 : Ref sig .tc := ⟨.hbm, 311, rfl⟩
abbrev main_call14_v10 : Ref sig .tc := ⟨.hbm, 312, rfl⟩
abbrev main_call14_v11 : Ref sig .tc := ⟨.hbm, 313, rfl⟩
abbrev main_call14_c_3 : Ref sig .tc := ⟨.hbm, 314, rfl⟩
abbrev main_call14_v12 : Ref sig .tc := ⟨.hbm, 315, rfl⟩
abbrev main_call14_v13 : Ref sig .tc := ⟨.hbm, 316, rfl⟩
abbrev main_call14_v14 : Ref sig .tc := ⟨.hbm, 317, rfl⟩
abbrev main_call14_cst : Ref sig .tc := ⟨.hbm, 318, rfl⟩
abbrev main_call14_v15 : Ref sig .tc := ⟨.hbm, 319, rfl⟩
abbrev main_v134 : Ref sig .tc := ⟨.hbm, 320, rfl⟩
abbrev main_v135 : Ref sig .tc := ⟨.hbm, 321, rfl⟩
abbrev main_v136 : Ref sig .tc := ⟨.hbm, 322, rfl⟩
abbrev main_cst_45 : Ref sig .tc := ⟨.hbm, 323, rfl⟩
abbrev main_call15_v0 : Ref sig .tc := ⟨.hbm, 324, rfl⟩
abbrev main_call15_v1 : Ref sig .tc := ⟨.hbm, 325, rfl⟩
abbrev main_v137 : Ref sig .tc := ⟨.hbm, 326, rfl⟩
abbrev main_v138 : Ref sig .tc := ⟨.hbm, 327, rfl⟩
abbrev main_v139 : Ref sig .tc := ⟨.hbm, 328, rfl⟩
abbrev main_v140 : Ref sig .tc := ⟨.hbm, 329, rfl⟩
abbrev main_v141 : Ref sig .tc := ⟨.hbm, 330, rfl⟩
abbrev main_v142 : Ref sig .tc := ⟨.hbm, 331, rfl⟩
abbrev main_v143 : Ref sig .tc := ⟨.hbm, 332, rfl⟩
abbrev main_v144 : Ref sig .tc := ⟨.hbm, 333, rfl⟩
abbrev main_v145 : Ref sig .tc := ⟨.hbm, 334, rfl⟩
abbrev main_v146 : Ref sig .tc := ⟨.hbm, 335, rfl⟩
abbrev main_v147 : Ref sig .tc := ⟨.hbm, 336, rfl⟩
abbrev main_v148 : Ref sig .tc := ⟨.hbm, 337, rfl⟩
abbrev main_v149 : Ref sig .tc := ⟨.hbm, 338, rfl⟩
abbrev main_v150 : Ref sig .tc := ⟨.hbm, 339, rfl⟩
abbrev main_v151 : Ref sig .tc := ⟨.hbm, 340, rfl⟩
abbrev main_v152 : Ref sig .tc := ⟨.hbm, 341, rfl⟩
abbrev main_v153 : Ref sig .tc := ⟨.hbm, 342, rfl⟩
abbrev main_v154 : Ref sig .tc := ⟨.hbm, 343, rfl⟩
abbrev main_v155 : Ref sig .tc := ⟨.hbm, 344, rfl⟩
abbrev main_v156 : Ref sig .tc := ⟨.hbm, 345, rfl⟩
abbrev main_v157 : Ref sig .tc := ⟨.hbm, 346, rfl⟩
abbrev main_v158 : Ref sig .tc := ⟨.hbm, 347, rfl⟩
abbrev main_v159 : Ref sig .tc := ⟨.hbm, 348, rfl⟩
abbrev main_v160 : Ref sig .tc := ⟨.hbm, 349, rfl⟩
abbrev main_v161 : Ref sig .tc := ⟨.hbm, 350, rfl⟩
abbrev main_v162 : Ref sig .tc := ⟨.hbm, 351, rfl⟩
abbrev main_v163 : Ref sig .tc := ⟨.hbm, 352, rfl⟩
abbrev main_v164 : Ref sig .tc := ⟨.hbm, 353, rfl⟩
abbrev main_v165 : Ref sig .tc := ⟨.hbm, 354, rfl⟩
abbrev main_v166 : Ref sig .tc := ⟨.hbm, 355, rfl⟩
abbrev main_v167 : Ref sig .tc := ⟨.hbm, 356, rfl⟩
abbrev main_v168 : Ref sig .tc := ⟨.hbm, 357, rfl⟩
abbrev main_v169 : Ref sig .tc := ⟨.hbm, 358, rfl⟩
abbrev main_v170 : Ref sig .tc := ⟨.hbm, 359, rfl⟩
abbrev main_v171 : Ref sig .tc := ⟨.hbm, 360, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S56 : S_.BroadcastsInDim S56 (![] : Fin 0 → Fin S56.rank)
  bcast_S56_S56x1_0 : S56.BroadcastsInDim S56x1 (![0] : Fin 1 → Fin S56x1.rank)
  bcast_S_S3 : S_.BroadcastsInDim S3 (![] : Fin 0 → Fin S3.rank)
  bcast_S3_S1x3_1 : S3.BroadcastsInDim S1x3 (![1] : Fin 1 → Fin S1x3.rank)
  bcast_S56x1_S56x3_0_1 : S56x1.BroadcastsInDim S56x3 (![0, 1] : Fin 2 → Fin S56x3.rank)
  bcast_S1x3_S56x3_0_1 : S1x3.BroadcastsInDim S56x3 (![0, 1] : Fin 2 → Fin S56x3.rank)
  bcast_S56x3_S56x1x3x1_0_2 : S56x3.BroadcastsInDim S56x1x3x1 (![0, 2] : Fin 2 → Fin S56x1x3x1.rank)
  bcast_S56x1x3x1_S56x56x3x3_0_1_2_3 : S56x1x3x1.BroadcastsInDim S56x56x3x3 (![0, 1, 2, 3] : Fin 4 → Fin S56x56x3x3.rank)
  shapeCasts_S56x56x3x3_S56x56x9 : S56x56x3x3.ShapeCasts S56x56x9
  bcast_S56x3_S1x56x1x3_1_3 : S56x3.BroadcastsInDim S1x56x1x3 (![1, 3] : Fin 2 → Fin S1x56x1x3.rank)
  bcast_S1x56x1x3_S56x56x3x3_0_1_2_3 : S1x56x1x3.BroadcastsInDim S56x56x3x3 (![0, 1, 2, 3] : Fin 4 → Fin S56x56x3x3.rank)
  bcast_S56x56x9_S56x56x9x1_0_1_2 : S56x56x9.BroadcastsInDim S56x56x9x1 (![0, 1, 2] : Fin 3 → Fin S56x56x9x1.rank)
  concatenates_S56x56x9x1_S56x56x9x1_S56x56x9x2_d3 : Shape.Concatenates [S56x56x9x1, S56x56x9x1] S56x56x9x2 3
  shapeCasts_S8x18x56x56_S8x1x9x2x56x56 : S8x18x56x56.ShapeCasts S8x1x9x2x56x56
  transposes_S8x1x9x2x56x56_S8x1x56x56x9x2_0_1_4_5_2_3 : S8x1x9x2x56x56.Transposes [0, 1, 4, 5, 2, 3] S8x1x56x56x9x2
  bcast_S56x56x9x2_S1x1x56x56x9x2_2_3_4_5 : S56x56x9x2.BroadcastsInDim S1x1x56x56x9x2 (![2, 3, 4, 5] : Fin 4 → Fin S1x1x56x56x9x2.rank)
  bcast_S1x1x56x56x9x2_S8x1x56x56x9x2_0_1_2_3_4_5 : S1x1x56x56x9x2.BroadcastsInDim S8x1x56x56x9x2 (![0, 1, 2, 3, 4, 5] : Fin 6 → Fin S8x1x56x56x9x2.rank)
  slices_S8x1x56x56x9x2_S8x1x56x56x9x1_0_0_0_0_0_0 : S8x1x56x56x9x2.Slices ![0, 0, 0, 0, 0, 0] S8x1x56x56x9x1
  shapeCasts_S8x1x56x56x9x1_S8x1x56x56x9 : S8x1x56x56x9x1.ShapeCasts S8x1x56x56x9
  slices_S8x1x56x56x9x2_S8x1x56x56x9x1_0_0_0_0_0_1 : S8x1x56x56x9x2.Slices ![0, 0, 0, 0, 0, 1] S8x1x56x56x9x1
  bcast_S_S8x1x56x56x9 : S_.BroadcastsInDim S8x1x56x56x9 (![] : Fin 0 → Fin S8x1x56x56x9.rank)
  shapeCasts_S8x256x56x56_S8x1x256x3136 : S8x256x56x56.ShapeCasts S8x1x256x3136
  shapeCasts_S8x1x56x56x9_S8x1x1x28224 : S8x1x56x56x9.ShapeCasts S8x1x1x28224
  bcast_S_S8x1x1x28224 : S_.BroadcastsInDim S8x1x1x28224 (![] : Fin 0 → Fin S8x1x1x28224.rank)
  shapeCasts_S8x1x1x28224_S8x28224x1 : S8x1x1x28224.ShapeCasts S8x28224x1
  bcast_S_S8x28224x1 : S_.BroadcastsInDim S8x28224x1 (![] : Fin 0 → Fin S8x28224x1.rank)
  bcast_S1_S1x1x1_2 : S1.BroadcastsInDim S1x1x1 (![2] : Fin 1 → Fin S1x1x1.rank)
  bcast_S1x1x1_S8x28224x1_0_1_2 : S1x1x1.BroadcastsInDim S8x28224x1 (![0, 1, 2] : Fin 3 → Fin S8x28224x1.rank)
  reducesTo_S8x28224x1_S8x28224_d2 : S8x28224x1.ReducesTo [2] S8x28224
  h_S_ : 0 < S_.numel
  bcast_S8x28224_S8x1x256x28224_0_3 : S8x28224.BroadcastsInDim S8x1x256x28224 (![0, 3] : Fin 2 → Fin S8x1x256x28224.rank)
  bcast_S_S8x1x256x28224 : S_.BroadcastsInDim S8x1x256x28224 (![] : Fin 0 → Fin S8x1x256x28224.rank)
  shapeCasts_S8x1x256x28224_S8x1x256x56x56x9 : S8x1x256x28224.ShapeCasts S8x1x256x56x56x9
  bcast_S8x1x56x56x9_S8x1x1x56x56x9_0_1_3_4_5 : S8x1x56x56x9.BroadcastsInDim S8x1x1x56x56x9 (![0, 1, 3, 4, 5] : Fin 5 → Fin S8x1x1x56x56x9.rank)
  bcast_S8x1x1x56x56x9_S8x1x256x56x56x9_0_1_2_3_4_5 : S8x1x1x56x56x9.BroadcastsInDim S8x1x256x56x56x9 (![0, 1, 2, 3, 4, 5] : Fin 6 → Fin S8x1x256x56x56x9.rank)
  bcast_S_S8x1x256x56x56x9 : S_.BroadcastsInDim S8x1x256x56x56x9 (![] : Fin 0 → Fin S8x1x256x56x56x9.rank)
  shapeCasts_S8x9x56x56_S8x1x9x56x56 : S8x9x56x56.ShapeCasts S8x1x9x56x56
  transposes_S8x1x9x56x56_S8x1x56x56x9_0_1_3_4_2 : S8x1x9x56x56.Transposes [0, 1, 3, 4, 2] S8x1x56x56x9
  transposes_S8x1x256x56x56x9_S1x256x9x8x56x56_1_2_5_0_3_4 : S8x1x256x56x56x9.Transposes [1, 2, 5, 0, 3, 4] S1x256x9x8x56x56
  shapeCasts_S1x256x9x8x56x56_S1x2304x25088 : S1x256x9x8x56x56.ShapeCasts S1x2304x25088
  shapeCasts_S1x2304x25088_S2304x25088 : S1x2304x25088.ShapeCasts S2304x25088
  shapeCasts_S256x256x3x3_S1x256x2304 : S256x256x3x3.ShapeCasts S1x256x2304
  shapeCasts_S1x256x2304_S256x2304 : S1x256x2304.ShapeCasts S256x2304
  bitsLt_bf16_f32 : FTy.bits .bf16 < FTy.bits .f32
  shapeCasts_S256_S256x1 : S256.ShapeCasts S256x1
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  inb_S2304x1792_S2304x1792_0_0 : ∀ a, (![0, 0] : Fin 2 → Nat) a + S2304x1792.size a ≤ S2304x1792.size a
  h_S2304x1792 : 0 < S2304x1792.numel
  shapeCasts_S2304x1792_S2304x1792 : S2304x1792.ShapeCasts S2304x1792
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1792 : S256x1.Broadcasts S256x1792
  inb_S256x1792_S256x1792_0_0 : ∀ a, (![0, 0] : Fin 2 → Nat) a + S256x1792.size a ≤ S256x1792.size a
  h_S256x1792 : 0 < S256x1792.numel
  shapeCasts_S256x25088_S256x8x56x56 : S256x25088.ShapeCasts S256x8x56x56
  transposes_S256x8x56x56_S8x256x56x56_1_0_2_3 : S256x8x56x56.Transposes [1, 0, 2, 3] S8x256x56x56
  gather_S8x1x256x3136_S8x28224x1_S8x1x256x28224_12_3_0_0_3_2_112561_wf : GatherDims.WF S8x1x256x3136 S8x28224x1 S8x1x256x28224 [1, 2] [3] [0] [3] [0] 2 ![1, 1, 256, 1]
  dot_S256x2304_S2304x1792_S256x1792_1_0_0_1_n_n_wf : DotDims.WF S256x2304 S2304x1792 S256x1792 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2304.size a ≤ S256x2304.size a
  hwx0_0 : ∀ i : grid0.Coords, EltTy.bits .bf16 = 32 ∨ (Rect.block (s := S256x2304) S256x2304.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2304x1792.size a ≤ S2304x25088.size a
  hwx0_1 : ∀ i : grid0.Coords, EltTy.bits .bf16 = 32 ∨ (Rect.block (s := S2304x25088) S2304x1792.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1792.size a ≤ S256x25088.size a
  hwx0_3 : ∀ i : grid0.Coords, EltTy.bits .f32 = 32 ∨ (Rect.block (s := S256x25088) S256x1792.size (cc0_transform_3 i) (hinb0_3 i)).WholeWords (EltTy.packing .f32)

variable [Facts₀]

def gather_S8x1x256x3136_S8x28224x1_S8x1x256x28224_12_3_0_0_3_2_112561 : GatherDims S8x1x256x3136 S8x28224x1 S8x1x256x28224 where
  offsetDims := [1, 2]
  collapsedSliceDims := [3]
  operandBatchingDims := [0]
  startIndicesBatchingDims := [0]
  startIndexMap := [3]
  indexVectorDim := 2
  sliceSizes := ![1, 1, 256, 1]
  wf := gather_S8x1x256x3136_S8x28224x1_S8x1x256x28224_12_3_0_0_3_2_112561_wf
def dot_S256x2304_S2304x1792_S256x1792_1_0_0_1_n_n : DotDims S256x2304 S2304x1792 S256x1792 where
  lhsContracting := [1]
  rhsContracting := [0]
  lhsNonContracting := [0]
  rhsNonContracting := [1]
  lhsBatch := []
  rhsBatch := []
  wf := dot_S256x2304_S2304x1792_S256x1792_1_0_0_1_n_n_wf

abbrev win0_0 : Pipeline.Window sig grid0 :=
  Pipeline.Window.ofSpec (Memref.whole main_v166) S256x2304.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v167) S2304x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v168) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v169) S256x1792.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x56x56 : Shape := ⟨4, ![8, 256, 56, 56]⟩
abbrev S8x18x56x56 : Shape := ⟨4, ![8, 18, 56, 56]⟩
abbrev S8x9x56x56 : Shape := ⟨4, ![8, 9, 56, 56]⟩
abbrev S256x256x3x3 : Shape := ⟨4, ![256, 256, 3, 3]⟩
abbrev S256 : Shape := ⟨1, ![256]⟩
abbrev S56 : Shape := ⟨1, ![56]⟩
abbrev S_ : Shape := ⟨0, ![]⟩
abbrev S56x1 : Shape := ⟨2, ![56, 1]⟩
abbrev S3 : Shape := ⟨1, ![3]⟩
abbrev S1x3 : Shape := ⟨2, ![1, 3]⟩
abbrev S56x3 : Shape := ⟨2, ![56, 3]⟩
abbrev S56x1x3x1 : Shape := ⟨4, ![56, 1, 3, 1]⟩
abbrev S56x56x3x3 : Shape := ⟨4, ![56, 56, 3, 3]⟩
abbrev S56x56x9 : Shape := ⟨3, ![56, 56, 9]⟩
abbrev S1x56x1x3 : Shape := ⟨4, ![1, 56, 1, 3]⟩
abbrev S56x56x9x1 : Shape := ⟨4, ![56, 56, 9, 1]⟩
abbrev S56x56x9x2 : Shape := ⟨4, ![56, 56, 9, 2]⟩
abbrev S8x1x9x2x56x56 : Shape := ⟨6, ![8, 1, 9, 2, 56, 56]⟩
abbrev S8x1x56x56x9x2 : Shape := ⟨6, ![8, 1, 56, 56, 9, 2]⟩
abbrev S1x1x56x56x9x2 : Shape := ⟨6, ![1, 1, 56, 56, 9, 2]⟩
abbrev S8x1x56x56x9x1 : Shape := ⟨6, ![8, 1, 56, 56, 9, 1]⟩
abbrev S8x1x56x56x9 : Shape := ⟨5, ![8, 1, 56, 56, 9]⟩
abbrev S8x1x256x3136 : Shape := ⟨4, ![8, 1, 256, 3136]⟩
abbrev S8x1x1x28224 : Shape := ⟨4, ![8, 1, 1, 28224]⟩
abbrev S8x28224x1 : Shape := ⟨3, ![8, 28224, 1]⟩
abbrev S1 : Shape := ⟨1, ![1]⟩
abbrev S1x1x1 : Shape := ⟨3, ![1, 1, 1]⟩
abbrev S8x28224 : Shape := ⟨2, ![8, 28224]⟩
abbrev S8x1x256x28224 : Shape := ⟨4, ![8, 1, 256, 28224]⟩
abbrev S8x1x256x56x56x9 : Shape := ⟨6, ![8, 1, 256, 56, 56, 9]⟩
abbrev S8x1x1x56x56x9 : Shape := ⟨6, ![8, 1, 1, 56, 56, 9]⟩
abbrev S8x1x9x56x56 : Shape := ⟨5, ![8, 1, 9, 56, 56]⟩
abbrev S1x256x9x8x56x56 : Shape := ⟨6, ![1, 256, 9, 8, 56, 56]⟩
abbrev S1x2304x25088 : Shape := ⟨3, ![1, 2304, 25088]⟩
abbrev S1x256x2304 : Shape := ⟨3, ![1, 256, 2304]⟩
abbrev S1x256x25088 : Shape := ⟨3, ![1, 256, 25088]⟩
abbrev S256x8x56x56 : Shape := ⟨4, ![256, 8, 56, 56]⟩
abbrev S256x1x1x1 : Shape := ⟨4, ![256, 1, 1, 1]⟩

abbrev nBuf : Space → Nat
  | .hbm => 359
  | .vmem => 0
  | .smem => 0
  | _ => 0

abbrev hbmTy0_0 (i : Nat) : BufTy := match i % 128 with
  | 0 => ⟨S8x256x56x56, .f32⟩
  | 1 => ⟨S8x18x56x56, .f32⟩
  | 2 => ⟨S8x9x56x56, .f32⟩
  | 3 => ⟨S256x256x3x3, .f32⟩
  | 4 => ⟨S256, .f32⟩
  | 5 => ⟨S56, .i32⟩
  | 6 => ⟨S_, .i32⟩
  | 7 => ⟨S56, .i32⟩
  | 8 => ⟨S56, .i32⟩
  | 9 => ⟨S_, .i32⟩
  | 10 => ⟨S56, .i32⟩
  | 11 => ⟨S56, .i32⟩
  | 12 => ⟨S56x1, .i32⟩
  | 13 => ⟨S3, .i32⟩
  | 14 => ⟨S_, .i32⟩
  | 15 => ⟨S3, .i32⟩
  | 16 => ⟨S3, .i32⟩
  | 17 => ⟨S1x3, .i32⟩
  | 18 => ⟨S56x3, .i32⟩
  | 19 => ⟨S56x3, .i32⟩
  | 20 => ⟨S56x3, .i32⟩
  | 21 => ⟨S56, .i32⟩
  | 22 => ⟨S_, .i32⟩
  | 23 => ⟨S56, .i32⟩
  | 24 => ⟨S56, .i32⟩
  | 25 => ⟨S_, .i32⟩
  | 26 => ⟨S56, .i32⟩
  | 27 => ⟨S56, .i32⟩
  | 28 => ⟨S56x1, .i32⟩
  | 29 => ⟨S3, .i32⟩
  | 30 => ⟨S_, .i32⟩
  | 31 => ⟨S3, .i32⟩
  | 32 => ⟨S3, .i32⟩
  | 33 => ⟨S1x3, .i32⟩
  | 34 => ⟨S56x3, .i32⟩
  | 35 => ⟨S56x3, .i32⟩
  | 36 => ⟨S56x3, .i32⟩
  | 37 => ⟨S56x1x3x1, .i32⟩
  | 38 => ⟨S56x56x3x3, .i32⟩
  | 39 => ⟨S56x56x9, .i32⟩
  | 40 => ⟨S1x56x1x3, .i32⟩
  | 41 => ⟨S56x56x3x3, .i32⟩
  | 42 => ⟨S56x56x9, .i32⟩
  | 43 => ⟨S56x56x9x1, .i32⟩
  | 44 => ⟨S56x56x9x1, .i32⟩
  | 45 => ⟨S56x56x9x2, .i32⟩
  | 46 => ⟨S56x56x9x2, .f32⟩
  | 47 => ⟨S8x1x9x2x56x56, .f32⟩
  | 48 => ⟨S8x1x56x56x9x2, .f32⟩
  | 49 => ⟨S1x1x56x56x9x2, .f32⟩
  | 50 => ⟨S8x1x56x56x9x2, .f32⟩
  | 51 => ⟨S8x1x56x56x9x2, .f32⟩
  | 52 => ⟨S8x1x56x56x9x2, .f32⟩
  | 53 => ⟨S8x1x56x56x9x2, .f32⟩
  | 54 => ⟨S8x1x56x56x9x1, .f32⟩
  | 55 => ⟨S8x1x56x56x9, .f32⟩
  | 56 => ⟨S8x1x56x56x9, .i32⟩
  | 57 => ⟨S8x1x56x56x9x1, .f32⟩
  | 58 => ⟨S8x1x56x56x9, .f32⟩
  | 59 => ⟨S8x1x56x56x9, .i32⟩
  | 60 => ⟨S_, .i32⟩
  | 61 => ⟨S8x1x56x56x9, .i32⟩
  | 62 => ⟨S8x1x56x56x9, .i32⟩
  | 63 => ⟨S_, .i32⟩
  | 64 => ⟨S8x1x56x56x9, .i32⟩
  | 65 => ⟨S8x1x56x56x9, .i32⟩
  | 66 => ⟨S8x1x256x3136, .f32⟩
  | 67 => ⟨S_, .i32⟩
  | 68 => ⟨S8x1x56x56x9, .i32⟩
  | 69 => ⟨S8x1x56x56x9, .i1⟩
  | 70 => ⟨S_, .i32⟩
  | 71 => ⟨S8x1x56x56x9, .i32⟩
  | 72 => ⟨S8x1x56x56x9, .i1⟩
  | 73 => ⟨S8x1x56x56x9, .i1⟩
  | 74 => ⟨S_, .i32⟩
  | 75 => ⟨S8x1x56x56x9, .i32⟩
  | 76 => ⟨S8x1x56x56x9, .i1⟩
  | 77 => ⟨S8x1x56x56x9, .i1⟩
  | 78 => ⟨S_, .i32⟩
  | 79 => ⟨S8x1x56x56x9, .i32⟩
  | 80 => ⟨S8x1x56x56x9, .i1⟩
  | 81 => ⟨S8x1x56x56x9, .i1⟩
  | 82 => ⟨S_, .i32⟩
  | 83 => ⟨S_, .i32⟩
  | 84 => ⟨S_, .i32⟩
  | 85 => ⟨S8x1x56x56x9, .i32⟩
  | 86 => ⟨S8x1x56x56x9, .i32⟩
  | 87 => ⟨S_, .i32⟩
  | 88 => ⟨S8x1x56x56x9, .i32⟩
  | 89 => ⟨S8x1x56x56x9, .i32⟩
  | 90 => ⟨S_, .i32⟩
  | 91 => ⟨S8x1x56x56x9, .i32⟩
  | 92 => ⟨S8x1x56x56x9, .i32⟩
  | 93 => ⟨S_, .i32⟩
  | 94 => ⟨S_, .i32⟩
  | 95 => ⟨S_, .i32⟩
  | 96 => ⟨S8x1x56x56x9, .i32⟩
  | 97 => ⟨S8x1x56x56x9, .i32⟩
  | 98 => ⟨S_, .i32⟩
  | 99 => ⟨S8x1x56x56x9, .i32⟩
  | 100 => ⟨S8x1x56x56x9, .i32⟩
  | 101 => ⟨S8x1x56x56x9, .i32⟩
  | 102 => ⟨S8x1x1x28224, .i32⟩
  | 103 => ⟨S_, .i32⟩
  | 104 => ⟨S8x1x1x28224, .i32⟩
  | 105 => ⟨S8x1x1x28224, .i1⟩
  | 106 => ⟨S_, .i32⟩
  | 107 => ⟨S8x1x1x28224, .i32⟩
  | 108 => ⟨S8x1x1x28224, .i32⟩
  | 109 => ⟨S8x1x1x28224, .i32⟩
  | 110 => ⟨S8x28224x1, .i32⟩
  | 111 => ⟨S1, .i32⟩
  | 112 => ⟨S_, .i32⟩
  | 113 => ⟨S8x28224x1, .i32⟩
  | 114 => ⟨S8x28224x1, .i1⟩
  | 115 => ⟨S1x1x1, .i32⟩
  | 116 => ⟨S8x28224x1, .i32⟩
  | 117 => ⟨S8x28224x1, .i1⟩
  | 118 => ⟨S8x28224x1, .i1⟩
  | 119 => ⟨S_, .i1⟩
  | 120 => ⟨S8x28224, .i1⟩
  | 121 => ⟨S8x1x256x28224, .f32⟩
  | 122 => ⟨S8x1x256x28224, .i1⟩
  | 123 => ⟨S_, .f32⟩
  | 124 => ⟨S8x1x256x28224, .f32⟩
  | 125 => ⟨S8x1x256x28224, .f32⟩
  | 126 => ⟨S8x1x256x56x56x9, .f32⟩
  | 127 => ⟨S8x1x1x56x56x9, .i1⟩
  | _ => ⟨S8x256x56x56, .f32⟩

abbrev hbmTy0_1 (i : Nat) : BufTy := match i % 128 with
  | 0 => ⟨S_, .f32⟩
  | 1 => ⟨S8x1x256x56x56x9, .i1⟩
  | 2 => ⟨S8x1x256x56x56x9, .f32⟩
  | 3 => ⟨S8x1x256x56x56x9, .f32⟩
  | 4 => ⟨S_, .i32⟩
  | 5 => ⟨S8x1x56x56x9, .i32⟩
  | 6 => ⟨S8x1x56x56x9, .i1⟩
  | 7 => ⟨S_, .i32⟩
  | 8 => ⟨S8x1x56x56x9, .i32⟩
  | 9 => ⟨S8x1x56x56x9, .i1⟩
  | 10 => ⟨S8x1x56x56x9, .i1⟩
  | 11 => ⟨S_, .i32⟩
  | 12 => ⟨S8x1x56x56x9, .i32⟩
  | 13 => ⟨S8x1x56x56x9, .i1⟩
  | 14 => ⟨S8x1x56x56x9, .i1⟩
  | 15 => ⟨S_, .i32⟩
  | 16 => ⟨S8x1x56x56x9, .i32⟩
  | 17 => ⟨S8x1x56x56x9, .i1⟩
  | 18 => ⟨S8x1x56x56x9, .i1⟩
  | 19 => ⟨S_, .i32⟩
  | 20 => ⟨S_, .i32⟩
  | 21 => ⟨S_, .i32⟩
  | 22 => ⟨S8x1x56x56x9, .i32⟩
  | 23 => ⟨S8x1x56x56x9, .i32⟩
  | 24 => ⟨S_, .i32⟩
  | 25 => ⟨S8x1x56x56x9, .i32⟩
  | 26 => ⟨S8x1x56x56x9, .i32⟩
  | 27 => ⟨S_, .i32⟩
  | 28 => ⟨S8x1x56x56x9, .i32⟩
  | 29 => ⟨S8x1x56x56x9, .i32⟩
  | 30 => ⟨S_, .i32⟩
  | 31 => ⟨S_, .i32⟩
  | 32 => ⟨S_, .i32⟩
  | 33 => ⟨S8x1x56x56x9, .i32⟩
  | 34 => ⟨S8x1x56x56x9, .i32⟩
  | 35 => ⟨S_, .i32⟩
  | 36 => ⟨S8x1x56x56x9, .i32⟩
  | 37 => ⟨S8x1x56x56x9, .i32⟩
  | 38 => ⟨S8x1x56x56x9, .i32⟩
  | 39 => ⟨S8x1x1x28224, .i32⟩
  | 40 => ⟨S_, .i32⟩
  | 41 => ⟨S8x1x1x28224, .i32⟩
  | 42 => ⟨S8x1x1x28224, .i1⟩
  | 43 => ⟨S_, .i32⟩
  | 44 => ⟨S8x1x1x28224, .i32⟩
  | 45 => ⟨S8x1x1x28224, .i32⟩
  | 46 => ⟨S8x1x1x28224, .i32⟩
  | 47 => ⟨S8x28224x1, .i32⟩
  | 48 => ⟨S1, .i32⟩
  | 49 => ⟨S_, .i32⟩
  | 50 => ⟨S8x28224x1, .i32⟩
  | 51 => ⟨S8x28224x1, .i1⟩
  | 52 => ⟨S1x1x1, .i32⟩
  | 53 => ⟨S8x28224x1, .i32⟩
  | 54 => ⟨S8x28224x1, .i1⟩
  | 55 => ⟨S8x28224x1, .i1⟩
  | 56 => ⟨S_, .i1⟩
  | 57 => ⟨S8x28224, .i1⟩
  | 58 => ⟨S8x1x256x28224, .f32⟩
  | 59 => ⟨S8x1x256x28224, .i1⟩
  | 60 => ⟨S_, .f32⟩
  | 61 => ⟨S8x1x256x28224, .f32⟩
  | 62 => ⟨S8x1x256x28224, .f32⟩
  | 63 => ⟨S8x1x256x56x56x9, .f32⟩
  | 64 => ⟨S8x1x1x56x56x9, .i1⟩
  | 65 => ⟨S_, .f32⟩
  | 66 => ⟨S8x1x256x56x56x9, .i1⟩
  | 67 => ⟨S8x1x256x56x56x9, .f32⟩
  | 68 => ⟨S8x1x256x56x56x9, .f32⟩
  | 69 => ⟨S_, .i32⟩
  | 70 => ⟨S8x1x56x56x9, .i32⟩
  | 71 => ⟨S8x1x56x56x9, .i1⟩
  | 72 => ⟨S_, .i32⟩
  | 73 => ⟨S8x1x56x56x9, .i32⟩
  | 74 => ⟨S8x1x56x56x9, .i1⟩
  | 75 => ⟨S8x1x56x56x9, .i1⟩
  | 76 => ⟨S_, .i32⟩
  | 77 => ⟨S8x1x56x56x9, .i32⟩
  | 78 => ⟨S8x1x56x56x9, .i1⟩
  | 79 => ⟨S8x1x56x56x9, .i1⟩
  | 80 => ⟨S_, .i32⟩
  | 81 => ⟨S8x1x56x56x9, .i32⟩
  | 82 => ⟨S8x1x56x56x9, .i1⟩
  | 83 => ⟨S8x1x56x56x9, .i1⟩
  | 84 => ⟨S_, .i32⟩
  | 85 => ⟨S_, .i32⟩
  | 86 => ⟨S_, .i32⟩
  | 87 => ⟨S8x1x56x56x9, .i32⟩
  | 88 => ⟨S8x1x56x56x9, .i32⟩
  | 89 => ⟨S_, .i32⟩
  | 90 => ⟨S8x1x56x56x9, .i32⟩
  | 91 => ⟨S8x1x56x56x9, .i32⟩
  | 92 => ⟨S_, .i32⟩
  | 93 => ⟨S8x1x56x56x9, .i32⟩
  | 94 => ⟨S8x1x56x56x9, .i32⟩
  | 95 => ⟨S_, .i32⟩
  | 96 => ⟨S_, .i32⟩
  | 97 => ⟨S_, .i32⟩
  | 98 => ⟨S8x1x56x56x9, .i32⟩
  | 99 => ⟨S8x1x56x56x9, .i32⟩
  | 100 => ⟨S_, .i32⟩
  | 101 => ⟨S8x1x56x56x9, .i32⟩
  | 102 => ⟨S8x1x56x56x9, .i32⟩
  | 103 => ⟨S8x1x56x56x9, .i32⟩
  | 104 => ⟨S8x1x1x28224, .i32⟩
  | 105 => ⟨S_, .i32⟩
  | 106 => ⟨S8x1x1x28224, .i32⟩
  | 107 => ⟨S8x1x1x28224, .i1⟩
  | 108 => ⟨S_, .i32⟩
  | 109 => ⟨S8x1x1x28224, .i32⟩
  | 110 => ⟨S8x1x1x28224, .i32⟩
  | 111 => ⟨S8x1x1x28224, .i32⟩
  | 112 => ⟨S8x28224x1, .i32⟩
  | 113 => ⟨S1, .i32⟩
  | 114 => ⟨S_, .i32⟩
  | 115 => ⟨S8x28224x1, .i32⟩
  | 116 => ⟨S8x28224x1, .i1⟩
  | 117 => ⟨S1x1x1, .i32⟩
  | 118 => ⟨S8x28224x1, .i32⟩
  | 119 => ⟨S8x28224x1, .i1⟩
  | 120 => ⟨S8x28224x1, .i1⟩
  | 121 => ⟨S_, .i1⟩
  | 122 => ⟨S8x28224, .i1⟩
  | 123 => ⟨S8x1x256x28224, .f32⟩
  | 124 => ⟨S8x1x256x28224, .i1⟩
  | 125 => ⟨S_, .f32⟩
  | 126 => ⟨S8x1x256x28224, .f32⟩
  | 127 => ⟨S8x1x256x28224, .f32⟩
  | _ => ⟨S8x256x56x56, .f32⟩

abbrev hbmTy0_2 (i : Nat) : BufTy := match i % 128 with
  | 0 => ⟨S8x1x256x56x56x9, .f32⟩
  | 1 => ⟨S8x1x1x56x56x9, .i1⟩
  | 2 => ⟨S_, .f32⟩
  | 3 => ⟨S8x1x256x56x56x9, .i1⟩
  | 4 => ⟨S8x1x256x56x56x9, .f32⟩
  | 5 => ⟨S8x1x256x56x56x9, .f32⟩
  | 6 => ⟨S_, .i32⟩
  | 7 => ⟨S8x1x56x56x9, .i32⟩
  | 8 => ⟨S8x1x56x56x9, .i1⟩
  | 9 => ⟨S_, .i32⟩
  | 10 => ⟨S8x1x56x56x9, .i32⟩
  | 11 => ⟨S8x1x56x56x9, .i1⟩
  | 12 => ⟨S8x1x56x56x9, .i1⟩
  | 13 => ⟨S_, .i32⟩
  | 14 => ⟨S8x1x56x56x9, .i32⟩
  | 15 => ⟨S8x1x56x56x9, .i1⟩
  | 16 => ⟨S8x1x56x56x9, .i1⟩
  | 17 => ⟨S_, .i32⟩
  | 18 => ⟨S8x1x56x56x9, .i32⟩
  | 19 => ⟨S8x1x56x56x9, .i1⟩
  | 20 => ⟨S8x1x56x56x9, .i1⟩
  | 21 => ⟨S_, .i32⟩
  | 22 => ⟨S_, .i32⟩
  | 23 => ⟨S_, .i32⟩
  | 24 => ⟨S8x1x56x56x9, .i32⟩
  | 25 => ⟨S8x1x56x56x9, .i32⟩
  | 26 => ⟨S_, .i32⟩
  | 27 => ⟨S8x1x56x56x9, .i32⟩
  | 28 => ⟨S8x1x56x56x9, .i32⟩
  | 29 => ⟨S_, .i32⟩
  | 30 => ⟨S8x1x56x56x9, .i32⟩
  | 31 => ⟨S8x1x56x56x9, .i32⟩
  | 32 => ⟨S_, .i32⟩
  | 33 => ⟨S_, .i32⟩
  | 34 => ⟨S_, .i32⟩
  | 35 => ⟨S8x1x56x56x9, .i32⟩
  | 36 => ⟨S8x1x56x56x9, .i32⟩
  | 37 => ⟨S_, .i32⟩
  | 38 => ⟨S8x1x56x56x9, .i32⟩
  | 39 => ⟨S8x1x56x56x9, .i32⟩
  | 40 => ⟨S8x1x56x56x9, .i32⟩
  | 41 => ⟨S8x1x1x28224, .i32⟩
  | 42 => ⟨S_, .i32⟩
  | 43 => ⟨S8x1x1x28224, .i32⟩
  | 44 => ⟨S8x1x1x28224, .i1⟩
  | 45 => ⟨S_, .i32⟩
  | 46 => ⟨S8x1x1x28224, .i32⟩
  | 47 => ⟨S8x1x1x28224, .i32⟩
  | 48 => ⟨S8x1x1x28224, .i32⟩
  | 49 => ⟨S8x28224x1, .i32⟩
  | 50 => ⟨S1, .i32⟩
  | 51 => ⟨S_, .i32⟩
  | 52 => ⟨S8x28224x1, .i32⟩
  | 53 => ⟨S8x28224x1, .i1⟩
  | 54 => ⟨S1x1x1, .i32⟩
  | 55 => ⟨S8x28224x1, .i32⟩
  | 56 => ⟨S8x28224x1, .i1⟩
  | 57 => ⟨S8x28224x1, .i1⟩
  | 58 => ⟨S_, .i1⟩
  | 59 => ⟨S8x28224, .i1⟩
  | 60 => ⟨S8x1x256x28224, .f32⟩
  | 61 => ⟨S8x1x256x28224, .i1⟩
  | 62 => ⟨S_, .f32⟩
  | 63 => ⟨S8x1x256x28224, .f32⟩
  | 64 => ⟨S8x1x256x28224, .f32⟩
  | 65 => ⟨S8x1x256x56x56x9, .f32⟩
  | 66 => ⟨S8x1x1x56x56x9, .i1⟩
  | 67 => ⟨S_, .f32⟩
  | 68 => ⟨S8x1x256x56x56x9, .i1⟩
  | 69 => ⟨S8x1x256x56x56x9, .f32⟩
  | 70 => ⟨S8x1x256x56x56x9, .f32⟩
  | 71 => ⟨S8x1x56x56x9x1, .f32⟩
  | 72 => ⟨S8x1x56x56x9, .f32⟩
  | 73 => ⟨S8x1x1x56x56x9, .f32⟩
  | 74 => ⟨S8x1x56x56x9x1, .f32⟩
  | 75 => ⟨S8x1x56x56x9, .f32⟩
  | 76 => ⟨S8x1x1x56x56x9, .f32⟩
  | 77 => ⟨S8x1x256x56x56x9, .f32⟩
  | 78 => ⟨S8x1x256x56x56x9, .f32⟩
  | 79 => ⟨S8x1x256x56x56x9, .f32⟩
  | 80 => ⟨S8x1x256x56x56x9, .f32⟩
  | 81 => ⟨S8x1x256x56x56x9, .f32⟩
  | 82 => ⟨S8x1x256x56x56x9, .f32⟩
  | 83 => ⟨S8x1x256x56x56x9, .f32⟩
  | 84 => ⟨S8x1x256x56x56x9, .f32⟩
  | 85 => ⟨S8x1x256x56x56x9, .f32⟩
  | 86 => ⟨S8x1x256x56x56x9, .f32⟩
  | 87 => ⟨S8x1x256x56x56x9, .f32⟩
  | 88 => ⟨S8x1x256x56x56x9, .f32⟩
  | 89 => ⟨S8x1x9x56x56, .f32⟩
  | 90 => ⟨S8x1x56x56x9, .f32⟩
  | 91 => ⟨S8x1x1x56x56x9, .f32⟩
  | 92 => ⟨S8x1x256x56x56x9, .f32⟩
  | 93 => ⟨S8x1x256x56x56x9, .f32⟩
  | 94 => ⟨S1x256x9x8x56x56, .f32⟩
  | 95 => ⟨S1x2304x25088, .f32⟩
  | 96 => ⟨S1x256x2304, .f32⟩
  | 97 => ⟨S1x256x25088, .f32⟩
  | 98 => ⟨S256x8x56x56, .f32⟩
  | 99 => ⟨S256x1x1x1, .f32⟩
  | 100 => ⟨S256x8x56x56, .f32⟩
  | 101 => ⟨S256x8x56x56, .f32⟩
  | 102 => ⟨S8x256x56x56, .f32⟩
  | _ => ⟨S8x256x56x56, .f32⟩

abbrev hbmTy (i : Nat) : BufTy := match i / 128 with
  | 0 => hbmTy0_0 i
  | 1 => hbmTy0_1 i
  | 2 => hbmTy0_2 i
  | _ => ⟨S8x256x56x56, .f32⟩

abbrev bufTy : (tb : Table) → Fin (tcTables nBuf tb) → BufTy
  | .hbm, ⟨i, _⟩ => hbmTy i
  | _, _ => ⟨S8x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_7 : Ref sig .tc := ⟨.hbm, 67, rfl⟩
abbrev main_v54 : Ref sig .tc := ⟨.hbm, 68, rfl⟩
abbrev main_v55 : Ref sig .tc := ⟨.hbm, 69, rfl⟩
abbrev main_c_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_11 : Ref sig .tc := ⟨.hbm, 82, rfl⟩
abbrev main_c_12 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_c_14 : Ref sig .tc := ⟨.hbm, 93, rfl⟩
abbrev main_c_15 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst : Ref sig .tc := ⟨.hbm, 128, rfl⟩
abbrev main_call3_v0 : Ref sig .tc := ⟨.hbm, 129, rfl⟩
abbrev main_call3_v1 : Ref sig .tc := ⟨.hbm, 130, rfl⟩
abbrev main_v74 : Ref sig .tc := ⟨.hbm, 131, rfl⟩
abbrev main_c_16 : Ref sig .tc := ⟨.hbm, 132, rfl⟩
abbrev main_v75 : Ref sig .tc := ⟨.hbm, 133, rfl⟩
abbrev main_v76 : Ref sig .tc := ⟨.hbm, 134, rfl⟩
abbrev main_c_17 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_c_18 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_c_19 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_c_20 : Ref sig .tc := ⟨.hbm, 147, rfl⟩
abbrev main_c_21 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v86 : Ref sig .tc := ⟨.hbm, 154, rfl⟩
abbrev main_c_22 : Ref sig .tc := ⟨.hbm, 155, rfl⟩
abbrev main_v87 : Ref sig .tc := ⟨.hbm, 156, rfl⟩
abbrev main_v88 : Ref sig .tc := ⟨.hbm, 157, rfl⟩
abbrev main_c_23 : Ref sig .tc := ⟨.hbm, 158, rfl⟩
abbrev main_c_24 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_cst_25 : Ref sig .tc := ⟨.hbm, 193, rfl⟩
abbrev main_call7_v0 : Ref sig .tc := ⟨.hbm, 194, rfl⟩
abbrev main_call7_v1 : Ref sig .tc := ⟨.hbm, 195, rfl⟩
abbrev main_v95 : Ref sig .tc := ⟨.hbm, 196, rfl⟩
abbrev main_c_26 : Ref sig .tc := ⟨.hbm, 197, rfl⟩
abbrev main_v96 : Ref sig .tc := ⟨.hbm, 198, rfl⟩
abbrev main_v97 : Ref sig .tc := ⟨.hbm, 199, rfl⟩
abbrev main_c_27 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_c_28 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_c_29 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_c_30 : Ref sig .tc := ⟨.hbm, 212, rfl⟩
abbrev main_c_31 : Ref sig .tc := ⟨.hbm, 213, rfl⟩
abbrev main_call8_v0 : Ref sig .tc := ⟨.hbm, 214, rfl⟩
abbrev main_call8_v1 : Ref sig .tc := ⟨.hbm, 215, rfl⟩
abbrev main_call8_v2 : Ref sig .tc := ⟨.hbm, 216, rfl⟩
abbrev main_call8_v3 : Ref sig .tc := ⟨.hbm, 217, rfl⟩
abbrev main_call8_v4 : Ref sig .tc := ⟨.hbm, 218, rfl⟩
abbrev main_v107 : Ref sig .tc := ⟨.hbm, 219, rfl⟩
abbrev main_c_32 : Ref sig .tc := ⟨.hbm, 220, rfl⟩
abbrev main_v108 : Ref sig .tc := ⟨.hbm, 221, rfl⟩
abbrev main_v109 : Ref sig .tc := ⟨.hbm, 222, rfl⟩
abbrev main_c_33 : Ref sig .tc := ⟨.hbm, 223, rfl⟩
abbrev main_c_34 : Ref sig .tc := ⟨.hbm, 224, rfl⟩
abbrev main_call9_v0 : Ref sig .tc := ⟨.hbm, 225, rfl⟩
abbrev main_call9_v1 : Ref sig .tc := ⟨.hbm, 226, rfl⟩
abbrev main_call9_v2 : Ref sig .tc := ⟨.hbm, 227, rfl⟩
abbrev main_call9_v3 : Ref sig .tc := ⟨.hbm, 228, rfl⟩
abbrev main_call9_v4 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_call10_c : Ref sig .tc := ⟨.hbm, 233, rfl⟩
abbrev main_call10_v0 : Ref sig .tc := ⟨.hbm, 234, rfl⟩
abbrev main_call10_v1 : Ref sig .tc := ⟨.hbm, 235, rfl⟩
abbrev main_call10_c_0 : Ref sig .tc := ⟨.hbm, 236, rfl⟩
abbrev main_call10_v2 : Ref sig .tc := ⟨.hbm, 237, rfl⟩
abbrev main_call10_v3 : Ref sig .tc := ⟨.hbm, 238, rfl⟩
abbrev main_call10_v4 : Ref sig .tc := ⟨.hbm, 239, rfl⟩
abbrev main_call10_v5 : Ref sig .tc := ⟨.hbm, 240, rfl⟩
abbrev main_call10_c_1 : Ref sig .tc := ⟨.hbm, 241, rfl⟩
abbrev main_call10_c_2 : Ref sig .tc := ⟨.hbm, 242, rfl⟩
abbrev main_call10_v6 : Ref sig .tc := ⟨.hbm, 243, rfl⟩
abbrev main_call10_v7 : Ref sig .tc := ⟨.hbm, 244, rfl⟩
abbrev main_call10_v8 : Ref sig .tc := ⟨.hbm, 245, rfl⟩
abbrev main_call10_v9 : Ref sig .tc := ⟨.hbm, 246, rfl⟩
abbrev main_call10_v10 : Ref sig .tc := ⟨.hbm, 247, rfl⟩
abbrev main_call10_v11 : Ref sig .tc := ⟨.hbm, 248, rfl⟩
abbrev main_call10_c_3 : Ref sig .tc := ⟨.hbm, 249, rfl⟩
abbrev main_call10_v12 : Ref sig .tc := ⟨.hbm, 250, rfl⟩
abbrev main_call10_v13 : Ref sig .tc := ⟨.hbm, 251, rfl⟩
abbrev main_call10_v14 : Ref sig .tc := ⟨.hbm, 252, rfl⟩
abbrev main_call10_cst : Ref sig .tc := ⟨.hbm, 253, rfl⟩
abbrev main_call10_v15 : Ref sig .tc := ⟨.hbm, 254, rfl⟩
abbrev main_v113 : Ref sig .tc := ⟨.hbm, 255, rfl⟩
abbrev main_v114 : Ref sig .tc := ⟨.hbm, 256, rfl⟩
abbrev main_v115 : Ref sig .tc := ⟨.hbm, 257, rfl⟩
abbrev main_cst_35 : Ref sig .tc := ⟨.hbm, 258, rfl⟩
abbrev main_call11_v0 : Ref sig .tc := ⟨.hbm, 259, rfl⟩
abbrev main_call11_v1 : Ref sig .tc := ⟨.hbm, 260, rfl⟩
abbrev main_v116 : Ref sig .tc := ⟨.hbm, 261, rfl⟩
abbrev main_c_36 : Ref sig .tc := ⟨.hbm, 262, rfl⟩
abbrev main_v117 : Ref sig .tc := ⟨.hbm, 263, rfl⟩
abbrev main_v118 : Ref sig .tc := ⟨.hbm, 264, rfl⟩
abbrev main_c_37 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_c_38 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_c_39 : Ref sig .tc := ⟨.hbm, 273, rfl⟩
abbrev main_v125 : Ref sig .tc := ⟨.hbm, 274, rfl⟩
abbrev main_v126 : Ref sig .tc := ⟨.hbm, 275, rfl⟩
abbrev main_v127 : Ref sig .tc := ⟨.hbm, 276, rfl⟩
abbrev main_c_40 : Ref sig .tc := ⟨.hbm, 277, rfl⟩
abbrev main_c_41 : Ref sig .tc := ⟨.hbm, 278, rfl⟩
abbrev main_call12_v0 : Ref sig .tc := ⟨.hbm, 279, rfl⟩
abbrev main_call12_v1 : Ref sig .tc := ⟨.hbm, 280, rfl⟩
abbrev main_call12_v2 : Ref sig .tc := ⟨.hbm, 281, rfl⟩
abbrev main_call12_v3 : Ref sig .tc := ⟨.hbm, 282, rfl⟩
abbrev main_call12_v4 : Ref sig .tc := ⟨.hbm, 283, rfl⟩
abbrev main_v128 : Ref sig .tc := ⟨.hbm, 284, rfl⟩
abbrev main_c_42 : Ref sig .tc := ⟨.hbm, 285, rfl⟩
abbrev main_v129 : Ref sig .tc := ⟨.hbm, 286, rfl⟩
abbrev main_v130 : Ref sig .tc := ⟨.hbm, 287, rfl⟩
abbrev main_c_43 : Ref sig .tc := ⟨.hbm, 288, rfl⟩
abbrev main_c_44 : Ref sig .tc := ⟨.hbm, 289, rfl⟩
abbrev main_call13_v0 : Ref sig .tc := ⟨.hbm, 290, rfl⟩
abbrev main_call13_v1 : Ref sig .tc := ⟨.hbm, 291, rfl⟩
abbrev main_call13_v2 : Ref sig .tc := ⟨.hbm, 292, rfl⟩
abbrev main_call13_v3 : Ref sig .tc := ⟨.hbm, 293, rfl⟩
abbrev main_call13_v4 : Ref sig .tc := ⟨.hbm, 294, rfl⟩
abbrev main_v131 : Ref sig .tc := ⟨.hbm, 295, rfl⟩
abbrev main_v132 : Ref sig .tc := ⟨.hbm, 296, rfl⟩
abbrev main_v133 : Ref sig .tc := ⟨.hbm, 297, rfl⟩
abbrev main_call14_c : Ref sig .tc := ⟨.hbm, 298, rfl⟩
abbrev main_call14_v0 : Ref sig .tc := ⟨.hbm, 299, rfl⟩
abbrev main_call14_v1 : Ref sig .tc := ⟨.hbm, 300, rfl⟩
abbrev main_call14_c_0 : Ref sig .tc := ⟨.hbm, 301, rfl⟩
abbrev main_call14_v2 : Ref sig .tc := ⟨.hbm, 302, rfl⟩
abbrev main_call14_v3 : Ref sig .tc := ⟨.hbm, 303, rfl⟩
abbrev main_call14_v4 : Ref sig .tc := ⟨.hbm, 304, rfl⟩
abbrev main_call14_v5 : Ref sig .tc := ⟨.hbm, 305, rfl⟩
abbrev main_call14_c_1 : Ref sig .tc := ⟨.hbm, 306, rfl⟩
abbrev main_call14_c_2 : Ref sig .tc := ⟨.hbm, 307, rfl⟩
abbrev main_call14_v6 : Ref sig .tc := ⟨.hbm, 308, rfl⟩
abbrev main_call14_v7 : Ref sig .tc := ⟨.hbm, 309, rfl⟩
abbrev main_call14_v8 : Ref sig .tc := ⟨.hbm, 310, rfl⟩
abbrev main_call14_v9 : Ref sig .tc := ⟨.hbm, 311, rfl⟩
abbrev main_call14_v10 : Ref sig .tc := ⟨.hbm, 312, rfl⟩
abbrev main_call14_v11 : Ref sig .tc := ⟨.hbm, 313, rfl⟩
abbrev main_call14_c_3 : Ref sig .tc := ⟨.hbm, 314, rfl⟩
abbrev main_call14_v12 : Ref sig .tc := ⟨.hbm, 315, rfl⟩
abbrev main_call14_v13 : Ref sig .tc := ⟨.hbm, 316, rfl⟩
abbrev main_call14_v14 : Ref sig .tc := ⟨.hbm, 317, rfl⟩
abbrev main_call14_cst : Ref sig .tc := ⟨.hbm, 318, rfl⟩
abbrev main_call14_v15 : Ref sig .tc := ⟨.hbm, 319, rfl⟩
abbrev main_v134 : Ref sig .tc := ⟨.hbm, 320, rfl⟩
abbrev main_v135 : Ref sig .tc := ⟨.hbm, 321, rfl⟩
abbrev main_v136 : Ref sig .tc := ⟨.hbm, 322, rfl⟩
abbrev main_cst_45 : Ref sig .tc := ⟨.hbm, 323, rfl⟩
abbrev main_call15_v0 : Ref sig .tc := ⟨.hbm, 324, rfl⟩
abbrev main_call15_v1 : Ref sig .tc := ⟨.hbm, 325, rfl⟩
abbrev main_v137 : Ref sig .tc := ⟨.hbm, 326, rfl⟩
abbrev main_v138 : Ref sig .tc := ⟨.hbm, 327, rfl⟩
abbrev main_v139 : Ref sig .tc := ⟨.hbm, 328, rfl⟩
abbrev main_v140 : Ref sig .tc := ⟨.hbm, 329, rfl⟩
abbrev main_v141 : Ref sig .tc := ⟨.hbm, 330, rfl⟩
abbrev main_v142 : Ref sig .tc := ⟨.hbm, 331, rfl⟩
abbrev main_v143 : Ref sig .tc := ⟨.hbm, 332, rfl⟩
abbrev main_v144 : Ref sig .tc := ⟨.hbm, 333, rfl⟩
abbrev main_v145 : Ref sig .tc := ⟨.hbm, 334, rfl⟩
abbrev main_v146 : Ref sig .tc := ⟨.hbm, 335, rfl⟩
abbrev main_v147 : Ref sig .tc := ⟨.hbm, 336, rfl⟩
abbrev main_v148 : Ref sig .tc := ⟨.hbm, 337, rfl⟩
abbrev main_v149 : Ref sig .tc := ⟨.hbm, 338, rfl⟩
abbrev main_v150 : Ref sig .tc := ⟨.hbm, 339, rfl⟩
abbrev main_v151 : Ref sig .tc := ⟨.hbm, 340, rfl⟩
abbrev main_v152 : Ref sig .tc := ⟨.hbm, 341, rfl⟩
abbrev main_v153 : Ref sig .tc := ⟨.hbm, 342, rfl⟩
abbrev main_v154 : Ref sig .tc := ⟨.hbm, 343, rfl⟩
abbrev main_v155 : Ref sig .tc := ⟨.hbm, 344, rfl⟩
abbrev main_v156 : Ref sig .tc := ⟨.hbm, 345, rfl⟩
abbrev main_v157 : Ref sig .tc := ⟨.hbm, 346, rfl⟩
abbrev main_v158 : Ref sig .tc := ⟨.hbm, 347, rfl⟩
abbrev main_v159 : Ref sig .tc := ⟨.hbm, 348, rfl⟩
abbrev main_v160 : Ref sig .tc := ⟨.hbm, 349, rfl⟩
abbrev main_v161 : Ref sig .tc := ⟨.hbm, 350, rfl⟩
abbrev main_v162 : Ref sig .tc := ⟨.hbm, 351, rfl⟩
abbrev main_v163 : Ref sig .tc := ⟨.hbm, 352, rfl⟩
abbrev main_v164 : Ref sig .tc := ⟨.hbm, 353, rfl⟩
abbrev main_v165 : Ref sig .tc := ⟨.hbm, 354, rfl⟩
abbrev main_v166 : Ref sig .tc := ⟨.hbm, 355, rfl⟩
abbrev main_v167 : Ref sig .tc := ⟨.hbm, 356, rfl⟩
abbrev main_v168 : Ref sig .tc := ⟨.hbm, 357, rfl⟩
abbrev main_v169 : Ref sig .tc := ⟨.hbm, 358, rfl⟩

abbrev nD : Nat := 1
abbrev τ : Topo := Topo.v7x

variable {F : FTy → Type} [FloatOps F]

class Facts₀ : Prop where
  bcast_S_S56 : S_.BroadcastsInDim S56 (![] : Fin 0 → Fin S56.rank)
  bcast_S56_S56x1_0 : S56.BroadcastsInDim S56x1 (![0] : Fin 1 → Fin S56x1.rank)
  bcast_S_S3 : S_.BroadcastsInDim S3 (![] : Fin 0 → Fin S3.rank)
  bcast_S3_S1x3_1 : S3.BroadcastsInDim S1x3 (![1] : Fin 1 → Fin S1x3.rank)
  bcast_S56x1_S56x3_0_1 : S56x1.BroadcastsInDim S56x3 (![0, 1] : Fin 2 → Fin S56x3.rank)
  bcast_S1x3_S56x3_0_1 : S1x3.BroadcastsInDim S56x3 (![0, 1] : Fin 2 → Fin S56x3.rank)
  bcast_S56x3_S56x1x3x1_0_2 : S56x3.BroadcastsInDim S56x1x3x1 (![0, 2] : Fin 2 → Fin S56x1x3x1.rank)
  bcast_S56x1x3x1_S56x56x3x3_0_1_2_3 : S56x1x3x1.BroadcastsInDim S56x56x3x3 (![0, 1, 2, 3] : Fin 4 → Fin S56x56x3x3.rank)
  shapeCasts_S56x56x3x3_S56x56x9 : S56x56x3x3.ShapeCasts S56x56x9
  bcast_S56x3_S1x56x1x3_1_3 : S56x3.BroadcastsInDim S1x56x1x3 (![1, 3] : Fin 2 → Fin S1x56x1x3.rank)
  bcast_S1x56x1x3_S56x56x3x3_0_1_2_3 : S1x56x1x3.BroadcastsInDim S56x56x3x3 (![0, 1, 2, 3] : Fin 4 → Fin S56x56x3x3.rank)
  bcast_S56x56x9_S56x56x9x1_0_1_2 : S56x56x9.BroadcastsInDim S56x56x9x1 (![0, 1, 2] : Fin 3 → Fin S56x56x9x1.rank)
  concatenates_S56x56x9x1_S56x56x9x1_S56x56x9x2_d3 : Shape.Concatenates [S56x56x9x1, S56x56x9x1] S56x56x9x2 3
  shapeCasts_S8x18x56x56_S8x1x9x2x56x56 : S8x18x56x56.ShapeCasts S8x1x9x2x56x56
  transposes_S8x1x9x2x56x56_S8x1x56x56x9x2_0_1_4_5_2_3 : S8x1x9x2x56x56.Transposes [0, 1, 4, 5, 2, 3] S8x1x56x56x9x2
  bcast_S56x56x9x2_S1x1x56x56x9x2_2_3_4_5 : S56x56x9x2.BroadcastsInDim S1x1x56x56x9x2 (![2, 3, 4, 5] : Fin 4 → Fin S1x1x56x56x9x2.rank)
  bcast_S1x1x56x56x9x2_S8x1x56x56x9x2_0_1_2_3_4_5 : S1x1x56x56x9x2.BroadcastsInDim S8x1x56x56x9x2 (![0, 1, 2, 3, 4, 5] : Fin 6 → Fin S8x1x56x56x9x2.rank)
  slices_S8x1x56x56x9x2_S8x1x56x56x9x1_0_0_0_0_0_0 : S8x1x56x56x9x2.Slices ![0, 0, 0, 0, 0, 0] S8x1x56x56x9x1
  shapeCasts_S8x1x56x56x9x1_S8x1x56x56x9 : S8x1x56x56x9x1.ShapeCasts S8x1x56x56x9
  slices_S8x1x56x56x9x2_S8x1x56x56x9x1_0_0_0_0_0_1 : S8x1x56x56x9x2.Slices ![0, 0, 0, 0, 0, 1] S8x1x56x56x9x1
  bcast_S_S8x1x56x56x9 : S_.BroadcastsInDim S8x1x56x56x9 (![] : Fin 0 → Fin S8x1x56x56x9.rank)
  shapeCasts_S8x256x56x56_S8x1x256x3136 : S8x256x56x56.ShapeCasts S8x1x256x3136
  shapeCasts_S8x1x56x56x9_S8x1x1x28224 : S8x1x56x56x9.ShapeCasts S8x1x1x28224
  bcast_S_S8x1x1x28224 : S_.BroadcastsInDim S8x1x1x28224 (![] : Fin 0 → Fin S8x1x1x28224.rank)
  shapeCasts_S8x1x1x28224_S8x28224x1 : S8x1x1x28224.ShapeCasts S8x28224x1
  bcast_S_S8x28224x1 : S_.BroadcastsInDim S8x28224x1 (![] : Fin 0 → Fin S8x28224x1.rank)
  bcast_S1_S1x1x1_2 : S1.BroadcastsInDim S1x1x1 (![2] : Fin 1 → Fin S1x1x1.rank)
  bcast_S1x1x1_S8x28224x1_0_1_2 : S1x1x1.BroadcastsInDim S8x28224x1 (![0, 1, 2] : Fin 3 → Fin S8x28224x1.rank)
  reducesTo_S8x28224x1_S8x28224_d2 : S8x28224x1.ReducesTo [2] S8x28224
  h_S_ : 0 < S_.numel
  bcast_S8x28224_S8x1x256x28224_0_3 : S8x28224.BroadcastsInDim S8x1x256x28224 (![0, 3] : Fin 2 → Fin S8x1x256x28224.rank)
  bcast_S_S8x1x256x28224 : S_.BroadcastsInDim S8x1x256x28224 (![] : Fin 0 → Fin S8x1x256x28224.rank)
  shapeCasts_S8x1x256x28224_S8x1x256x56x56x9 : S8x1x256x28224.ShapeCasts S8x1x256x56x56x9
  bcast_S8x1x56x56x9_S8x1x1x56x56x9_0_1_3_4_5 : S8x1x56x56x9.BroadcastsInDim S8x1x1x56x56x9 (![0, 1, 3, 4, 5] : Fin 5 → Fin S8x1x1x56x56x9.rank)
  bcast_S8x1x1x56x56x9_S8x1x256x56x56x9_0_1_2_3_4_5 : S8x1x1x56x56x9.BroadcastsInDim S8x1x256x56x56x9 (![0, 1, 2, 3, 4, 5] : Fin 6 → Fin S8x1x256x56x56x9.rank)
  bcast_S_S8x1x256x56x56x9 : S_.BroadcastsInDim S8x1x256x56x56x9 (![] : Fin 0 → Fin S8x1x256x56x56x9.rank)
  shapeCasts_S8x9x56x56_S8x1x9x56x56 : S8x9x56x56.ShapeCasts S8x1x9x56x56
  transposes_S8x1x9x56x56_S8x1x56x56x9_0_1_3_4_2 : S8x1x9x56x56.Transposes [0, 1, 3, 4, 2] S8x1x56x56x9
  transposes_S8x1x256x56x56x9_S1x256x9x8x56x56_1_2_5_0_3_4 : S8x1x256x56x56x9.Transposes [1, 2, 5, 0, 3, 4] S1x256x9x8x56x56
  shapeCasts_S1x256x9x8x56x56_S1x2304x25088 : S1x256x9x8x56x56.ShapeCasts S1x2304x25088
  shapeCasts_S256x256x3x3_S1x256x2304 : S256x256x3x3.ShapeCasts S1x256x2304
  shapeCasts_S1x256x25088_S256x8x56x56 : S1x256x25088.ShapeCasts S256x8x56x56
  bcast_S256_S256x1x1x1_0 : S256.BroadcastsInDim S256x1x1x1 (![0] : Fin 1 → Fin S256x1x1x1.rank)
  bcast_S256x1x1x1_S256x8x56x56_0_1_2_3 : S256x1x1x1.BroadcastsInDim S256x8x56x56 (![0, 1, 2, 3] : Fin 4 → Fin S256x8x56x56.rank)
  transposes_S256x8x56x56_S8x256x56x56_1_0_2_3 : S256x8x56x56.Transposes [1, 0, 2, 3] S8x256x56x56
  gather_S8x1x256x3136_S8x28224x1_S8x1x256x28224_12_3_0_0_3_2_112561_wf : GatherDims.WF S8x1x256x3136 S8x28224x1 S8x1x256x28224 [1, 2] [3] [0] [3] [0] 2 ![1, 1, 256, 1]
  dot_S1x256x2304_S1x2304x25088_S1x256x25088_2_1_1_2_0_0_wf : DotDims.WF S1x256x2304 S1x2304x25088 S1x256x25088 [2] [1] [1] [2] [0] [0]

variable [Facts₀]

def gather_S8x1x256x3136_S8x28224x1_S8x1x256x28224_12_3_0_0_3_2_112561 : GatherDims S8x1x256x3136 S8x28224x1 S8x1x256x28224 where
  offsetDims := [1, 2]
  collapsedSliceDims := [3]
  operandBatchingDims := [0]
  startIndicesBatchingDims := [0]
  startIndexMap := [3]
  indexVectorDim := 2
  sliceSizes := ![1, 1, 256, 1]
  wf := gather_S8x1x256x3136_S8x28224x1_S8x1x256x28224_12_3_0_0_3_2_112561_wf
def dot_S1x256x2304_S1x2304x25088_S1x256x25088_2_1_1_2_0_0 : DotDims S1x256x2304 S1x2304x25088 S1x256x25088 where
  lhsContracting := [2]
  rhsContracting := [1]
  lhsNonContracting := [1]
  rhsNonContracting := [2]
  lhsBatch := [0]
  rhsBatch := [0]
  wf := dot_S1x256x2304_S1x2304x25088_S1x256x25088_2_1_1_2_0_0_wf

class Facts : Prop extends Facts₀ where

variable [Facts]
-- ==== Proof.Spec.lean ====
import Idealize.ShloMosaic.PureOps.Ideal.Laws
import Idealize.ShloMosaic.Lib.ValueIdx

/-!
# A matrix product with a bias column, on the extended reals

The deformable convolution ends in one matrix product: the [256, 2304] weight matrix times the [2304, 25088] matrix
of sampled columns, plus the bias of the output channel. This file states that product entry by entry, over the
literal extents, as the one function both programs are compared with.
-/

noncomputable section

namespace Cert.Spec

open Idealize.ShloMosaic Idealize.ShloMosaic.ValueIdx

/-- Entry `(o, n)`: the sum over the 2304 contracted positions of weight times column, plus the bias of row `o`. -/
def gemmAt (A : FVec Ideal ⟨2, ![256, 2304]⟩ .bf16) (B : FVec Ideal ⟨2, ![2304, 25088]⟩ .bf16)
    (b : FVec Ideal ⟨2, ![256, 1]⟩ .f32) (o : Fin 256) (n : Fin 25088) : EReal :=
  (∑ k : Fin 2304, A (ix2 o k) * B (ix2 k n)) + b (ix2 o (0 : Fin 1))

/-- The whole [256, 25088] result. -/
def gemmBias (A : FVec Ideal ⟨2, ![256, 2304]⟩ .bf16) (B : FVec Ideal ⟨2, ![2304, 25088]⟩ .bf16)
    (b : FVec Ideal ⟨2, ![256, 1]⟩ .f32) : FVec Ideal ⟨2, ![256, 25088]⟩ .f32 :=
  fun i => gemmAt A B b ⟨(i 0).val, (i 0).isLt⟩ ⟨(i 1).val, (i 1).isLt⟩

theorem gemmBias_apply (A : FVec Ideal ⟨2, ![256, 2304]⟩ .bf16) (B : FVec Ideal ⟨2, ![2304, 25088]⟩ .bf16)
    (b : FVec Ideal ⟨2, ![256, 1]⟩ .f32) (o : Fin 256) (n : Fin 25088) :
    gemmBias A B b (ix2 o n) = gemmAt A B b o n := rfl

end Cert.Spec

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.KPayload.lean ====
import proofs.«115476_j5961414607249_1_alg».proof.Proof.Gen.KernelIdeal.Frame
import proofs.«115476_j5961414607249_1_alg».proof.Proof.Spec
import proofs.«115476_j5961414607249_1_alg».proof.Proof.LibContract
import Idealize.ShloMosaic.Lib.Pipeline.Value
import Idealize.ShloMosaic.Lib.ValueIdx

/-!
# What one grid step stores, entry by entry

The body of the matrix-product kernel loads its three whole staging buffers (a [256, 2304] weight block, a
[2304, 1792] tile of columns, a [256, 1] bias column), multiplies the first two into a zero accumulator, adds the
bias column broadcast along the 1792 columns, and stores the [256, 1792] sum through the whole output buffer. This
file reads that stored value at an entry `(p, q)`: the sum over the 2304 contracted positions of weight times
column, plus the bias of row `p`.
-/

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a rank-2 whole-buffer rectangle, as the constant function. -/
theorem zeroOff : (![0, 0] : Fin 2 → Nat) = fun _ => 0 := funext fun a => by fin_cases a <;> rfl

/-- The bias column broadcast along the columns, read at `(p, q)`, is the bias of row `p`. -/
theorem biasCol_apply (b : FVec Ideal S256x1 .f32) (p : Fin 256) (q : Fin 1792) :
    broadcastTo S256x1792 b broadcasts_S256x1_S256x1792 (ix2 p q) = b (ix2 p (0 : Fin 1)) := by
  refine broadcastTo_apply b broadcasts_S256x1_S256x1792 (ix2 p q) (ix2 p (0 : Fin 1)) fun a => ?_
  match a with
  | ⟨0, _⟩ => rfl
  | ⟨1, _⟩ => rfl

/-- The printed contraction record is the plain `[256, 2304] × [2304, 1792]` one: the same fields. -/
theorem dot_eq_plain : dot_S256x2304_S2304x1792_S256x1792_1_0_0_1_n_n = DotDims.plain 256 2304 1792 := rfl

/-- The payload of the one store, at entry `(p, q)`: the product's entry plus the row's bias. -/
theorem pay_apply (v0 : FVec Ideal S256x2304 .bf16) (v2 : FVec Ideal S2304x1792 .bf16) (v5 : FVec Ideal S256x1 .f32)
    (p : Fin 256) (q : Fin 1792) :
    k0_pay1 (F := Ideal) v0 v2 v5 (ix2 p q) = (∑ k : Fin 2304, v0 (ix2 p k) * v2 (ix2 k q)) + v5 (ix2 p (0 : Fin 1)) := by
  unfold k0_pay1
  rw [addf_apply, shapeCast_self, shapeCast_self, shapeCast_self, biasCol_apply, dot_eq_plain]
  exact congrArg (· + v5 (ix2 p (0 : Fin 1))) (Cert.LibDense.matmul_plain_zero_apply 256 2304 1792 none v0 v2 p q)

/-- WHAT THE BODY LEAVES in the output buffer, at entry `(p, q)`, from the three input blocks. -/
theorem out_apply (x0 : FVec Ideal S256x2304 .bf16) (x1 : FVec Ideal S2304x1792 .bf16) (x2 : FVec Ideal S256x1 .f32)
    (p : Fin 256) (q : Fin 1792) :
    out0_3 (F := Ideal) x0 x1 x2 (ix2 p q) = (∑ k : Fin 2304, x0 (ix2 p k) * x1 (ix2 k q)) + x2 (ix2 p (0 : Fin 1)) := by
  unfold out0_3
  rw [View.canon_unit_zero zeroOff]
  simp only [View.ld_unit_zero (S := S256x2304) zeroOff, View.ld_unit_zero (S := S2304x1792) zeroOff,
    View.ld_unit_zero (S := S256x1) zeroOff]
  exact pay_apply x0 x1 x2 p q

end Cert.KernelIdeal.Val

end
-- ==== Proof.KArray.lean ====
import proofs.«115476_j5961414607249_1_alg».proof.Proof.Gen.KernelIdeal.Frame
import proofs.«115476_j5961414607249_1_alg».proof.Proof.Spec
import proofs.«115476_j5961414607249_1_alg».proof.Proof.LibContract
import proofs.«115476_j5961414607249_1_alg».proof.Proof.KPayload
import Idealize.ShloMosaic.Lib.Pipeline.Value
import Idealize.ShloMosaic.Lib.ValueIdx

/-!
# The output array after the fourteen grid steps

The kernel's grid has 14 points; point `t` works on columns `1792 t … 1792 t + 1791` of the [2304, 25088] column
matrix and of the [256, 25088] result, and on the whole weight matrix and the whole bias column. This file reads each
input block as a part of its array, shows that what point `t` writes back is block `t` of the one matrix product with
bias of the three arrays, that the 14 blocks cover the result array (column `n` lies in block `n / 1792`), and so
that the result array ends holding that product.
-/

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The weight matrix as the kernel region finds it. -/
abbrev wArr (c : Dev nD) : FVec Ideal S256x2304 .bf16 := V m c main_v166
/-- The matrix of sampled columns as the kernel region finds it. -/
abbrev colArr (c : Dev nD) : FVec Ideal S2304x25088 .bf16 := V m c main_v167
/-- The bias column as the kernel region finds it. -/
abbrev biasArr (c : Dev nD) : FVec Ideal S256x1 .f32 := V m c main_v168

/-- The block indices at grid point `t`: the weight and bias windows stay at block `(0, 0)`, the column and result
    windows sit at block `(0, t)`. Decided over the 14 points. -/
theorem blockIdx : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- Column `q` of point `t`'s tile is column `1792 t + q` of the array. -/
def colAt (t : Fin cfg0.N) (q : Fin 1792) : Fin 25088 :=
  ⟨t.val * 1792 + q.val, by have ht : t.val < 14 := t.isLt; have hq := q.isLt; omega⟩

/-- The weight block at any point is the whole weight matrix. -/
theorem wBlk_apply (c : Dev nD) (t : Fin cfg0.N) (p : Fin 256) (k : Fin 2304) :
    (iblk m c 0 t : FVec Ideal S256x2304 .bf16) (ix2 p k) = wArr m c (ix2 p k) := by
  obtain ⟨e00, e01, -, -, -, -, -, -⟩ := blockIdx t
  unfold iblk
  show V m c main_v166 (((cfg0.win 0).blk t).view.emb (ix2 p k)) = V m c main_v166 (ix2 p k)
  have h : ((cfg0.win 0).blk t).view.emb (ix2 p k) = ix2 p k := by
    funext a; apply Fin.ext
    match a with
    | ⟨0, _⟩ => show win0_0.index t (0 : Fin 2) * 256 + 1 * p.val = p.val; omega
    | ⟨1, _⟩ => show win0_0.index t (1 : Fin 2) * 2304 + 1 * k.val = k.val; omega
  rw [h]

/-- The column block at point `t` is columns `1792 t …` of the column matrix. -/
theorem colBlk_apply (c : Dev nD) (t : Fin cfg0.N) (k : Fin 2304) (q : Fin 1792) :
    (iblk m c 1 t : FVec Ideal S2304x1792 .bf16) (ix2 k q) = colArr m c (ix2 k (colAt t q)) := by
  obtain ⟨-, -, e10, e11, -, -, -, -⟩ := blockIdx t
  unfold iblk
  show V m c main_v167 (((cfg0.win 1).blk t).view.emb (ix2 k q)) = V m c main_v167 (ix2 k (colAt t q))
  have h : ((cfg0.win 1).blk t).view.emb (ix2 k q) = ix2 k (colAt t q) := by
    funext a; apply Fin.ext
    match a with
    | ⟨0, _⟩ => show win0_1.index t (0 : Fin 2) * 2304 + 1 * k.val = k.val; omega
    | ⟨1, _⟩ => show win0_1.index t (1 : Fin 2) * 1792 + 1 * q.val = t.val * 1792 + q.val; omega
  rw [h]

/-- The bias block at any point is the whole bias column. -/
theorem biasBlk_apply (c : Dev nD) (t : Fin cfg0.N) (p : Fin 256) :
    (iblk m c 2 t : FVec Ideal S256x1 .f32) (ix2 p (0 : Fin 1)) = biasArr m c (ix2 p (0 : Fin 1)) := by
  obtain ⟨-, -, -, -, e20, e21, -, -⟩ := blockIdx t
  unfold iblk
  show V m c main_v168 (((cfg0.win 2).blk t).view.emb (ix2 p (0 : Fin 1))) = V m c main_v168 (ix2 p (0 : Fin 1))
  have h : ((cfg0.win 2).blk t).view.emb (ix2 p (0 : Fin 1)) = ix2 p (0 : Fin 1) := by
    funext a; apply Fin.ext
    match a with
    | ⟨0, _⟩ => show win0_2.index t (0 : Fin 2) * 256 + 1 * p.val = p.val; omega
    | ⟨1, _⟩ => show win0_2.index t (1 : Fin 2) * 1 + 1 * 0 = 0; omega
  rw [h]

/-- Entry `(p, q)` of the result block at point `t` is entry `(p, 1792 t + q)` of the result array. -/
theorem outBlk_emb (t : Fin cfg0.N) (p : Fin 256) (q : Fin 1792) :
    ((cfg0.win 3).blk t).view.emb (ix2 p q) = ix2 p (colAt t q) := by
  obtain ⟨-, -, -, -, -, -, e30, e31⟩ := blockIdx t
  funext a; apply Fin.ext
  match a with
  | ⟨0, _⟩ => show win0_3.index t (0 : Fin 2) * 256 + 1 * p.val = p.val; omega
  | ⟨1, _⟩ => show win0_3.index t (1 : Fin 2) * 1792 + 1 * q.val = t.val * 1792 + q.val; omega

/-- WHAT POINT `t` WRITES BACK is block `t` of the matrix product with bias of the three arrays. -/
theorem flushed_eq (c : Dev nD) (t : Fin cfg0.N) :
    (dats m 0 c).flushed 3 t
      = ((cfg0.win 3).blk t).view.read (Elt Ideal) (Cert.Spec.gemmBias (wArr m c) (colArr m c) (biasArr m c)) := by
  show (cfg0.win 3).cut (grid0.coords t) ((dats m 0 c).after 3 t) = _
  rw [after0_3]
  funext j
  obtain ⟨p, q, rfl⟩ : ∃ (p : Fin 256) (q : Fin 1792), j = ix2 p q := ⟨j 0, j 1, eq_ix2 j⟩
  show out0_3 (F := Ideal) (iblk m c 0 t) (iblk m c 1 t) (iblk m c 2 t) (ix2 p q)
    = Cert.Spec.gemmBias (wArr m c) (colArr m c) (biasArr m c) (((cfg0.win 3).blk t).view.emb (ix2 p q))
  rw [outBlk_emb t p q, Cert.Spec.gemmBias_apply]
  refine (out_apply (iblk m c 0 t) (iblk m c 1 t) (iblk m c 2 t) p q).trans ?_
  unfold Cert.Spec.gemmAt
  exact congrArg₂ (· + ·)
    (Finset.sum_congr rfl fun k _ => congrArg₂ (· * ·) (wBlk_apply m c t p k) (colBlk_apply m c t k q))
    (biasBlk_apply m c t p)

/-- Every entry of the result array lies in some point's block: column `n` in block `n / 1792`. -/
theorem covered (i : S256x25088.Idx) :
    ∃ t : Fin cfg0.N, (cfg0.win 3).flush t = true ∧ i ∈ ((cfg0.win 3).blk t).view.set := by
  have hi0 : (i 0).val < 256 := (i 0).isLt
  have hi1 : (i 1).val < 25088 := (i 1).isLt
  let t : Fin cfg0.N := ⟨(i 1).val / 1792, show (i 1).val / 1792 < 14 by omega⟩
  obtain ⟨-, -, -, -, -, -, e30, e31⟩ := blockIdx t
  have ht : t.val = (i 1).val / 1792 := rfl
  refine ⟨t, flush0_3 t, ?_⟩
  show i ∈ ((View.whole main_v169).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1792 ≤ (i 1).val ∧ (i 1).val < win0_3.index t (1 : Fin 2) * 1792 + 1792; omega

/-- THE RESULT ARRAY after the run: the matrix product with bias of the three arrays as the region finds them. -/
theorem final3 (c : Dev nD) :
    (dats m 0 c).arrAt 3 cfg0.N = Cert.Spec.gemmBias (wArr m c) (colArr m c) (biasArr m c) :=
  (dats m 0 c).arrAt_eq_of_cover 3 (Cert.Spec.gemmBias (wArr m c) (colArr m c) (biasArr m c))
    (fun t _ => flushed_eq m c t) (covered)

end Cert.KernelIdeal.Val

end
-- ==== Proof.KRun.lean ====
import proofs.«115476_j5961414607249_1_alg».proof.Proof.Gen.KernelIdeal.Frame
import proofs.«115476_j5961414607249_1_alg».proof.Proof.Spec
import proofs.«115476_j5961414607249_1_alg».proof.Proof.LibContract
import proofs.«115476_j5961414607249_1_alg».proof.Proof.KArray
import Idealize.ShloMosaic.Lib.Pipeline.FrameSuffix
import Idealize.ShloMosaic.Lib.StableHlo.Run
import Idealize.ShloMosaic.Lib.Pipeline.Value
import Idealize.ShloMosaic.Lib.ValueIdx

/-!
# The kernel program's run, read

After the one kernel region the program reshapes the [256, 25088] result to [256, 8, 56, 56] and transposes it to
[8, 256, 56, 56]. This file reads the frame run's post: the last buffer ends holding that reshape and transpose of
the matrix product with bias of the three arrays the region finds, and the five argument arrays end as launched.
-/

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as the operations after the region find it: the matrix product with bias. -/
theorem result_found (c : Dev nD) :
    Pipeline.withArrays spec0 c (V0 m c) (fun w => (dats m 0 c).arrAt w cfg0.N) (Proc.devRef .tc main_v169)
      = Cert.Spec.gemmBias (wArr m c) (colArr m c) (biasArr m c) :=
  (Pipeline.withArrays_arr spec0 launch0.win.arr_inj c (V0 m c) (fun w => (dats m 0 c).arrAt w cfg0.N) 3).trans (final3 m c)

/-- What the two operations after the region leave in the last buffer: the result array, which ends at the matrix
    product with bias, reshaped and transposed. -/
theorem tail_value (c : Dev nD) :
    Pipeline.afterTail₀ cfgs (dats m) 0 (V0 m) [hostOps1] c main_v171
      = transpose S8x256x56x56 [1, 0, 2, 3]
          (shapeCast S256x8x56x56 (Cert.Spec.gemmBias (wArr m c) (colArr m c) (biasArr m c)) shapeCasts_S256x25088_S256x8x56x56)
          transposes_S256x8x56x56_S8x256x56x56_1_0_2_3 := by
  unfold Pipeline.afterTail₀
  show StableHlo.after hostOps1 _ (Proc.devRef .tc main_v171) = _
  after_results
  exact congrArg (fun X : FVec Ideal S256x25088 .f32 => transpose S8x256x56x56 [1, 0, 2, 3]
      (shapeCast S256x8x56x56 X shapeCasts_S256x25088_S256x8x56x56) transposes_S256x8x56x56_S8x256x56x56_1_0_2_3)
    (result_found m c)

/-- THE RUN, READ: every weakly fair execution of the kernel program terminates with the last buffer at the reshaped,
    transposed matrix product with bias, and the five argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v171)
        = transpose S8x256x56x56 [1, 0, 2, 3] (shapeCast S256x8x56x56 (Cert.Spec.gemmBias (wArr m c) (colArr m c) (biasArr m c)) shapeCasts_S256x25088_S256x8x56x56) transposes_S256x8x56x56_S8x256x56x56_1_0_2_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v171 (Pipeline.mem_restRefs_of main_v171 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Val

end
-- ==== Proof.Prefix.lean ====
import proofs.«115476_j5961414607249_1_alg».proof.Proof.Gen.KernelIdeal.Launch
import proofs.«115476_j5961414607249_1_alg».proof.Proof.RefRun
import Idealize.ShloMosaic.Lib.StableHlo.RunLoop

/-!
# The column matrix is one function of the inputs in both programs

Before their matrix product both programs run the same 347 array operations on `x`, `offset` and `mask`: the
sampling coordinates, four clamped gathers, the bilinear blend, the mask. Here the two runs are compared stage by
stage, over ANY float family: each stage is a stretch of consecutive operations, the values a later stage reads are
carried as equations between the two programs' buffers, and within a stage the two programs' result terms are the
same tree of operations, so their equality is by unfolding. Nothing of the sampling arithmetic is opened.
-/

set_option maxRecDepth 16384

noncomputable section

namespace Cert.Prefix

open Idealize.ShloMosaic Idealize.ShloMosaic.StableHlo

variable {F : FTy → Type} [FloatOps F]

/-- The kernel program's operations of stage 1. -/
abbrev kStage1 : List (List (HloOp Cert.KernelIdeal.τ Cert.KernelIdeal.sig (Elt F))) :=
  [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7]
/-- The reference program's operations of stage 1. -/
abbrev rStage1 : List (List (HloOp Cert.ReferenceIdeal.τ Cert.ReferenceIdeal.sig (Elt F))) :=
  [Cert.ReferenceIdeal.RunP.w0_0, Cert.ReferenceIdeal.RunP.w1_0, Cert.ReferenceIdeal.RunP.w1_1, Cert.ReferenceIdeal.RunP.w1_2, Cert.ReferenceIdeal.RunP.w1_3, Cert.ReferenceIdeal.RunP.w1_4, Cert.ReferenceIdeal.RunP.w1_5, Cert.ReferenceIdeal.RunP.w1_6, Cert.ReferenceIdeal.RunP.w1_7]

/-- The kernel program's operations of stage 2. -/
abbrev kStage2 : List (List (HloOp Cert.KernelIdeal.τ Cert.KernelIdeal.sig (Elt F))) :=
  [Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15]
/-- The reference program's operations of stage 2. -/
abbrev rStage2 : List (List (HloOp Cert.ReferenceIdeal.τ Cert.ReferenceIdeal.sig (Elt F))) :=
  [Cert.ReferenceIdeal.RunP.w1_8, Cert.ReferenceIdeal.RunP.w1_9, Cert.ReferenceIdeal.RunP.w1_10, Cert.ReferenceIdeal.RunP.w1_11, Cert.ReferenceIdeal.RunP.w1_12, Cert.ReferenceIdeal.RunP.w1_13, Cert.ReferenceIdeal.RunP.w2_0, Cert.ReferenceIdeal.RunP.w2_1]

/-- The kernel program's operations of stage 3. -/
abbrev kStage3 : List (List (HloOp Cert.KernelIdeal.τ Cert.KernelIdeal.sig (Elt F))) :=
  [Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23]
/-- The reference program's operations of stage 3. -/
abbrev rStage3 : List (List (HloOp Cert.ReferenceIdeal.τ Cert.ReferenceIdeal.sig (Elt F))) :=
  [Cert.ReferenceIdeal.RunP.w2_2, Cert.ReferenceIdeal.RunP.w2_3, Cert.ReferenceIdeal.RunP.w2_4, Cert.ReferenceIdeal.RunP.w2_5, Cert.ReferenceIdeal.RunP.w2_6, Cert.ReferenceIdeal.RunP.w2_7, Cert.ReferenceIdeal.RunP.w2_8, Cert.ReferenceIdeal.RunP.w2_9]

/-- The kernel program's operations of stage 4. -/
abbrev kStage4 : List (List (HloOp Cert.KernelIdeal.τ Cert.KernelIdeal.sig (Elt F))) :=
  [Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31]
/-- The reference program's operations of stage 4. -/
abbrev rStage4 : List (List (HloOp Cert.ReferenceIdeal.τ Cert.ReferenceIdeal.sig (Elt F))) :=
  [Cert.ReferenceIdeal.RunP.w2_10, Cert.ReferenceIdeal.RunP.w2_11, Cert.ReferenceIdeal.RunP.w2_12, Cert.ReferenceIdeal.RunP.w2_13, Cert.ReferenceIdeal.RunP.w2_14, Cert.ReferenceIdeal.RunP.w3_0, Cert.ReferenceIdeal.RunP.w3_1, Cert.ReferenceIdeal.RunP.w3_2, Cert.ReferenceIdeal.RunP.w3_3]

/-- The kernel program's operations of stage 5. -/
abbrev kStage5 : List (List (HloOp Cert.KernelIdeal.τ Cert.KernelIdeal.sig (Elt F))) :=
  [Cert.KernelIdeal.Gen.hostOps0_32]
/-- The reference program's operations of stage 5 (its last item goes on with the reference's own seven closing operations, which write other buffers). -/
abbrev rStage5 : List (List (HloOp Cert.ReferenceIdeal.τ Cert.ReferenceIdeal.sig (Elt F))) :=
  [Cert.ReferenceIdeal.RunP.w3_4]

set_option maxHeartbeats 4000000 in
theorem stage1_v42 (VK : Valuation Cert.KernelIdeal.τ Cert.KernelIdeal.sig (Elt F)) (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg1 : VK (Proc.devRef .tc Cert.KernelIdeal.main_arg1) = VR (Proc.devRef .tc Cert.ReferenceIdeal.main_arg1))
    (h_arg2 : VK (Proc.devRef .tc Cert.KernelIdeal.main_arg2) = VR (Proc.devRef .tc Cert.ReferenceIdeal.main_arg2)) :
    afterL kStage1 VK (Proc.devRef .tc Cert.KernelIdeal.main_v42) = afterL rStage1 VR (Proc.devRef .tc Cert.ReferenceIdeal.main_v42) := by
  simp only [afterL_cons, afterL_nil]
  after_results_simp
  simp only [h_arg0, h_arg1, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage1_v45 (VK : Valuation Cert.KernelIdeal.τ Cert.KernelIdeal.sig (Elt F)) (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg1 : VK (Proc.devRef .tc Cert.KernelIdeal.main_arg1) = VR (Proc.devRef .tc Cert.ReferenceIdeal.main_arg1))
    (h_arg2 : VK (Proc.devRef .tc Cert.KernelIdeal.main_arg2) = VR (Proc.devRef .tc Cert.ReferenceIdeal.main_arg2)) :
    afterL kStage1 VK (Proc.devRef .tc Cert.KernelIdeal.main_v45) = afterL rStage1 VR (Proc.devRef .tc Cert.ReferenceIdeal.main_v45) := by
  simp only [afterL_cons, afterL_nil]
  after_results_simp
  simp only [h_arg0, h_arg1, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage1_v48 (VK : Valuation Cert.KernelIdeal.τ Cert.KernelIdeal.sig (Elt F)) (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg1 : VK (Proc.devRef .tc Cert.KernelIdeal.main_arg1) = VR (Proc.devRef .tc Cert.ReferenceIdeal.main_arg1))
    (h_arg2 : VK (Proc.devRef .tc Cert.KernelIdeal.main_arg2) = VR (Proc.devRef .tc Cert.ReferenceIdeal.main_arg2)) :
    afterL kStage1 VK (Proc.devRef .tc Cert.KernelIdeal.main_v48) = afterL rStage1 VR (Proc.devRef .tc Cert.ReferenceIdeal.main_v48) := by
  simp only [afterL_cons, afterL_nil]
  after_results_simp
  simp only [h_arg0, h_arg1, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage1_v50 (VK : Valuation Cert.KernelIdeal.τ Cert.KernelIdeal.sig (Elt F)) (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg1 : VK (Proc.devRef .tc Cert.KernelIdeal.main_arg1) = VR (Proc.devRef .tc Cert.ReferenceIdeal.main_arg1))
    (h_arg2 : VK (Proc.devRef .tc Cert.KernelIdeal.main_arg2) = VR (Proc.devRef .tc Cert.ReferenceIdeal.main_arg2)) :
    afterL kStage1 VK (Proc.devRef .tc Cert.KernelIdeal.main_v50) = afterL rStage1 VR (Proc.devRef .tc Cert.ReferenceIdeal.main_v50) := by
  simp only [afterL_cons, afterL_nil]
  after_results_simp
  simp only [h_arg0, h_arg1, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage1_v52 (VK : Valuation Cert.KernelIdeal.τ Cert.KernelIdeal.sig (Elt F)) (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg1 : VK (Proc.devRef .tc Cert.KernelIdeal.main_arg1) = VR (Proc.devRef .tc Cert.ReferenceIdeal.main_arg1))
    (h_arg2 : VK (Proc.devRef .tc Cert.KernelIdeal.main_arg2) = VR (Proc.devRef .tc Cert.ReferenceIdeal.main_arg2)) :
    afterL kStage1 VK (Proc.devRef .tc Cert.KernelIdeal.main_v52) = afterL rStage1 VR (Proc.devRef .tc Cert.ReferenceIdeal.main_v52) := by
  simp only [afterL_cons, afterL_nil]
  after_results_simp
  simp only [h_arg0, h_arg1, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage1_v53 (VK : Valuation Cert.KernelIdeal.τ Cert.KernelIdeal.sig (Elt F)) (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg1 : VK (Proc.devRef .tc Cert.KernelIdeal.main_arg1) = VR (Proc.devRef .tc Cert.ReferenceIdeal.main_arg1))
    (h_arg2 : VK (Proc.devRef .tc Cert.KernelIdeal.main_arg2) = VR (Proc.devRef .tc Cert.ReferenceIdeal.main_arg2)) :
    afterL kStage1 VK (Proc.devRef .tc Cert.KernelIdeal.main_v53) = afterL rStage1 VR (Proc.devRef .tc Cert.ReferenceIdeal.main_v53) := by
  simp only [afterL_cons, afterL_nil]
  after_results_simp
  simp only [h_arg0, h_arg1, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage1_v74 (VK : Valuation Cert.KernelIdeal.τ Cert.KernelIdeal.sig (Elt F)) (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg1 : VK (Proc.devRef .tc Cert.KernelIdeal.main_arg1) = VR (Proc.devRef .tc Cert.ReferenceIdeal.main_arg1))
    (h_arg2 : VK (Proc.devRef .tc Cert.KernelIdeal.main_arg2) = VR (Proc.devRef .tc Cert.ReferenceIdeal.main_arg2)) :
    afterL kStage1 VK (Proc.devRef .tc Cert.KernelIdeal.main_v74) = afterL rStage1 VR (Proc.devRef .tc Cert.ReferenceIdeal.main_v74) := by
  simp only [afterL_cons, afterL_nil]
  after_results_simp
  simp only [h_arg0, h_arg1, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage1_arg2 (VK : Valuation Cert.KernelIdeal.τ Cert.KernelIdeal.sig (Elt F)) (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg1 : VK (Proc.devRef .tc Cert.KernelIdeal.main_arg1) = VR (Proc.devRef .tc Cert.ReferenceIdeal.main_arg1))
    (h_arg2 : VK (Proc.devRef .tc Cert.KernelIdeal.main_arg2) = VR (Proc.devRef .tc Cert.ReferenceIdeal.main_arg2)) :
    afterL kStage1 VK (Proc.devRef .tc Cert.KernelIdeal.main_arg2) = afterL rStage1 VR (Proc.devRef .tc Cert.ReferenceIdeal.main_arg2) := by
  simp only [afterL_cons, afterL_nil]
  after_results_simp
  simp only [h_arg0, h_arg1, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

/-- The sampling coordinates (floor and fraction of offset plus base grid), the four integer corner coordinates, the image flattened per channel, and the first corner's gathered values (row floor, column floor, zeroed outside the image) are the same functions of `x` and `offset` in both programs. -/
theorem stage1 (VK : Valuation Cert.KernelIdeal.τ Cert.KernelIdeal.sig (Elt F)) (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg1 : VK (Proc.devRef .tc Cert.KernelIdeal.main_arg1) = VR (Proc.devRef .tc Cert.ReferenceIdeal.main_arg1))
    (h_arg2 : VK (Proc.devRef .tc Cert.KernelIdeal.main_arg2) = VR (Proc.devRef .tc Cert.ReferenceIdeal.main_arg2)) :
    afterL kStage1 VK (Proc.devRef .tc Cert.KernelIdeal.main_v42) = afterL rStage1 VR (Proc.devRef .tc Cert.ReferenceIdeal.main_v42)
    ∧     afterL kStage1 VK (Proc.devRef .tc Cert.KernelIdeal.main_v45) = afterL rStage1 VR (Proc.devRef .tc Cert.ReferenceIdeal.main_v45)
    ∧     afterL kStage1 VK (Proc.devRef .tc Cert.KernelIdeal.main_v48) = afterL rStage1 VR (Proc.devRef .tc Cert.ReferenceIdeal.main_v48)
    ∧     afterL kStage1 VK (Proc.devRef .tc Cert.KernelIdeal.main_v50) = afterL rStage1 VR (Proc.devRef .tc Cert.ReferenceIdeal.main_v50)
    ∧     afterL kStage1 VK (Proc.devRef .tc Cert.KernelIdeal.main_v52) = afterL rStage1 VR (Proc.devRef .tc Cert.ReferenceIdeal.main_v52)
    ∧     afterL kStage1 VK (Proc.devRef .tc Cert.KernelIdeal.main_v53) = afterL rStage1 VR (Proc.devRef .tc Cert.ReferenceIdeal.main_v53)
    ∧     afterL kStage1 VK (Proc.devRef .tc Cert.KernelIdeal.main_v74) = afterL rStage1 VR (Proc.devRef .tc Cert.ReferenceIdeal.main_v74)
    ∧     afterL kStage1 VK (Proc.devRef .tc Cert.KernelIdeal.main_arg2) = afterL rStage1 VR (Proc.devRef .tc Cert.ReferenceIdeal.main_arg2) :=
  ⟨stage1_v42 VK VR h_arg0 h_arg1 h_arg2,
    stage1_v45 VK VR h_arg0 h_arg1 h_arg2,
    stage1_v48 VK VR h_arg0 h_arg1 h_arg2,
    stage1_v50 VK VR h_arg0 h_arg1 h_arg2,
    stage1_v52 VK VR h_arg0 h_arg1 h_arg2,
    stage1_v53 VK VR h_arg0 h_arg1 h_arg2,
    stage1_v74 VK VR h_arg0 h_arg1 h_arg2,
    stage1_arg2 VK VR h_arg0 h_arg1 h_arg2⟩

set_option maxHeartbeats 4000000 in
theorem stage2_v42 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_v42) = afterL rStage2 VR (Proc.devRef .tc Cert.ReferenceIdeal.main_v42) := by
  simp only [afterL_cons, afterL_nil]
  after_results_simp
  simp only [h_v42, h_v45, h_v48, h_v50, h_v52, h_v53, h_v74, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage2_v45 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_v45) = afterL rStage2 VR (Proc.devRef .tc Cert.ReferenceIdeal.main_v45) := by
  simp only [afterL_cons, afterL_nil]
  after_results_simp
  simp only [h_v42, h_v45, h_v48, h_v50, h_v52, h_v53, h_v74, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage2_v48 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_v48) = afterL rStage2 VR (Proc.devRef .tc Cert.ReferenceIdeal.main_v48) := by
  simp only [afterL_cons, afterL_nil]
  after_results_simp
  simp only [h_v42, h_v45, h_v48, h_v50, h_v52, h_v53, h_v74, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage2_v50 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_v50) = afterL rStage2 VR (Proc.devRef .tc Cert.ReferenceIdeal.main_v50) := by
  simp only [afterL_cons, afterL_nil]
  after_results_simp
  simp only [h_v42, h_v45, h_v48, h_v50, h_v52, h_v53, h_v74, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage2_v52 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_v52) = afterL rStage2 VR (Proc.devRef .tc Cert.ReferenceIdeal.main_v52) := by
  simp only [afterL_cons, afterL_nil]
  after_results_simp
  simp only [h_v42, h_v45, h_v48, h_v50, h_v52, h_v53, h_v74, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage2_v53 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_v53) = afterL rStage2 VR (Proc.devRef .tc Cert.ReferenceIdeal.main_v53) := by
  simp only [afterL_cons, afterL_nil]
  after_results_simp
  simp only [h_v42, h_v45, h_v48, h_v50, h_v52, h_v53, h_v74, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage2_v74 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_v74) = afterL rStage2 VR (Proc.devRef .tc Cert.ReferenceIdeal.main_v74) := by
  simp only [afterL_cons, afterL_nil]
  after_results_simp
  simp only [h_v42, h_v45, h_v48, h_v50, h_v52, h_v53, h_v74, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage2_v95 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_v95) = afterL rStage2 VR (Proc.devRef .tc Cert.ReferenceIdeal.main_v95) := by
  simp only [afterL_cons, afterL_nil]
  after_results_simp
  simp only [h_v42, h_v45, h_v48, h_v50, h_v52, h_v53, h_v74, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage2_arg2 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_arg2) = afterL rStage2 VR (Proc.devRef .tc Cert.ReferenceIdeal.main_arg2) := by
  simp only [afterL_cons, afterL_nil]
  after_results_simp
  simp only [h_v42, h_v45, h_v48, h_v50, h_v52, h_v53, h_v74, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

/-- The second corner's gathered values (row floor + 1, column floor + 1) from the coordinates and the flattened image. -/
theorem stage2 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_arg2 : VK (Proc.devRef .tc Cert.KernelIdeal.main_arg2) = VR (Proc.devRef .tc Cert.ReferenceIdeal.main_arg2)) :
    afterL kStage2 VK (Proc.devRef .tc Cert.KernelIdeal.main_v42) = afterL rStage2 VR (Proc.devRef .tc Cert.ReferenceIdeal.main_v42)
    ∧     afterL kStage2 VK (Proc.devRef .tc Cert.KernelIdeal.main_v45) = afterL rStage2 VR (Proc.devRef .tc Cert.ReferenceIdeal.main_v45)
    ∧     afterL kStage2 VK (Proc.devRef .tc Cert.KernelIdeal.main_v48) = afterL rStage2 VR (Proc.devRef .tc Cert.ReferenceIdeal.main_v48)
    ∧     afterL kStage2 VK (Proc.devRef .tc Cert.KernelIdeal.main_v50) = afterL rStage2 VR (Proc.devRef .tc Cert.ReferenceIdeal.main_v50)
    ∧     afterL kStage2 VK (Proc.devRef .tc Cert.KernelIdeal.main_v52) = afterL rStage2 VR (Proc.devRef .tc Cert.ReferenceIdeal.main_v52)
    ∧     afterL kStage2 VK (Proc.devRef .tc Cert.KernelIdeal.main_v53) = afterL rStage2 VR (Proc.devRef .tc Cert.ReferenceIdeal.main_v53)
    ∧     afterL kStage2 VK (Proc.devRef .tc Cert.KernelIdeal.main_v74) = afterL rStage2 VR (Proc.devRef .tc Cert.ReferenceIdeal.main_v74)
    ∧     afterL kStage2 VK (Proc.devRef .tc Cert.KernelIdeal.main_v95) = afterL rStage2 VR (Proc.devRef .tc Cert.ReferenceIdeal.main_v95)
    ∧     afterL kStage2 VK (Proc.devRef .tc Cert.KernelIdeal.main_arg2) = afterL rStage2 VR (Proc.devRef .tc Cert.ReferenceIdeal.main_arg2) :=
  ⟨stage2_v42 VK VR h_v42 h_v45 h_v48 h_v50 h_v52 h_v53 h_v74 h_arg2,
    stage2_v45 VK VR h_v42 h_v45 h_v48 h_v50 h_v52 h_v53 h_v74 h_arg2,
    stage2_v48 VK VR h_v42 h_v45 h_v48 h_v50 h_v52 h_v53 h_v74 h_arg2,
    stage2_v50 VK VR h_v42 h_v45 h_v48 h_v50 h_v52 h_v53 h_v74 h_arg2,
    stage2_v52 VK VR h_v42 h_v45 h_v48 h_v50 h_v52 h_v53 h_v74 h_arg2,
    stage2_v53 VK VR h_v42 h_v45 h_v48 h_v50 h_v52 h_v53 h_v74 h_arg2,
    stage2_v74 VK VR h_v42 h_v45 h_v48 h_v50 h_v52 h_v53 h_v74 h_arg2,
    stage2_v95 VK VR h_v42 h_v45 h_v48 h_v50 h_v52 h_v53 h_v74 h_arg2,
    stage2_arg2 VK VR h_v42 h_v45 h_v48 h_v50 h_v52 h_v53 h_v74 h_arg2⟩

set_option maxHeartbeats 4000000 in
theorem stage3_v42 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_arg2 : VK (Proc.devRef .tc Cert.KernelIdeal.main_arg2) = VR (Proc.devRef .tc Cert.ReferenceIdeal.main_arg2)) :
    afterL kStage3 VK (Proc.devRef .tc Cert.KernelIdeal.main_v42) = afterL rStage3 VR (Proc.devRef .tc Cert.ReferenceIdeal.main_v42) := by
  simp only [afterL_cons, afterL_nil]
  after_results_simp
  simp only [h_v42, h_v45, h_v48, h_v50, h_v52, h_v53, h_v74, h_v95, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage3_v48 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_arg2 : VK (Proc.devRef .tc Cert.KernelIdeal.main_arg2) = VR (Proc.devRef .tc Cert.ReferenceIdeal.main_arg2)) :
    afterL kStage3 VK (Proc.devRef .tc Cert.KernelIdeal.main_v48) = afterL rStage3 VR (Proc.devRef .tc Cert.ReferenceIdeal.main_v48) := by
  simp only [afterL_cons, afterL_nil]
  after_results_simp
  simp only [h_v42, h_v45, h_v48, h_v50, h_v52, h_v53, h_v74, h_v95, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage3_v50 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_arg2 : VK (Proc.devRef .tc Cert.KernelIdeal.main_arg2) = VR (Proc.devRef .tc Cert.ReferenceIdeal.main_arg2)) :
    afterL kStage3 VK (Proc.devRef .tc Cert.KernelIdeal.main_v50) = afterL rStage3 VR (Proc.devRef .tc Cert.ReferenceIdeal.main_v50) := by
  simp only [afterL_cons, afterL_nil]
  after_results_simp
  simp only [h_v42, h_v45, h_v48, h_v50, h_v52, h_v53, h_v74, h_v95, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage3_v53 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_arg2 : VK (Proc.devRef .tc Cert.KernelIdeal.main_arg2) = VR (Proc.devRef .tc Cert.ReferenceIdeal.main_arg2)) :
    afterL kStage3 VK (Proc.devRef .tc Cert.KernelIdeal.main_v53) = afterL rStage3 VR (Proc.devRef .tc Cert.ReferenceIdeal.main_v53) := by
  simp only [afterL_cons, afterL_nil]
  after_results_simp
  simp only [h_v42, h_v45, h_v48, h_v50, h_v52, h_v53, h_v74, h_v95, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage3_v74 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_arg2 : VK (Proc.devRef .tc Cert.KernelIdeal.main_arg2) = VR (Proc.devRef .tc Cert.ReferenceIdeal.main_arg2)) :
    afterL kStage3 VK (Proc.devRef .tc Cert.KernelIdeal.main_v74) = afterL rStage3 VR (Proc.devRef .tc Cert.ReferenceIdeal.main_v74) := by
  simp only [afterL_cons, afterL_nil]
  after_results_simp
  simp only [h_v42, h_v45, h_v48, h_v50, h_v52, h_v53, h_v74, h_v95, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage3_v95 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_arg2 : VK (Proc.devRef .tc Cert.KernelIdeal.main_arg2) = VR (Proc.devRef .tc Cert.ReferenceIdeal.main_arg2)) :
    afterL kStage3 VK (Proc.devRef .tc Cert.KernelIdeal.main_v95) = afterL rStage3 VR (Proc.devRef .tc Cert.ReferenceIdeal.main_v95) := by
  simp only [afterL_cons, afterL_nil]
  after_results_simp
  simp only [h_v42, h_v45, h_v48, h_v50, h_v52, h_v53, h_v74, h_v95, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage3_v116 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_arg2 : VK (Proc.devRef .tc Cert.KernelIdeal.main_arg2) = VR (Proc.devRef .tc Cert.ReferenceIdeal.main_arg2)) :
    afterL kStage3 VK (Proc.devRef .tc Cert.KernelIdeal.main_v116) = afterL rStage3 VR (Proc.devRef .tc Cert.ReferenceIdeal.main_v116) := by
  simp only [afterL_cons, afterL_nil]
  after_results_simp
  simp only [h_v42, h_v45, h_v48, h_v50, h_v52, h_v53, h_v74, h_v95, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage3_arg2 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_arg2 : VK (Proc.devRef .tc Cert.KernelIdeal.main_arg2) = VR (Proc.devRef .tc Cert.ReferenceIdeal.main_arg2)) :
    afterL kStage3 VK (Proc.devRef .tc Cert.KernelIdeal.main_arg2) = afterL rStage3 VR (Proc.devRef .tc Cert.ReferenceIdeal.main_arg2) := by
  simp only [afterL_cons, afterL_nil]
  after_results_simp
  simp only [h_v42, h_v45, h_v48, h_v50, h_v52, h_v53, h_v74, h_v95, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

/-- The third corner's gathered values (row floor, column floor + 1). -/
theorem stage3 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v45 : VK (Proc.devRef .tc Cert.KernelIdeal.main_v45) = VR (Proc.devRef .tc Cert.ReferenceIdeal.main_v45))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v52 : VK (Proc.devRef .tc Cert.KernelIdeal.main_v52) = VR (Proc.devRef .tc Cert.ReferenceIdeal.main_v52))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_arg2 : VK (Proc.devRef .tc Cert.KernelIdeal.main_arg2) = VR (Proc.devRef .tc Cert.ReferenceIdeal.main_arg2)) :
    afterL kStage3 VK (Proc.devRef .tc Cert.KernelIdeal.main_v42) = afterL rStage3 VR (Proc.devRef .tc Cert.ReferenceIdeal.main_v42)
    ∧     afterL kStage3 VK (Proc.devRef .tc Cert.KernelIdeal.main_v48) = afterL rStage3 VR (Proc.devRef .tc Cert.ReferenceIdeal.main_v48)
    ∧     afterL kStage3 VK (Proc.devRef .tc Cert.KernelIdeal.main_v50) = afterL rStage3 VR (Proc.devRef .tc Cert.ReferenceIdeal.main_v50)
    ∧     afterL kStage3 VK (Proc.devRef .tc Cert.KernelIdeal.main_v53) = afterL rStage3 VR (Proc.devRef .tc Cert.ReferenceIdeal.main_v53)
    ∧     afterL kStage3 VK (Proc.devRef .tc Cert.KernelIdeal.main_v74) = afterL rStage3 VR (Proc.devRef .tc Cert.ReferenceIdeal.main_v74)
    ∧     afterL kStage3 VK (Proc.devRef .tc Cert.KernelIdeal.main_v95) = afterL rStage3 VR (Proc.devRef .tc Cert.ReferenceIdeal.main_v95)
    ∧     afterL kStage3 VK (Proc.devRef .tc Cert.KernelIdeal.main_v116) = afterL rStage3 VR (Proc.devRef .tc Cert.ReferenceIdeal.main_v116)
    ∧     afterL kStage3 VK (Proc.devRef .tc Cert.KernelIdeal.main_arg2) = afterL rStage3 VR (Proc.devRef .tc Cert.ReferenceIdeal.main_arg2) :=
  ⟨stage3_v42 VK VR h_v42 h_v45 h_v48 h_v50 h_v52 h_v53 h_v74 h_v95 h_arg2,
    stage3_v48 VK VR h_v42 h_v45 h_v48 h_v50 h_v52 h_v53 h_v74 h_v95 h_arg2,
    stage3_v50 VK VR h_v42 h_v45 h_v48 h_v50 h_v52 h_v53 h_v74 h_v95 h_arg2,
    stage3_v53 VK VR h_v42 h_v45 h_v48 h_v50 h_v52 h_v53 h_v74 h_v95 h_arg2,
    stage3_v74 VK VR h_v42 h_v45 h_v48 h_v50 h_v52 h_v53 h_v74 h_v95 h_arg2,
    stage3_v95 VK VR h_v42 h_v45 h_v48 h_v50 h_v52 h_v53 h_v74 h_v95 h_arg2,
    stage3_v116 VK VR h_v42 h_v45 h_v48 h_v50 h_v52 h_v53 h_v74 h_v95 h_arg2,
    stage3_arg2 VK VR h_v42 h_v45 h_v48 h_v50 h_v52 h_v53 h_v74 h_v95 h_arg2⟩

set_option maxHeartbeats 4000000 in
theorem stage4_v42 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_v116 : VK (Proc.devRef .tc Cert.KernelIdeal.main_v116) = VR (Proc.devRef .tc Cert.ReferenceIdeal.main_v116))
    (h_arg2 : VK (Proc.devRef .tc Cert.KernelIdeal.main_arg2) = VR (Proc.devRef .tc Cert.ReferenceIdeal.main_arg2)) :
    afterL kStage4 VK (Proc.devRef .tc Cert.KernelIdeal.main_v42) = afterL rStage4 VR (Proc.devRef .tc Cert.ReferenceIdeal.main_v42) := by
  simp only [afterL_cons, afterL_nil]
  after_results_simp
  simp only [h_v42, h_v48, h_v50, h_v53, h_v74, h_v95, h_v116, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage4_v74 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_v116 : VK (Proc.devRef .tc Cert.KernelIdeal.main_v116) = VR (Proc.devRef .tc Cert.ReferenceIdeal.main_v116))
    (h_arg2 : VK (Proc.devRef .tc Cert.KernelIdeal.main_arg2) = VR (Proc.devRef .tc Cert.ReferenceIdeal.main_arg2)) :
    afterL kStage4 VK (Proc.devRef .tc Cert.KernelIdeal.main_v74) = afterL rStage4 VR (Proc.devRef .tc Cert.ReferenceIdeal.main_v74) := by
  simp only [afterL_cons, afterL_nil]
  after_results_simp
  simp only [h_v42, h_v48, h_v50, h_v53, h_v74, h_v95, h_v116, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage4_v95 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_v116 : VK (Proc.devRef .tc Cert.KernelIdeal.main_v116) = VR (Proc.devRef .tc Cert.ReferenceIdeal.main_v116))
    (h_arg2 : VK (Proc.devRef .tc Cert.KernelIdeal.main_arg2) = VR (Proc.devRef .tc Cert.ReferenceIdeal.main_arg2)) :
    afterL kStage4 VK (Proc.devRef .tc Cert.KernelIdeal.main_v95) = afterL rStage4 VR (Proc.devRef .tc Cert.ReferenceIdeal.main_v95) := by
  simp only [afterL_cons, afterL_nil]
  after_results_simp
  simp only [h_v42, h_v48, h_v50, h_v53, h_v74, h_v95, h_v116, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage4_v116 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_v116 : VK (Proc.devRef .tc Cert.KernelIdeal.main_v116) = VR (Proc.devRef .tc Cert.ReferenceIdeal.main_v116))
    (h_arg2 : VK (Proc.devRef .tc Cert.KernelIdeal.main_arg2) = VR (Proc.devRef .tc Cert.ReferenceIdeal.main_arg2)) :
    afterL kStage4 VK (Proc.devRef .tc Cert.KernelIdeal.main_v116) = afterL rStage4 VR (Proc.devRef .tc Cert.ReferenceIdeal.main_v116) := by
  simp only [afterL_cons, afterL_nil]
  after_results_simp
  simp only [h_v42, h_v48, h_v50, h_v53, h_v74, h_v95, h_v116, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage4_v137 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_v116 : VK (Proc.devRef .tc Cert.KernelIdeal.main_v116) = VR (Proc.devRef .tc Cert.ReferenceIdeal.main_v116))
    (h_arg2 : VK (Proc.devRef .tc Cert.KernelIdeal.main_arg2) = VR (Proc.devRef .tc Cert.ReferenceIdeal.main_arg2)) :
    afterL kStage4 VK (Proc.devRef .tc Cert.KernelIdeal.main_v137) = afterL rStage4 VR (Proc.devRef .tc Cert.ReferenceIdeal.main_v137) := by
  simp only [afterL_cons, afterL_nil]
  after_results_simp
  simp only [h_v42, h_v48, h_v50, h_v53, h_v74, h_v95, h_v116, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

set_option maxHeartbeats 4000000 in
theorem stage4_arg2 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_v116 : VK (Proc.devRef .tc Cert.KernelIdeal.main_v116) = VR (Proc.devRef .tc Cert.ReferenceIdeal.main_v116))
    (h_arg2 : VK (Proc.devRef .tc Cert.KernelIdeal.main_arg2) = VR (Proc.devRef .tc Cert.ReferenceIdeal.main_arg2)) :
    afterL kStage4 VK (Proc.devRef .tc Cert.KernelIdeal.main_arg2) = afterL rStage4 VR (Proc.devRef .tc Cert.ReferenceIdeal.main_arg2) := by
  simp only [afterL_cons, afterL_nil]
  after_results_simp
  simp only [h_v42, h_v48, h_v50, h_v53, h_v74, h_v95, h_v116, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

/-- The fourth corner's gathered values (row floor + 1, column floor). -/
theorem stage4 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v48 : VK (Proc.devRef .tc Cert.KernelIdeal.main_v48) = VR (Proc.devRef .tc Cert.ReferenceIdeal.main_v48))
    (h_v50 : VK (Proc.devRef .tc Cert.KernelIdeal.main_v50) = VR (Proc.devRef .tc Cert.ReferenceIdeal.main_v50))
    (h_v53 : VK (Proc.devRef .tc Cert.KernelIdeal.main_v53) = VR (Proc.devRef .tc Cert.ReferenceIdeal.main_v53))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_v116 : VK (Proc.devRef .tc Cert.KernelIdeal.main_v116) = VR (Proc.devRef .tc Cert.ReferenceIdeal.main_v116))
    (h_arg2 : VK (Proc.devRef .tc Cert.KernelIdeal.main_arg2) = VR (Proc.devRef .tc Cert.ReferenceIdeal.main_arg2)) :
    afterL kStage4 VK (Proc.devRef .tc Cert.KernelIdeal.main_v42) = afterL rStage4 VR (Proc.devRef .tc Cert.ReferenceIdeal.main_v42)
    ∧     afterL kStage4 VK (Proc.devRef .tc Cert.KernelIdeal.main_v74) = afterL rStage4 VR (Proc.devRef .tc Cert.ReferenceIdeal.main_v74)
    ∧     afterL kStage4 VK (Proc.devRef .tc Cert.KernelIdeal.main_v95) = afterL rStage4 VR (Proc.devRef .tc Cert.ReferenceIdeal.main_v95)
    ∧     afterL kStage4 VK (Proc.devRef .tc Cert.KernelIdeal.main_v116) = afterL rStage4 VR (Proc.devRef .tc Cert.ReferenceIdeal.main_v116)
    ∧     afterL kStage4 VK (Proc.devRef .tc Cert.KernelIdeal.main_v137) = afterL rStage4 VR (Proc.devRef .tc Cert.ReferenceIdeal.main_v137)
    ∧     afterL kStage4 VK (Proc.devRef .tc Cert.KernelIdeal.main_arg2) = afterL rStage4 VR (Proc.devRef .tc Cert.ReferenceIdeal.main_arg2) :=
  ⟨stage4_v42 VK VR h_v42 h_v48 h_v50 h_v53 h_v74 h_v95 h_v116 h_arg2,
    stage4_v74 VK VR h_v42 h_v48 h_v50 h_v53 h_v74 h_v95 h_v116 h_arg2,
    stage4_v95 VK VR h_v42 h_v48 h_v50 h_v53 h_v74 h_v95 h_v116 h_arg2,
    stage4_v116 VK VR h_v42 h_v48 h_v50 h_v53 h_v74 h_v95 h_v116 h_arg2,
    stage4_v137 VK VR h_v42 h_v48 h_v50 h_v53 h_v74 h_v95 h_v116 h_arg2,
    stage4_arg2 VK VR h_v42 h_v48 h_v50 h_v53 h_v74 h_v95 h_v116 h_arg2⟩

set_option maxHeartbeats 4000000 in
theorem stage5_v162 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_v116 : VK (Proc.devRef .tc Cert.KernelIdeal.main_v116) = VR (Proc.devRef .tc Cert.ReferenceIdeal.main_v116))
    (h_v137 : VK (Proc.devRef .tc Cert.KernelIdeal.main_v137) = VR (Proc.devRef .tc Cert.ReferenceIdeal.main_v137))
    (h_arg2 : VK (Proc.devRef .tc Cert.KernelIdeal.main_arg2) = VR (Proc.devRef .tc Cert.ReferenceIdeal.main_arg2)) :
    afterL kStage5 VK (Proc.devRef .tc Cert.KernelIdeal.main_v162) = afterL rStage5 VR (Proc.devRef .tc Cert.ReferenceIdeal.main_v162) := by
  simp only [afterL_cons, afterL_nil]
  after_results_simp
  simp only [h_v42, h_v74, h_v95, h_v116, h_v137, h_arg2, (show Cert.KernelIdeal.gather_S8x1x256x3136_S8x28224x1_S8x1x256x28224_12_3_0_0_3_2_112561 = Cert.ReferenceIdeal.gather_S8x1x256x3136_S8x28224x1_S8x1x256x28224_12_3_0_0_3_2_112561 from rfl)] <;> rfl

/-- The bilinear blend of the four corners by the fractions, the product with the mask, and the re-layout into the [1, 2304, 25088] column matrix. -/
theorem stage5 (VK : Valuation Cert.KernelIdeal.τ Cert.KernelIdeal.sig (Elt F)) (VR : Valuation Cert.ReferenceIdeal.τ Cert.ReferenceIdeal.sig (Elt F))
    (h_v42 : VK (Proc.devRef .tc Cert.KernelIdeal.main_v42) = VR (Proc.devRef .tc Cert.ReferenceIdeal.main_v42))
    (h_v74 : VK (Proc.devRef .tc Cert.KernelIdeal.main_v74) = VR (Proc.devRef .tc Cert.ReferenceIdeal.main_v74))
    (h_v95 : VK (Proc.devRef .tc Cert.KernelIdeal.main_v95) = VR (Proc.devRef .tc Cert.ReferenceIdeal.main_v95))
    (h_v116 : VK (Proc.devRef .tc Cert.KernelIdeal.main_v116) = VR (Proc.devRef .tc Cert.ReferenceIdeal.main_v116))
    (h_v137 : VK (Proc.devRef .tc Cert.KernelIdeal.main_v137) = VR (Proc.devRef .tc Cert.ReferenceIdeal.main_v137))
    (h_arg2 : VK (Proc.devRef .tc Cert.KernelIdeal.main_arg2) = VR (Proc.devRef .tc Cert.ReferenceIdeal.main_arg2)) :
    afterL kStage5 VK (Proc.devRef .tc Cert.KernelIdeal.main_v162) = afterL rStage5 VR (Proc.devRef .tc Cert.ReferenceIdeal.main_v162) :=
  stage5_v162 VK VR h_v42 h_v74 h_v95 h_v116 h_v137 h_arg2

/-- THE COLUMN MATRIX: from launch memories that agree on `x`, `offset` and `mask`, the kernel program's buffer
    `main_v162` after its five stages holds what the reference's holds after its own. -/
theorem cols_eq (mK : (ℓ : Loc Cert.KernelIdeal.nD Cert.KernelIdeal.τ Cert.KernelIdeal.sig) → Buf (Elt F) ℓ) (mR : (ℓ : Loc Cert.ReferenceIdeal.nD Cert.ReferenceIdeal.τ Cert.ReferenceIdeal.sig) → Buf (Elt F) ℓ)
    (c : Dev Cert.KernelIdeal.nD)
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    afterL kStage5 (afterL kStage4 (afterL kStage3 (afterL kStage2 (afterL kStage1 (launchContents mK c))))) (Proc.devRef .tc Cert.KernelIdeal.main_v162)
      = afterL rStage5 (afterL rStage4 (afterL rStage3 (afterL rStage2 (afterL rStage1 (launchContents mR c))))) (Proc.devRef .tc Cert.ReferenceIdeal.main_v162) := by
  obtain ⟨e1_v42, e1_v45, e1_v48, e1_v50, e1_v52, e1_v53, e1_v74, e1_arg2⟩ := stage1 (launchContents mK c) (launchContents mR c) h0.symm h1.symm h2.symm
  obtain ⟨e2_v42, e2_v45, e2_v48, e2_v50, e2_v52, e2_v53, e2_v74, e2_v95, e2_arg2⟩ := stage2 _ _ e1_v42 e1_v45 e1_v48 e1_v50 e1_v52 e1_v53 e1_v74 e1_arg2
  obtain ⟨e3_v42, e3_v48, e3_v50, e3_v53, e3_v74, e3_v95, e3_v116, e3_arg2⟩ := stage3 _ _ e2_v42 e2_v45 e2_v48 e2_v50 e2_v52 e2_v53 e2_v74 e2_v95 e2_arg2
  obtain ⟨e4_v42, e4_v74, e4_v95, e4_v116, e4_v137, e4_arg2⟩ := stage4 _ _ e3_v42 e3_v48 e3_v50 e3_v53 e3_v74 e3_v95 e3_v116 e3_arg2
  exact stage5 _ _ e4_v42 e4_v74 e4_v95 e4_v116 e4_v137 e4_arg2

end Cert.Prefix

end
-- ==== Proof.LibAfterL.lean ====
import Idealize.ShloMosaic.Lib.StableHlo.RunLoop

/-!
# The fold of a list of stretches over `++`

`StableHlo.afterL items V` runs the stretches of `items` one after the other from the contents `V`. Running a
concatenation is running its first part and then its second from what the first leaves.
-/

namespace Cert.LibAfterL

open Idealize.ShloMosaic Idealize.ShloMosaic.StableHlo

variable {τ : Topo} {sig : RefSig} {F : FTy → Type}

/-- The stretches of `l₁ ++ l₂` from `V`: those of `l₂` from what those of `l₁` leave. -/
theorem afterL_append (l₁ l₂ : List (List (HloOp τ sig (Elt F)))) (V : Valuation τ sig (Elt F)) :
    afterL (l₁ ++ l₂) V = afterL l₂ (afterL l₁ V) := by
  induction l₁ generalizing V with
  | nil => rfl
  | cons a l ih => simp only [List.cons_append, afterL_cons, ih]

end Cert.LibAfterL
-- ==== Proof.KHost.lean ====
import proofs.«115476_j5961414607249_1_alg».proof.Proof.Gen.KernelIdeal.Frame
import proofs.«115476_j5961414607249_1_alg».proof.Proof.Prefix
import proofs.«115476_j5961414607249_1_alg».proof.Proof.LibAfterL

/-!
# What the kernel region finds in its three operand arrays

The host operations before the kernel region end in six re-layouts: the column matrix `main_v162`
[1, 2304, 25088] is reshaped to [2304, 25088] and narrowed to bf16; the weight [256, 256, 3, 3] is reshaped to
[1, 256, 2304], then to [256, 2304], and narrowed; the bias [256] is reshaped to the column [256, 1]. Here the
contents the region finds are read off those last operations, over the launch contents of the weight and the bias and
over whatever the operations before left in `main_v162`; and the region-entry contents are written as the five
stages of the host prefix run one after the other.
-/

set_option maxRecDepth 16384

noncomputable section

namespace Cert.KernelIdeal.HostVal

open Cert.KernelIdeal Cert.KernelIdeal.Gen Cert.Prefix
open Idealize.ShloMosaic Idealize.ShloMosaic.TcCoe Idealize.SL.Sem Idealize.ShloMosaic.StableHlo

variable {F : FTy → Type} [FloatOps F]
variable (m : (ℓ : Loc nD τ sig) → Buf (Elt F) ℓ)

/-- The host operations before the region, stretch by stretch. -/
abbrev kItems : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

theorem kItems_eq : kItems (F := F) = kStage1 ++ kStage2 ++ kStage3 ++ kStage4 ++ kStage5 := rfl

/-- The contents the region finds are the five stages' fold over the launch contents. -/
theorem V_stages (c : Dev nD) (b : Ref sig .tc) :
    V m c b = afterL kStage5 (afterL kStage4 (afterL kStage3 (afterL kStage2 (afterL kStage1 (launchContents m c)))))
      (Proc.devRef .tc b) := by
  show StableHlo.after (List.flatten kItems) (launchContents m c) (Proc.devRef .tc b) = _
  rw [← afterL_eq_after_flatten, kItems_eq]
  simp only [Cert.LibAfterL.afterL_append]

/-- The column operand: the column matrix reshaped to [2304, 25088] and narrowed. -/
theorem V_cols (c : Dev nD) :
    V m c main_v167
      = truncf .bf16 (shapeCast S2304x25088 (V m c main_v162) shapeCasts_S1x2304x25088_S2304x25088) bitsLt_bf16_f32 := by
  rw [V_stages, V_stages]
  generalize afterL kStage4 (afterL kStage3 (afterL kStage2 (afterL kStage1 (launchContents m c)))) = W
  simp only [afterL_cons, afterL_nil]
  after_results_simp <;> rfl

/-- The weight operand: the launched weight reshaped twice and narrowed. -/
theorem V_weight (c : Dev nD) :
    V m c main_v166
      = truncf .bf16 (shapeCast S256x2304 (shapeCast S1x256x2304 (m ((c : Thread nD τ).loc main_arg3)) shapeCasts_S256x256x3x3_S1x256x2304)
          shapeCasts_S1x256x2304_S256x2304) bitsLt_bf16_f32 := by
  rw [← V_main_arg3 m c, V_stages, V_stages]
  generalize afterL kStage4 (afterL kStage3 (afterL kStage2 (afterL kStage1 (launchContents m c)))) = W
  simp only [afterL_cons, afterL_nil]
  after_results_simp <;> rfl

/-- The bias operand: the launched bias as a column. -/
theorem V_bias (c : Dev nD) :
    V m c main_v168 = shapeCast S256x1 (m ((c : Thread nD τ).loc main_arg4)) shapeCasts_S256_S256x1 := by
  rw [← V_main_arg4 m c, V_stages, V_stages]
  generalize afterL kStage4 (afterL kStage3 (afterL kStage2 (afterL kStage1 (launchContents m c)))) = W
  simp only [afterL_cons, afterL_nil]
  after_results_simp <;> rfl

end Cert.KernelIdeal.HostVal

end
-- ==== Proof.RefHost.lean ====
import proofs.«115476_j5961414607249_1_alg».proof.Proof.RefRun
import Idealize.ShloMosaic.Lib.StableHlo.RunLoop

/-!
# The reference's host program as one straight line

The reference's `@main` is 354 array operations and nothing else. Cut into 35 consecutive items, it is the
chain of the items' straight lines, and a chain of straight lines is the straight line of the concatenation. So
every weakly fair execution terminates, and it leaves in each buffer the fold of the operations' results over the
contents the launch found there.
-/

set_option maxRecDepth 8192

noncomputable section

namespace Cert.ReferenceIdeal.Host

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- The 35 items of `@main`, in program order. -/
abbrev items : List (List (HloOp τ sig (Elt F))) :=
  [w0_0, w1_0, w1_1, w1_2, w1_3, w1_4, w1_5, w1_6, w1_7, w1_8, w1_9, w1_10, w1_11, w1_12, w1_13, w2_0, w2_1, w2_2, w2_3, w2_4, w2_5, w2_6, w2_7, w2_8, w2_9, w2_10, w2_11, w2_12, w2_13, w2_14, w3_0, w3_1, w3_2, w3_3, w3_4]

/-- A chain of straight lines is the straight line of their concatenation: induction on the list of lines, one
    `seq_append` a step. -/
theorem chain_seq {Λ : Labels} : ∀ l : List (List (HloOp τ sig (Elt F))),
    Pipeline.chain (l.map fun o => (StableHlo.seq o : Prog (TpuEff nD τ sig (Elt F) Λ .tc) PUnit)) = StableHlo.seq l.flatten
  | [] => rfl
  | o :: l => by rw [List.map_cons, Pipeline.chain_cons, chain_seq l, List.flatten_cons, StableHlo.seq_append]

/-- `@main` is the straight line of all its operations. -/
theorem main_eq (c : Dev nD) : main (F := F) c = StableHlo.seq (items (F := F)).flatten :=
  (main_chain c).trans (chain_seq items)

/-- Every operation touches TensorCore references only and allocates nothing, item by item. -/
theorem plain : Plain (items (F := F)) :=
  Plain.cons w0_0_sub <|
  Plain.cons w1_0_sub <|
  Plain.cons w1_1_sub <|
  Plain.cons w1_2_sub <|
  Plain.cons w1_3_sub <|
  Plain.cons w1_4_sub <|
  Plain.cons w1_5_sub <|
  Plain.cons w1_6_sub <|
  Plain.cons w1_7_sub <|
  Plain.cons w1_8_sub <|
  Plain.cons w1_9_sub <|
  Plain.cons w1_10_sub <|
  Plain.cons w1_11_sub <|
  Plain.cons w1_12_sub <|
  Plain.cons w1_13_sub <|
  Plain.cons w2_0_sub <|
  Plain.cons w2_1_sub <|
  Plain.cons w2_2_sub <|
  Plain.cons w2_3_sub <|
  Plain.cons w2_4_sub <|
  Plain.cons w2_5_sub <|
  Plain.cons w2_6_sub <|
  Plain.cons w2_7_sub <|
  Plain.cons w2_8_sub <|
  Plain.cons w2_9_sub <|
  Plain.cons w2_10_sub <|
  Plain.cons w2_11_sub <|
  Plain.cons w2_12_sub <|
  Plain.cons w2_13_sub <|
  Plain.cons w2_14_sub <|
  Plain.cons w3_0_sub <|
  Plain.cons w3_1_sub <|
  Plain.cons w3_2_sub <|
  Plain.cons w3_3_sub <|
  Plain.cons w3_4_sub <|
  Plain.nil

theorem ops_sub : ((items (F := F)).flatten).Forall fun op => op.bufs ⊆ tcRefs τ sig :=
  List.forall_iff_forall_mem.mpr fun op hop => by
    obtain ⟨l, hl, hop⟩ := List.mem_flatten.mp hop
    exact (plain l hl).1 op hop

theorem ops_fresh : ∀ op ∈ (items (F := F)).flatten, op.fresh = ∅ := fun op hop => by
  obtain ⟨l, hl, hop⟩ := List.mem_flatten.mp hop
  exact (plain l hl).2 op hop

/-- From any memory with zero counters every weakly fair execution of `@main` terminates, each buffer of each core
    ending at the fold of the items over what the launch found on that core. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = afterL items (launchContents m d) (Proc.devRef .tc b) :=
  (θ_run defs _ _).mono (fun _ h d b => (h d b).trans (by rw [afterL_eq_after_flatten]))
    (run_seq scopedRefs_eq scopedSems_eq defs main (fun _ => (items (F := F)).flatten) main_eq (fun _ => ops_sub) m ρ (fun _ => ops_fresh))

end Cert.ReferenceIdeal.Host

end
-- ==== Proof.RefValue.lean ====
import proofs.«115476_j5961414607249_1_alg».proof.Proof.RefHost
import proofs.«115476_j5961414607249_1_alg».proof.Proof.LibAfterL

/-!
# What the reference leaves: its arguments, and its result over its own column matrix

No operation of the reference writes an argument array, so each ends as launched. Its result is read off the last
item alone: the transpose of (the batched product of the reshaped weight with the column matrix, reshaped to
[256, 8, 56, 56], plus the bias broadcast along the channel axis), where the column matrix is whatever the 347
operations before left in its buffer; that matrix is kept as one name.
-/

set_option maxRecDepth 8192

noncomputable section

namespace Cert.ReferenceIdeal.Host

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## The arguments are never written -/

theorem keep_arg0 (c : Dev nD) :
    afterL items (launchContents m c) (Proc.devRef .tc main_arg0) = m ((c.tc : Thread nD τ).loc main_arg0) := by
  rw [afterL_eq_after_flatten]
  exact StableHlo.after_of_forall_not_mem (b := Proc.devRef .tc main_arg0) _ _ (List.forall_iff_forall_mem.mp (by
    simp only [items, w0_0, w1_0, w1_1, w1_2, w1_3, w1_4, w1_5, w1_6, w1_7, w1_8, w1_9, w1_10, w1_11, w1_12, w1_13, w2_0, w2_1, w2_2, w2_3, w2_4, w2_5, w2_6, w2_7, w2_8, w2_9, w2_10, w2_11, w2_12, w2_13, w2_14, w3_0, w3_1, w3_2, w3_3, w3_4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))

theorem keep_arg1 (c : Dev nD) :
    afterL items (launchContents m c) (Proc.devRef .tc main_arg1) = m ((c.tc : Thread nD τ).loc main_arg1) := by
  rw [afterL_eq_after_flatten]
  exact StableHlo.after_of_forall_not_mem (b := Proc.devRef .tc main_arg1) _ _ (List.forall_iff_forall_mem.mp (by
    simp only [items, w0_0, w1_0, w1_1, w1_2, w1_3, w1_4, w1_5, w1_6, w1_7, w1_8, w1_9, w1_10, w1_11, w1_12, w1_13, w2_0, w2_1, w2_2, w2_3, w2_4, w2_5, w2_6, w2_7, w2_8, w2_9, w2_10, w2_11, w2_12, w2_13, w2_14, w3_0, w3_1, w3_2, w3_3, w3_4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))

theorem keep_arg2 (c : Dev nD) :
    afterL items (launchContents m c) (Proc.devRef .tc main_arg2) = m ((c.tc : Thread nD τ).loc main_arg2) := by
  rw [afterL_eq_after_flatten]
  exact StableHlo.after_of_forall_not_mem (b := Proc.devRef .tc main_arg2) _ _ (List.forall_iff_forall_mem.mp (by
    simp only [items, w0_0, w1_0, w1_1, w1_2, w1_3, w1_4, w1_5, w1_6, w1_7, w1_8, w1_9, w1_10, w1_11, w1_12, w1_13, w2_0, w2_1, w2_2, w2_3, w2_4, w2_5, w2_6, w2_7, w2_8, w2_9, w2_10, w2_11, w2_12, w2_13, w2_14, w3_0, w3_1, w3_2, w3_3, w3_4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))

theorem keep_arg3 (c : Dev nD) :
    afterL items (launchContents m c) (Proc.devRef .tc main_arg3) = m ((c.tc : Thread nD τ).loc main_arg3) := by
  rw [afterL_eq_after_flatten]
  exact StableHlo.after_of_forall_not_mem (b := Proc.devRef .tc main_arg3) _ _ (List.forall_iff_forall_mem.mp (by
    simp only [items, w0_0, w1_0, w1_1, w1_2, w1_3, w1_4, w1_5, w1_6, w1_7, w1_8, w1_9, w1_10, w1_11, w1_12, w1_13, w2_0, w2_1, w2_2, w2_3, w2_4, w2_5, w2_6, w2_7, w2_8, w2_9, w2_10, w2_11, w2_12, w2_13, w2_14, w3_0, w3_1, w3_2, w3_3, w3_4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))

theorem keep_arg4 (c : Dev nD) :
    afterL items (launchContents m c) (Proc.devRef .tc main_arg4) = m ((c.tc : Thread nD τ).loc main_arg4) := by
  rw [afterL_eq_after_flatten]
  exact StableHlo.after_of_forall_not_mem (b := Proc.devRef .tc main_arg4) _ _ (List.forall_iff_forall_mem.mp (by
    simp only [items, w0_0, w1_0, w1_1, w1_2, w1_3, w1_4, w1_5, w1_6, w1_7, w1_8, w1_9, w1_10, w1_11, w1_12, w1_13, w2_0, w2_1, w2_2, w2_3, w2_4, w2_5, w2_6, w2_7, w2_8, w2_9, w2_10, w2_11, w2_12, w2_13, w2_14, w3_0, w3_1, w3_2, w3_3, w3_4, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))

/-! ## The result over the column matrix -/

/-- Every item but the last. -/
abbrev pre : List (List (HloOp τ sig (Elt F))) :=
  [w0_0, w1_0, w1_1, w1_2, w1_3, w1_4, w1_5, w1_6, w1_7, w1_8, w1_9, w1_10, w1_11, w1_12, w1_13, w2_0, w2_1, w2_2, w2_3, w2_4, w2_5, w2_6, w2_7, w2_8, w2_9, w2_10, w2_11, w2_12, w2_13, w2_14, w3_0, w3_1, w3_2, w3_3]

theorem items_eq : items (F := F) = pre ++ [w3_4] := rfl

/-- The reference's column matrix: the contents of its buffer `main_v162` when `@main` ends. -/
def cols (c : Dev nD) : (⟨S1x2304x25088, .f32⟩ : BufTy).Contents (Elt F) :=
  afterL items (launchContents m c) (Proc.devRef .tc main_v162)

/-- The result buffer over the weight, the bias and the column matrix: the last item's seven closing operations,
    read back. -/
theorem result_eq (c : Dev nD) :
    afterL items (launchContents m c) (Proc.devRef .tc main_v169)
      = transpose S8x256x56x56 [1, 0, 2, 3]
          (addf
            (shapeCast S256x8x56x56
              (Host.dotGeneral dot_S1x256x2304_S1x2304x25088_S1x256x25088_2_1_1_2_0_0 none
                (shapeCast S1x256x2304 (m ((c.tc : Thread nD τ).loc main_arg3)) shapeCasts_S256x256x3x3_S1x256x2304)
                (cols m c))
              shapeCasts_S1x256x25088_S256x8x56x56)
            (broadcastInDim S256x8x56x56 ![0, 1, 2, 3] bcast_S256x1x1x1_S256x8x56x56_0_1_2_3
              (broadcastInDim S256x1x1x1 ![0] bcast_S256_S256x1x1x1_0 (m ((c.tc : Thread nD τ).loc main_arg4)))))
          transposes_S256x8x56x56_S8x256x56x56_1_0_2_3 := by
  have h3 := keep_arg3 m c
  have h4 := keep_arg4 m c
  unfold cols
  rw [items_eq, Cert.LibAfterL.afterL_append] at h3 h4 ⊢
  generalize afterL pre (launchContents m c) = W at h3 h4 ⊢
  rw [← h3, ← h4]
  simp only [afterL_cons, afterL_nil]
  after_results_simp
  rfl

end Cert.ReferenceIdeal.Host

end
-- ==== Proof.Bridge.lean ====
import proofs.«115476_j5961414607249_1_alg».proof.ReferenceIdeal
import proofs.«115476_j5961414607249_1_alg».proof.Proof.Gen.ReferenceIdeal
import proofs.«115476_j5961414607249_1_alg».proof.Proof.Spec
import Idealize.ShloMosaic.PureOps.Ideal.Laws
import Idealize.ShloMosaic.Lib.ValueIdx
import Idealize.ShloMosaic.Lib.Pipeline.Value
import Idealize.ShloMosaic.Lib.ValueLayout

/-!
# The matrix product with a bias column against the batched product with a broadcast bias

Two descriptions of the last step of the convolution, at the extended reals, over the same three arrays: the weight
\`W\` of shape [256, 256, 3, 3], the bias \`b\` of shape [256] and the matrix of sampled columns \`P\` of shape
[1, 2304, 25088].

* One flattens \`W\` to [256, 2304] and \`P\` to [2304, 25088], takes the matrix product with the bias as a column,
  and reads the [256, 25088] result as [256, 8, 56, 56].
* The other takes the batched product of \`W\` as [1, 256, 2304] with \`P\`, reads the [1, 256, 25088] result as
  [256, 8, 56, 56], and adds the bias broadcast along the three trailing axes.

At the entry (o, bb, h, w) both are the sum over the 2304 contracted positions k of W[0, o, k] · P[0, k, n] plus
b[o], where n = (bb · 56 + h) · 56 + w is the row-major position of (bb, h, w) in [8, 56, 56]. A change of format is
the identity on the extended reals, and every reshape keeps the row-major position. The two results are then the same
transposition of equal arrays.
-/

noncomputable section

namespace Cert.Bridge

open Cert.ReferenceIdeal Cert.ReferenceIdeal.Gen Idealize.ShloMosaic Idealize.ShloMosaic.ValueIdx

/-- The row-major position of (bb, h, w) in [8, 56, 56]. -/
def nOf (bb : Fin 8) (h w : Fin 56) : Fin 25088 :=
  ⟨(bb.val * 56 + h.val) * 56 + w.val, by have := bb.isLt; have := h.isLt; have := w.isLt; omega⟩

/-- The entry both sides reduce to: the contraction over the 2304 positions plus the bias of the row. -/
def entry (L : FVec Ideal ⟨3, ![1, 256, 2304]⟩ .f32) (P : FVec Ideal ⟨3, ![1, 2304, 25088]⟩ .f32)
    (b : FVec Ideal ⟨1, ![256]⟩ .f32) (o : Fin 256) (n : Fin 25088) : EReal :=
  (∑ k : Fin 2304, L (ix3 (0 : Fin 1) o k) * P (ix3 (0 : Fin 1) k n)) + b (ix1 o)

/-! ## The matrix product's side -/

/-- The [256, 25088] product read as [256, 8, 56, 56]: entry (o, bb, h, w) is entry (o, n) of the product, the two
    indices having the same row-major position. -/
theorem left_reshape (A : FVec Ideal ⟨2, ![256, 2304]⟩ .bf16) (B : FVec Ideal ⟨2, ![2304, 25088]⟩ .bf16)
    (c : FVec Ideal ⟨2, ![256, 1]⟩ .f32)
    (hO : (⟨2, ![256, 25088]⟩ : Shape).ShapeCasts ⟨4, ![256, 8, 56, 56]⟩)
    (o : Fin 256) (bb : Fin 8) (h w : Fin 56) :
    shapeCast ⟨4, ![256, 8, 56, 56]⟩ (Cert.Spec.gemmBias A B c) hO (ix4 o bb h w)
      = Cert.Spec.gemmAt A B c o (nOf bb h w) := by
  rw [shapeCast_apply (Cert.Spec.gemmBias A B c) hO (ix4 o bb h w) (ix2 o (nOf bb h w)) (by
    rw [Shape.rowMajor_val_two, Shape.rowMajor_val_four]
    show o.val * 25088 + ((bb.val * 56 + h.val) * 56 + w.val) = ((o.val * 8 + bb.val) * 56 + h.val) * 56 + w.val
    omega)]
  exact Cert.Spec.gemmBias_apply A B c o (nOf bb h w)

/-- The product's entry over the flattened operands: a change of format is the identity, a [1, a, b] array read as
    [a, b] at (i, j) is the array at (0, i, j), and the bias column at (o, 0) is the bias at o. -/
theorem left_entry (L : FVec Ideal ⟨3, ![1, 256, 2304]⟩ .f32) (P : FVec Ideal ⟨3, ![1, 2304, 25088]⟩ .f32)
    (b : FVec Ideal ⟨1, ![256]⟩ .f32)
    (hW2 : (⟨3, ![1, 256, 2304]⟩ : Shape).ShapeCasts ⟨2, ![256, 2304]⟩)
    (hP : (⟨3, ![1, 2304, 25088]⟩ : Shape).ShapeCasts ⟨2, ![2304, 25088]⟩)
    (hb : (⟨1, ![256]⟩ : Shape).ShapeCasts ⟨2, ![256, 1]⟩)
    (hlt : FTy.bits .bf16 < FTy.bits .f32)
    (o : Fin 256) (n : Fin 25088) :
    Cert.Spec.gemmAt
        (truncf (F := Ideal) .bf16 (shapeCast ⟨2, ![256, 2304]⟩ L hW2) hlt)
        (truncf (F := Ideal) .bf16 (shapeCast ⟨2, ![2304, 25088]⟩ P hP) hlt)
        (shapeCast ⟨2, ![256, 1]⟩ b hb) o n
      = entry L P b o n := by
  unfold Cert.Spec.gemmAt entry
  rw [shapeCast_apply b hb (ix2 o (0 : Fin 1)) (ix1 o) (by
    rw [Shape.rowMajor_val_one, Shape.rowMajor_val_two]
    show o.val = o.val * 1 + 0
    omega)]
  congr 1
  refine Finset.sum_congr rfl fun k _ => ?_
  rw [truncf_apply, truncf_apply, shapeCast_1ab_ab_apply, shapeCast_1ab_ab_apply]

/-! ## The batched product's side -/

/-- The left operand's index on its batch axis is the result's batch coordinate. -/
theorem lhs_axis0 (i : S1x256x25088.Idx) (q : dot_S1x256x2304_S1x2304x25088_S1x256x25088_2_1_1_2_0_0.contr.Idx) :
    (dot_S1x256x2304_S1x2304x25088_S1x256x25088_2_1_1_2_0_0.lhsIdx i q 0).val = (i 0).val := by
  unfold DotDims.lhsIdx
  rw [dif_pos (show (0 : Fin S1x256x2304.rank) ∈ dot_S1x256x2304_S1x2304x25088_S1x256x25088_2_1_1_2_0_0.lhsBatch by decide)]
  rfl

/-- The left operand's index on its row axis is the result's row coordinate. -/
theorem lhs_axis1 (i : S1x256x25088.Idx) (q : dot_S1x256x2304_S1x2304x25088_S1x256x25088_2_1_1_2_0_0.contr.Idx) :
    (dot_S1x256x2304_S1x2304x25088_S1x256x25088_2_1_1_2_0_0.lhsIdx i q 1).val = (i 1).val := by
  unfold DotDims.lhsIdx
  rw [dif_neg (show ¬(1 : Fin S1x256x2304.rank) ∈ dot_S1x256x2304_S1x2304x25088_S1x256x25088_2_1_1_2_0_0.lhsBatch by decide),
    dif_pos (show (1 : Fin S1x256x2304.rank) ∈ dot_S1x256x2304_S1x2304x25088_S1x256x25088_2_1_1_2_0_0.lhsNonContracting by decide)]
  rfl

/-- The left operand's index on its contracted axis is the contraction position. -/
theorem lhs_axis2 (i : S1x256x25088.Idx) (q : dot_S1x256x2304_S1x2304x25088_S1x256x25088_2_1_1_2_0_0.contr.Idx) :
    (dot_S1x256x2304_S1x2304x25088_S1x256x25088_2_1_1_2_0_0.lhsIdx i q 2).val = (q ⟨0, by decide⟩).val :=
  dot_S1x256x2304_S1x2304x25088_S1x256x25088_2_1_1_2_0_0.lhsIdx_val_of_single rfl i q

/-- The right operand's index on its batch axis is the result's batch coordinate. -/
theorem rhs_axis0 (i : S1x256x25088.Idx) (q : dot_S1x256x2304_S1x2304x25088_S1x256x25088_2_1_1_2_0_0.contr.Idx) :
    (dot_S1x256x2304_S1x2304x25088_S1x256x25088_2_1_1_2_0_0.rhsIdx i q 0).val = (i 0).val := by
  unfold DotDims.rhsIdx
  rw [dif_pos (show (0 : Fin S1x2304x25088.rank) ∈ dot_S1x256x2304_S1x2304x25088_S1x256x25088_2_1_1_2_0_0.rhsBatch by decide)]
  rfl

/-- The right operand's index on its contracted axis is the contraction position. -/
theorem rhs_axis1 (i : S1x256x25088.Idx) (q : dot_S1x256x2304_S1x2304x25088_S1x256x25088_2_1_1_2_0_0.contr.Idx) :
    (dot_S1x256x2304_S1x2304x25088_S1x256x25088_2_1_1_2_0_0.rhsIdx i q 1).val = (q ⟨0, by decide⟩).val :=
  dot_S1x256x2304_S1x2304x25088_S1x256x25088_2_1_1_2_0_0.rhsIdx_val_of_single rfl i q

/-- The right operand's index on its column axis is the result's column coordinate. -/
theorem rhs_axis2 (i : S1x256x25088.Idx) (q : dot_S1x256x2304_S1x2304x25088_S1x256x25088_2_1_1_2_0_0.contr.Idx) :
    (dot_S1x256x2304_S1x2304x25088_S1x256x25088_2_1_1_2_0_0.rhsIdx i q 2).val = (i 2).val := by
  unfold DotDims.rhsIdx
  rw [dif_neg (show ¬(2 : Fin S1x2304x25088.rank) ∈ dot_S1x256x2304_S1x2304x25088_S1x256x25088_2_1_1_2_0_0.rhsBatch by decide),
    dif_pos (show (2 : Fin S1x2304x25088.rank) ∈ dot_S1x256x2304_S1x2304x25088_S1x256x25088_2_1_1_2_0_0.rhsNonContracting by decide)]
  rfl

/-- The batched product at (0, o, n): the sum over the contracted position k of the left operand at (0, o, k) times
    the right operand at (0, k, n). The contraction index has one axis, of extent 2304: the sum over it is the sum
    over that coordinate. -/
theorem dot_at (L : FVec Ideal S1x256x2304 .f32) (P : FVec Ideal S1x2304x25088 .f32) (o : Fin 256) (n : Fin 25088) :
    Host.dotGeneral (F := Ideal) dot_S1x256x2304_S1x2304x25088_S1x256x25088_2_1_1_2_0_0 none L P (ix3 (0 : Fin 1) o n)
      = ∑ k : Fin 2304, L (ix3 (0 : Fin 1) o k) * P (ix3 (0 : Fin 1) k n) := by
  simp only [Host.dotGeneral]
  rw [Ideal.dotGeneral_apply, ← Equiv.sum_comp (ValueIdx.contrEquiv1 dot_S1x256x2304_S1x2304x25088_S1x256x25088_2_1_1_2_0_0 2304 rfl rfl).symm]
  refine Finset.sum_congr rfl fun k _ => ?_
  have hk := ValueIdx.contrEquiv1_symm_val dot_S1x256x2304_S1x2304x25088_S1x256x25088_2_1_1_2_0_0 2304 rfl rfl k
  have el : dot_S1x256x2304_S1x2304x25088_S1x256x25088_2_1_1_2_0_0.lhsIdx (ix3 (0 : Fin 1) o n)
      ((ValueIdx.contrEquiv1 dot_S1x256x2304_S1x2304x25088_S1x256x25088_2_1_1_2_0_0 2304 rfl rfl).symm k)
      = ix3 (0 : Fin 1) o k := funext fun a => Fin.ext (by
    match a with
    | ⟨0, _⟩ => exact lhs_axis0 _ _
    | ⟨1, _⟩ => exact lhs_axis1 _ _
    | ⟨2, _⟩ => exact (lhs_axis2 _ _).trans hk)
  have er : dot_S1x256x2304_S1x2304x25088_S1x256x25088_2_1_1_2_0_0.rhsIdx (ix3 (0 : Fin 1) o n)
      ((ValueIdx.contrEquiv1 dot_S1x256x2304_S1x2304x25088_S1x256x25088_2_1_1_2_0_0 2304 rfl rfl).symm k)
      = ix3 (0 : Fin 1) k n := funext fun a => Fin.ext (by
    match a with
    | ⟨0, _⟩ => exact rhs_axis0 _ _
    | ⟨1, _⟩ => exact (rhs_axis1 _ _).trans hk
    | ⟨2, _⟩ => exact rhs_axis2 _ _)
  rw [el, er]

/-- A [1, 256, 25088] array read as [256, 8, 56, 56]: entry (o, bb, h, w) is entry (0, o, n), the two indices having
    the same row-major position. -/
theorem right_reshape (X : FVec Ideal S1x256x25088 .f32)
    (hD : S1x256x25088.ShapeCasts S256x8x56x56) (o : Fin 256) (bb : Fin 8) (h w : Fin 56) :
    shapeCast S256x8x56x56 X hD (ix4 o bb h w) = X (ix3 (0 : Fin 1) o (nOf bb h w)) :=
  shapeCast_apply X hD (ix4 o bb h w) (ix3 (0 : Fin 1) o (nOf bb h w)) (by
    rw [Shape.rowMajor_val_three, Shape.rowMajor_val_four]
    show (0 * 256 + o.val) * 25088 + ((bb.val * 56 + h.val) * 56 + w.val)
      = ((o.val * 8 + bb.val) * 56 + h.val) * 56 + w.val
    omega)

/-- The bias broadcast to [256, 1, 1, 1] and then along the three trailing axes reads, at (o, bb, h, w), the bias
    at o. -/
theorem bias_at (b : FVec Ideal S256 .f32)
    (hb1 : S256.BroadcastsInDim S256x1x1x1 (![0] : Fin 1 → Fin S256x1x1x1.rank))
    (hb2 : S256x1x1x1.BroadcastsInDim S256x8x56x56 (![0, 1, 2, 3] : Fin 4 → Fin S256x8x56x56.rank))
    (o : Fin 256) (bb : Fin 8) (h w : Fin 56) :
    broadcastInDim S256x8x56x56 ![0, 1, 2, 3] hb2 (broadcastInDim S256x1x1x1 ![0] hb1 b) (ix4 o bb h w) = b (ix1 o) := by
  rw [broadcastInDim_apply _ hb2 _ (ix4 o bb h w) (ix4 o (0 : Fin 1) (0 : Fin 1) (0 : Fin 1)) (fun a => by
    match a with
    | ⟨0, _⟩ => rfl
    | ⟨1, _⟩ => rfl
    | ⟨2, _⟩ => rfl
    | ⟨3, _⟩ => rfl)]
  exact broadcastInDim_apply _ hb1 b (ix4 o (0 : Fin 1) (0 : Fin 1) (0 : Fin 1)) (ix1 o) (fun a => by
    match a with
    | ⟨0, _⟩ => rfl)

/-- The batched product's side at (o, bb, h, w). -/
theorem right_entry (L : FVec Ideal S1x256x2304 .f32) (P : FVec Ideal S1x2304x25088 .f32) (b : FVec Ideal S256 .f32)
    (hD : S1x256x25088.ShapeCasts S256x8x56x56)
    (hb1 : S256.BroadcastsInDim S256x1x1x1 (![0] : Fin 1 → Fin S256x1x1x1.rank))
    (hb2 : S256x1x1x1.BroadcastsInDim S256x8x56x56 (![0, 1, 2, 3] : Fin 4 → Fin S256x8x56x56.rank))
    (o : Fin 256) (bb : Fin 8) (h w : Fin 56) :
    addf (shapeCast S256x8x56x56
            (Host.dotGeneral (F := Ideal) dot_S1x256x2304_S1x2304x25088_S1x256x25088_2_1_1_2_0_0 none L P) hD)
          (broadcastInDim S256x8x56x56 ![0, 1, 2, 3] hb2 (broadcastInDim S256x1x1x1 ![0] hb1 b)) (ix4 o bb h w)
      = entry L P b o (nOf bb h w) := by
  rw [addf_apply, right_reshape, dot_at, bias_at]
  rfl

/-! ## The two results -/

/-- The two [256, 8, 56, 56] arrays are equal: entry by entry both are the contraction plus the bias. -/
theorem array_eq (W : FVec Ideal ⟨4, ![256, 256, 3, 3]⟩ .f32) (b : FVec Ideal ⟨1, ![256]⟩ .f32)
    (P : FVec Ideal ⟨3, ![1, 2304, 25088]⟩ .f32)
    (hW1 : (⟨4, ![256, 256, 3, 3]⟩ : Shape).ShapeCasts ⟨3, ![1, 256, 2304]⟩)
    (hW2 : (⟨3, ![1, 256, 2304]⟩ : Shape).ShapeCasts ⟨2, ![256, 2304]⟩)
    (hP : (⟨3, ![1, 2304, 25088]⟩ : Shape).ShapeCasts ⟨2, ![2304, 25088]⟩)
    (hb : (⟨1, ![256]⟩ : Shape).ShapeCasts ⟨2, ![256, 1]⟩)
    (hO : (⟨2, ![256, 25088]⟩ : Shape).ShapeCasts ⟨4, ![256, 8, 56, 56]⟩)
    (hlt : FTy.bits .bf16 < FTy.bits .f32)
    (hW1' : (⟨4, ![256, 256, 3, 3]⟩ : Shape).ShapeCasts ⟨3, ![1, 256, 2304]⟩)
    (hD : (⟨3, ![1, 256, 25088]⟩ : Shape).ShapeCasts ⟨4, ![256, 8, 56, 56]⟩)
    (hb1 : (⟨1, ![256]⟩ : Shape).BroadcastsInDim ⟨4, ![256, 1, 1, 1]⟩ (![0] : Fin 1 → Fin 4))
    (hb2 : (⟨4, ![256, 1, 1, 1]⟩ : Shape).BroadcastsInDim ⟨4, ![256, 8, 56, 56]⟩ (![0, 1, 2, 3] : Fin 4 → Fin 4)) :
    shapeCast ⟨4, ![256, 8, 56, 56]⟩
        (Cert.Spec.gemmBias
          (truncf (F := Ideal) .bf16 (shapeCast ⟨2, ![256, 2304]⟩ (shapeCast ⟨3, ![1, 256, 2304]⟩ W hW1) hW2) hlt)
          (truncf (F := Ideal) .bf16 (shapeCast ⟨2, ![2304, 25088]⟩ P hP) hlt)
          (shapeCast ⟨2, ![256, 1]⟩ b hb)) hO
      = addf (shapeCast ⟨4, ![256, 8, 56, 56]⟩
                (Host.dotGeneral (F := Ideal) dot_S1x256x2304_S1x2304x25088_S1x256x25088_2_1_1_2_0_0 none
                  (shapeCast ⟨3, ![1, 256, 2304]⟩ W hW1') P) hD)
              (broadcastInDim ⟨4, ![256, 8, 56, 56]⟩ ![0, 1, 2, 3] hb2
                (broadcastInDim ⟨4, ![256, 1, 1, 1]⟩ ![0] hb1 b)) := by
  funext j
  obtain ⟨o, bb, h, w, rfl⟩ : ∃ (o : Fin 256) (bb : Fin 8) (h w : Fin 56), j = ix4 o bb h w :=
    ⟨j 0, j 1, j 2, j 3, eq_ix4 j⟩
  exact (left_reshape _ _ _ hO o bb h w).trans
    ((left_entry (shapeCast ⟨3, ![1, 256, 2304]⟩ W hW1) P b hW2 hP hb hlt o (nOf bb h w)).trans
      (right_entry (shapeCast ⟨3, ![1, 256, 2304]⟩ W hW1') P b hD hb1 hb2 o bb h w).symm)

/-- The two results: the same transposition of equal arrays. -/
theorem result_eq (W : FVec Ideal ⟨4, ![256, 256, 3, 3]⟩ .f32) (b : FVec Ideal ⟨1, ![256]⟩ .f32)
    (P : FVec Ideal ⟨3, ![1, 2304, 25088]⟩ .f32)
    (hW1 : (⟨4, ![256, 256, 3, 3]⟩ : Shape).ShapeCasts ⟨3, ![1, 256, 2304]⟩)
    (hW2 : (⟨3, ![1, 256, 2304]⟩ : Shape).ShapeCasts ⟨2, ![256, 2304]⟩)
    (hP : (⟨3, ![1, 2304, 25088]⟩ : Shape).ShapeCasts ⟨2, ![2304, 25088]⟩)
    (hb : (⟨1, ![256]⟩ : Shape).ShapeCasts ⟨2, ![256, 1]⟩)
    (hO : (⟨2, ![256, 25088]⟩ : Shape).ShapeCasts ⟨4, ![256, 8, 56, 56]⟩)
    (hT : (⟨4, ![256, 8, 56, 56]⟩ : Shape).Transposes [1, 0, 2, 3] ⟨4, ![8, 256, 56, 56]⟩)
    (hlt : FTy.bits .bf16 < FTy.bits .f32)
    (hW1' : (⟨4, ![256, 256, 3, 3]⟩ : Shape).ShapeCasts ⟨3, ![1, 256, 2304]⟩)
    (hD : (⟨3, ![1, 256, 25088]⟩ : Shape).ShapeCasts ⟨4, ![256, 8, 56, 56]⟩)
    (hb1 : (⟨1, ![256]⟩ : Shape).BroadcastsInDim ⟨4, ![256, 1, 1, 1]⟩ (![0] : Fin 1 → Fin 4))
    (hb2 : (⟨4, ![256, 1, 1, 1]⟩ : Shape).BroadcastsInDim ⟨4, ![256, 8, 56, 56]⟩ (![0, 1, 2, 3] : Fin 4 → Fin 4))
    (hT' : (⟨4, ![256, 8, 56, 56]⟩ : Shape).Transposes [1, 0, 2, 3] ⟨4, ![8, 256, 56, 56]⟩) :
    transpose ⟨4, ![8, 256, 56, 56]⟩ [1, 0, 2, 3]
        (shapeCast ⟨4, ![256, 8, 56, 56]⟩
          (Cert.Spec.gemmBias
            (truncf (F := Ideal) .bf16 (shapeCast ⟨2, ![256, 2304]⟩ (shapeCast ⟨3, ![1, 256, 2304]⟩ W hW1) hW2) hlt)
            (truncf (F := Ideal) .bf16 (shapeCast ⟨2, ![2304, 25088]⟩ P hP) hlt)
            (shapeCast ⟨2, ![256, 1]⟩ b hb)) hO) hT
      = transpose ⟨4, ![8, 256, 56, 56]⟩ [1, 0, 2, 3]
          (addf (shapeCast ⟨4, ![256, 8, 56, 56]⟩
                  (Host.dotGeneral (F := Ideal) dot_S1x256x2304_S1x2304x25088_S1x256x25088_2_1_1_2_0_0 none
                    (shapeCast ⟨3, ![1, 256, 2304]⟩ W hW1') P) hD)
                (broadcastInDim ⟨4, ![256, 8, 56, 56]⟩ ![0, 1, 2, 3] hb2
                  (broadcastInDim ⟨4, ![256, 1, 1, 1]⟩ ![0] hb1 b))) hT' := by
  rw [array_eq W b P hW1 hW2 hP hb hO hlt hW1' hD hb1 hb2]

end Cert.Bridge

end
-- ==== Proof.lean ====
/-
  Deformable 2-d convolution, the kernel against its jnp reference, over the extended reals.

  Both programs first compute, by the same 347 array operations on `x`, `offset` and `mask`, the matrix of
  sampled columns `cols` [1, 2304, 25088]: the sampling coordinates `offset + base grid`, their floors and fractions,
  the four clamped corner gathers zeroed outside the image, the bilinear blend, the product with the mask, the
  re-layout. They differ only in the last step, `out[o, n] = Σ_k W[o, k] · cols[k, n] + bias[o]`:
   * the kernel narrows the reshaped weight [256, 2304] and the columns [2304, 25088] to bf16 (the identity on the
     extended reals), multiplies them tile by tile (14 column tiles of 1792) into a zero accumulator, adds the bias
     column inside the tile, and reshapes and transposes the [256, 25088] result on the host;
   * the reference takes one batched `dot_general` over a unit batch axis, reshapes, and adds the bias broadcast along
     the channel axis before the same transpose.
  At each entry both are the same sum over the 2304 contracted positions plus the same bias: no algebraic law beyond
  re-indexing is used, and finiteness of the inputs is not needed.

  The pieces: the kernel's frame run read block by block into the whole product (Proof/KPayload, KArray, KRun); the
  contents its region finds in its three operands (Proof/KHost); the reference's run as one straight line, its
  arguments unchanged, its result over its own column matrix (Proof/RefRun, RefHost, RefValue); the two column
  matrices equal, stage by stage, over any float family (Proof/Prefix); the entrywise equality of the two closing
  steps (Proof/Bridge, over Proof/Spec).
-/
import proofs.«115476_j5961414607249_1_alg».proof.Defs
import proofs.«115476_j5961414607249_1_alg».proof.Proof.Gen.Kernel
import proofs.«115476_j5961414607249_1_alg».proof.Proof.Gen.Kernel.Frame
import proofs.«115476_j5961414607249_1_alg».proof.Proof.Gen.KernelIdeal
import proofs.«115476_j5961414607249_1_alg».proof.Proof.Gen.KernelIdeal.Frame
import proofs.«115476_j5961414607249_1_alg».proof.Proof.Gen.ReferenceIdeal
import proofs.«115476_j5961414607249_1_alg».proof.Proof.Gen.Pre_finite_inputs
import proofs.«115476_j5961414607249_1_alg».proof.Proof.KRun
import proofs.«115476_j5961414607249_1_alg».proof.Proof.KHost
import proofs.«115476_j5961414607249_1_alg».proof.Proof.RefValue
import proofs.«115476_j5961414607249_1_alg».proof.Proof.Prefix
import proofs.«115476_j5961414607249_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-! ## The frames -/

theorem frame_k : Cert.frame_Kernel := fun m ρ _ => Cert.Kernel.Gen.frame m ρ

theorem frame_ki : Cert.frame_KernelIdeal := fun m ρ _ => Cert.KernelIdeal.Gen.frame m ρ

/-- The reference runs as one straight line of array operations, none of which writes an argument. -/
theorem frame_ri : Cert.frame_ReferenceIdeal := fun m ρ _ =>
  (θ_run Cert.ReferenceIdeal.defs _ _).mono
    (fun _ h c => ⟨(h c _).trans (Cert.ReferenceIdeal.Host.keep_arg0 m c),
      (h c _).trans (Cert.ReferenceIdeal.Host.keep_arg1 m c),
      (h c _).trans (Cert.ReferenceIdeal.Host.keep_arg2 m c),
      (h c _).trans (Cert.ReferenceIdeal.Host.keep_arg3 m c),
      (h c _).trans (Cert.ReferenceIdeal.Host.keep_arg4 m c)⟩)
    (Cert.ReferenceIdeal.Host.run (F := Ideal) m ρ)

/-! ## The two column matrices -/

/-- From memories that agree on `x`, `offset` and `mask`, the column matrix the kernel region's host prefix leaves in
    `main_v162` is the reference's: both are the five stages' fold of the same operations. -/
theorem cols_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Gen.V m c Cert.KernelIdeal.main_v162 = Cert.ReferenceIdeal.Host.cols m' c := by
  rw [Cert.KernelIdeal.HostVal.V_stages]
  unfold Cert.ReferenceIdeal.Host.cols
  rw [show Cert.ReferenceIdeal.Host.items (F := Ideal)
      = Cert.Prefix.rStage1 ++ Cert.Prefix.rStage2 ++ Cert.Prefix.rStage3 ++ Cert.Prefix.rStage4 ++ Cert.Prefix.rStage5 from rfl]
  simp only [Cert.LibAfterL.afterL_append]
  exact Cert.Prefix.cols_eq m m' c h0 h1 h2

/-! ## The value claim -/

/-- The kernel's result is the transposed, reshaped matrix product with bias of what its region finds; the reference's
    is the transposed sum of its batched product and the broadcast bias; the operands are the same weight, bias and
    column matrix, and entry by entry the two closing steps are one sum. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono
    (fun _ h c => ⟨(h c _).trans ?_,
      (h c _).trans (Cert.ReferenceIdeal.Host.keep_arg0 m' c),
      (h c _).trans (Cert.ReferenceIdeal.Host.keep_arg1 m' c),
      (h c _).trans (Cert.ReferenceIdeal.Host.keep_arg2 m' c),
      (h c _).trans (Cert.ReferenceIdeal.Host.keep_arg3 m' c),
      (h c _).trans (Cert.ReferenceIdeal.Host.keep_arg4 m' c)⟩)
    (Cert.ReferenceIdeal.Host.run (F := Ideal) m' ρ')
  obtain ⟨h0, h1, h2, h3, h4⟩ := hagree c
  rw [Cert.ReferenceIdeal.Host.result_eq m' c, h3, h4, ← cols_agree m m' c h0 h1 h2]
  simp only [Cert.KernelIdeal.Val.wArr, Cert.KernelIdeal.Val.colArr, Cert.KernelIdeal.Val.biasArr]
  rw [Cert.KernelIdeal.HostVal.V_weight m c, Cert.KernelIdeal.HostVal.V_cols m c, Cert.KernelIdeal.HostVal.V_bias m c]
  exact (Cert.Bridge.result_eq _ _ _ _ _ _ _ _ _ _ _ _ _ _ _).symm

/-! ## The certificate -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
